-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v190) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072 : Shape := ⟨1, ![131072]⟩
abbrev S131072x3 : Shape := ⟨2, ![131072, 3]⟩
abbrev S100x128 : Shape := ⟨2, ![100, 128]⟩
abbrev S3x1x128 : Shape := ⟨3, ![3, 1, 128]⟩
abbrev S3x128 : Shape := ⟨2, ![3, 128]⟩
abbrev S3x128x128 : Shape := ⟨3, ![3, 128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S_ : Shape := ⟨0, ![]⟩

class Facts : Prop where
  bcast_S_S131072x3 : S_.BroadcastsInDim S131072x3 (![] : Fin 0 → Fin S131072x3.rank)
  reducesTo_S131072x3_S_d0_1 : S131072x3.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S3x1x128 : S_.BroadcastsInDim S3x1x128 (![] : Fin 0 → Fin S3x1x128.rank)
  reducesTo_S3x1x128_S_d0_1_2 : S3x1x128.ReducesTo [0, 1, 2] S_
  bcast_S_S3x128 : S_.BroadcastsInDim S3x128 (![] : Fin 0 → Fin S3x128.rank)
  reducesTo_S3x128_S_d0_1 : S3x128.ReducesTo [0, 1] S_
  bcast_S_S3x128x128 : S_.BroadcastsInDim S3x128x128 (![] : Fin 0 → Fin S3x128x128.rank)
  reducesTo_S3x128x128_S_d0_1_2 : S3x128x128.ReducesTo [0, 1, 2] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S131072 : S_.BroadcastsInDim S131072 (![] : Fin 0 → Fin S131072.rank)
  reducesTo_S131072_S_d0 : S131072.ReducesTo [0] S_

variable [Facts]

def fn_part5 {F : FTy → Type} [FloatOps F] (main_v82 : IVec S_ 1) (main_v84 : IVec S131072 1) : IVec S_ 1 :=
  let main_c_33 : IVec S_ 1 := constantI S_ 1 1#1
  let main_v85 : IVec S_ 1 := (fun x v => Host.reduce IntOp.andi x v reducesTo_S131072_S_d0 h_S_) main_v84 main_c_33
  let main_v86 : IVec S_ 1 := andi main_v82 main_v85
  main_v86

def fn_part4 {F : FTy → Type} [FloatOps F] (main_arg0 : IVec S131072 32) (main_arg16 : FVec F S64x1 .f32) (main_arg17 : FVec F S1 .f32) (main_v63 : IVec S_ 1) (main_v67 : IVec S_ 1) : IVec S_ 1 :=
  let main_v68 : IVec S_ 1 := andi main_v63 main_v67
  let main_v69 : FVec F S64x1 .f32 := Host.absf main_arg16
  let main_cst_26 : FVec F S_ .f32 := constant S_ .f32 0x7F800000#32
  let main_v70 : FVec F S64x1 .f32 := broadcastInDim S64x1 ![] bcast_S_S64x1 main_cst_26
  let main_v71 : IVec S64x1 1 := cmpf .olt main_v69 main_v70
  let main_c_27 : IVec S_ 1 := constantI S_ 1 1#1
  let main_v72 : IVec S_ 1 := (fun x v => Host.reduce IntOp.andi x v reducesTo_S64x1_S_d0_1 h_S_) main_v71 main_c_27
  let main_v73 : IVec S_ 1 := andi main_v68 main_v72
  let main_v74 : FVec F S1 .f32 := Host.absf main_arg17
  let main_cst_28 : FVec F S_ .f32 := constant S_ .f32 0x7F800000#32
  let main_v75 : FVec F S1 .f32 := broadcastInDim S1 ![] bcast_S_S1 main_cst_28
  let main_v76 : IVec S1 1 := cmpf .olt main_v74 main_v75
  let main_c_29 : IVec S_ 1 := constantI S_ 1 1#1
  let main_v77 : IVec S_ 1 := (fun x v => Host.reduce IntOp.andi x v reducesTo_S1_S_d0 h_S_) main_v76 main_c_29
  let main_v78 : IVec S_ 1 := andi main_v73 main_v77
  let main_c_30 : IVec S_ 32 := constantI S_ 32 0#32
  let main_v79 : IVec S131072 32 := broadcastInDim S131072 ![] bcast_S_S131072 main_c_30
  let main_v80 : IVec S131072 1 := cmpi .sge main_arg0 main_v79
  let main_c_31 : IVec S_ 1 := constantI S_ 1 1#1
  let main_v81 : IVec S_ 1 := (fun x v => Host.reduce IntOp.andi x v reducesTo_S131072_S_d0 h_S_) main_v80 main_c_31
  let main_v82 : IVec S_ 1 := andi main_v78 main_v81
  let main_c_32 : IVec S_ 32 := constantI S_ 32 100#32
  let main_v83 : IVec S131072 32 := broadcastInDim S131072 ![] bcast_S_S131072 main_c_32
  let main_v84 : IVec S131072 1 := cmpi .slt main_arg0 main_v83
  fn_part5 (F := F) main_v82 main_v84

def fn_part3 {F : FTy → Type} [FloatOps F] (main_arg0 : IVec S131072 32) (main_arg13 : FVec F S3x128 .f32) (main_arg14 : FVec F S128x64 .f32) (main_arg15 : FVec F S64 .f32) (main_arg16 : FVec F S64x1 .f32) (main_arg17 : FVec F S1 .f32) (main_v48 : IVec S_ 1) (main_v49 : FVec F S3x128x128 .f32) (main_v50 : FVec F S3x128x128 .f32) : IVec S_ 1 :=
  let main_v51 : IVec S3x128x128 1 := cmpf .olt main_v49 main_v50
  let main_c_19 : IVec S_ 1 := constantI S_ 1 1#1
  let main_v52 : IVec S_ 1 := (fun x v => Host.reduce IntOp.andi x v reducesTo_S3x128x128_S_d0_1_2 h_S_) main_v51 main_c_19
  let main_v53 : IVec S_ 1 := andi main_v48 main_v52
  let main_v54 : FVec F S3x128 .f32 := Host.absf main_arg13
  let main_cst_20 : FVec F S_ .f32 := constant S_ .f32 0x7F800000#32
  let main_v55 : FVec F S3x128 .f32 := broadcastInDim S3x128 ![] bcast_S_S3x128 main_cst_20
  let main_v56 : IVec S3x128 1 := cmpf .olt main_v54 main_v55
  let main_c_21 : IVec S_ 1 := constantI S_ 1 1#1
  let main_v57 : IVec S_ 1 := (fun x v => Host.reduce IntOp.andi x v reducesTo_S3x128_S_d0_1 h_S_) main_v56 main_c_21
  let main_v58 : IVec S_ 1 := andi main_v53 main_v57
  let main_v59 : FVec F S128x64 .f32 := Host.absf main_arg14
  let main_cst_22 : FVec F S_ .f32 := constant S_ .f32 0x7F800000#32
  let main_v60 : FVec F S128x64 .f32 := broadcastInDim S128x64 ![] bcast_S_S128x64 main_cst_22
  let main_v61 : IVec S128x64 1 := cmpf .olt main_v59 main_v60
  let main_c_23 : IVec S_ 1 := constantI S_ 1 1#1
  let main_v62 : IVec S_ 1 := (fun x v => Host.reduce IntOp.andi x v reducesTo_S128x64_S_d0_1 h_S_) main_v61 main_c_23
  let main_v63 : IVec S_ 1 := andi main_v58 main_v62
  let main_v64 : FVec F S64 .f32 := Host.absf main_arg15
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg0 main_arg16 main_arg17 main_v63 main_v67

def fn_part2 {F : FTy → Type} [FloatOps F] (main_arg0 : IVec S131072 32) (main_arg9 : FVec F S3x128 .f32) (main_arg10 : FVec F S3x128x128 .f32) (main_arg11 : FVec F S3x128 .f32) (main_arg12 : FVec F S3x128x128 .f32) (main_arg13 : FVec F S3x128 .f32) (main_arg14 : FVec F S128x64 .f32) (main_arg15 : FVec F S64 .f32) (main_arg16 : FVec F S64x1 .f32) (main_arg17 : FVec F S1 .f32) (main_v33 : IVec S_ 1) : IVec S_ 1 :=
  let main_v34 : FVec F S3x128 .f32 := Host.absf main_arg9
  let main_cst_12 : FVec F S_ .f32 := constant S_ .f32 0x7F800000#32
  let main_v35 : FVec F S3x128 .f32 := broadcastInDim S3x128 ![] bcast_S_S3x128 main_cst_12
  let main_v36 : IVec S3x128 1 := cmpf .olt main_v34 main_v35
  let main_c_13 : IVec S_ 1 := constantI S_ 1 1#1
  let main_v37 : IVec S_ 1 := (fun x v => Host.reduce IntOp.andi x v reducesTo_S3x128_S_d0_1 h_S_) main_v36 main_c_13
  let main_v38 : IVec S_ 1 := andi main_v33 main_v37
  let main_v39 : FVec F S3x128x128 .f32 := Host.absf main_arg10
  let main_cst_14 : FVec F S_ .f32 := constant S_ .f32 0x7F800000#32
  let main_v40 : FVec F S3x128x128 .f32 := broadcastInDim S3x128x128 ![] bcast_S_S3x128x128 main_cst_14
  let main_v41 : IVec S3x128x128 1 := cmpf .olt main_v39 main_v40
  let main_c_15 : IVec S_ 1 := constantI S_ 1 1#1
  let main_v42 : IVec S_ 1 := (fun x v => Host.reduce IntOp.andi x v reducesTo_S3x128x128_S_d0_1_2 h_S_) main_v41 main_c_15
  let main_v43 : IVec S_ 1 := andi main_v38 main_v42
  let main_v44 : FVec F S3x128 .f32 := Host.absf main_arg11
  let main_cst_16 : FVec F S_ .f32 := constant S_ .f32 0x7F800000#32
  let main_v45 : FVec F S3x128 .f32 := broadcastInDim S3x128 ![] bcast_S_S3x128 main_cst_16
  let main_v46 : IVec S3x128 1 := cmpf .olt main_v44 main_v45
  let main_c_17 : IVec S_ 1 := constantI S_ 1 1#1
  let main_v47 : IVec S_ 1 := (fun x v => Host.reduce IntOp.andi x v reducesTo_S3x128_S_d0_1 h_S_) main_v46 main_c_17
  let main_v48 : IVec S_ 1 := andi main_v43 main_v47
  let main_v49 : FVec F S3x128x128 .f32 := Host.absf main_arg12
  let main_cst_18 : FVec F S_ .f32 := constant S_ .f32 0x7F800000#32
  let main_v50 : FVec F S3x128x128 .f32 := broadcastInDim S3x128x128 ![] bcast_S_S3x128x128 main_cst_18
  fn_part3 (F := F) main_arg0 main_arg13 main_arg14 main_arg15 main_arg16 main_arg17 main_v48 main_v49 main_v50

def fn_part1 {F : FTy → Type} [FloatOps F] (main_arg0 : IVec S131072 32) (main_arg6 : FVec F S3x128x128 .f32) (main_arg7 : FVec F S3x128 .f32) (main_arg8 : FVec F S3x128x128 .f32) (main_arg9 : FVec F S3x128 .f32) (main_arg10 : FVec F S3x128x128 .f32) (main_arg11 : FVec F S3x128 .f32) (main_arg12 : FVec F S3x128x128 .f32) (main_arg13 : FVec F S3x128 .f32) (main_arg14 : FVec F S128x64 .f32) (main_arg15 : FVec F S64 .f32) (main_arg16 : FVec F S64x1 .f32) (main_arg17 : FVec F S1 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3x128x128 .f32 := Host.absf main_arg6
  let main_cst_6 : FVec F S_ .f32 := constant S_ .f32 0x7F800000#32
  let main_v20 : FVec F S3x128x128 .f32 := broadcastInDim S3x128x128 ![] bcast_S_S3x128x128 main_cst_6
  let main_v21 : IVec S3x128x128 1 := cmpf .olt main_v19 main_v20
  let main_c_7 : IVec S_ 1 := constantI S_ 1 1#1
  let main_v22 : IVec S_ 1 := (fun x v => Host.reduce IntOp.andi x v reducesTo_S3x128x128_S_d0_1_2 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128x128 .f32 := Host.absf main_arg8
  let main_cst_10 : FVec F S_ .f32 := constant S_ .f32 0x7F800000#32
  let main_v30 : FVec F S3x128x128 .f32 := broadcastInDim S3x128x128 ![] bcast_S_S3x128x128 main_cst_10
  let main_v31 : IVec S3x128x128 1 := cmpf .olt main_v29 main_v30
  let main_c_11 : IVec S_ 1 := constantI S_ 1 1#1
  let main_v32 : IVec S_ 1 := (fun x v => Host.reduce IntOp.andi x v reducesTo_S3x128x128_S_d0_1_2 h_S_) main_v31 main_c_11
  let main_v33 : IVec S_ 1 := andi main_v28 main_v32
  fn_part2 (F := F) main_arg0 main_arg9 main_arg10 main_arg11 main_arg12 main_arg13 main_arg14 main_arg15 main_arg16 main_arg17 main_v33

def fn {F : FTy → Type} [FloatOps F] (main_arg0 : IVec S131072 32) (main_arg1 : FVec F S131072x3 .f32) (main_arg2 : IVec S131072 32) (main_arg3 : FVec F S100x128 .f32) (main_arg4 : FVec F S3x1x128 .f32) (main_arg5 : FVec F S3x128 .f32) (main_arg6 : FVec F S3x128x128 .f32) (main_arg7 : FVec F S3x128 .f32) (main_arg8 : FVec F S3x128x128 .f32) (main_arg9 : FVec F S3x128 .f32) (main_arg10 : FVec F S3x128x128 .f32) (main_arg11 : FVec F S3x128 .f32) (main_arg12 : FVec F S3x128x128 .f32) (main_arg13 : FVec F S3x128 .f32) (main_arg14 : FVec F S128x64 .f32) (main_arg15 : FVec F S64 .f32) (main_arg16 : FVec F S64x1 .f32) (main_arg17 : FVec F S1 .f32) : IVec S_ 1 :=
  let main_v0 : FVec F S131072x3 .f32 := Host.absf main_arg1
  let main_cst : FVec F S_ .f32 := constant S_ .f32 0x7F800000#32
  let main_v1 : FVec F S131072x3 .f32 := broadcastInDim S131072x3 ![] bcast_S_S131072x3 main_cst
  let main_v2 : IVec S131072x3 1 := cmpf .olt main_v0 main_v1
  let main_c : IVec S_ 1 := constantI S_ 1 1#1
  let main_v3 : IVec S_ 1 := (fun x v => Host.reduce IntOp.andi x v reducesTo_S131072x3_S_d0_1 h_S_) main_v2 main_c
  let main_v4 : FVec F S100x128 .f32 := Host.absf main_arg3
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S3x1x128 .f32 := Host.absf main_arg4
  let main_cst_2 : FVec F S_ .f32 := constant S_ .f32 0x7F800000#32
  let main_v10 : FVec F S3x1x128 .f32 := broadcastInDim S3x1x128 ![] bcast_S_S3x1x128 main_cst_2
  let main_v11 : IVec S3x1x128 1 := cmpf .olt main_v9 main_v10
  let main_c_3 : IVec S_ 1 := constantI S_ 1 1#1
  let main_v12 : IVec S_ 1 := (fun x v => Host.reduce IntOp.andi x v reducesTo_S3x1x128_S_d0_1_2 h_S_) main_v11 main_c_3
  let main_v13 : IVec S_ 1 := andi main_v8 main_v12
  let main_v14 : FVec F S3x128 .f32 := Host.absf main_arg5
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg0 main_arg6 main_arg7 main_arg8 main_arg9 main_arg10 main_arg11 main_arg12 main_arg13 main_arg14 main_arg15 main_arg16 main_arg17 main_v13 main_v16
-- ==== Kernel.lean ====
abbrev S131072 : Shape := ⟨1, ![131072]⟩
abbrev S131072x3 : Shape := ⟨2, ![131072, 3]⟩
abbrev S100x128 : Shape := ⟨2, ![100, 128]⟩
abbrev S3x1x128 : Shape := ⟨3, ![3, 1, 128]⟩
abbrev S3x128 : Shape := ⟨2, ![3, 128]⟩
abbrev S3x128x128 : Shape := ⟨3, ![3, 128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2048x64x3 : Shape := ⟨3, ![2048, 64, 3]⟩
abbrev S2048x64x1x3 : Shape := ⟨4, ![2048, 64, 1, 3]⟩
abbrev S2048x1x64x3 : Shape := ⟨4, ![2048, 1, 64, 3]⟩
abbrev S2048x64x64x3 : Shape := ⟨4, ![2048, 64, 64, 3]⟩
abbrev S_ : Shape := ⟨0, ![]⟩
abbrev S2048x64x64 : Shape := ⟨3, ![2048, 64, 64]⟩
abbrev S2048x64 : Shape := ⟨2, ![2048, 64]⟩
abbrev S131072x1 : Shape := ⟨2, ![131072, 1]⟩
abbrev S128x128 : Shape := ⟨2, ![128, 128]⟩
abbrev S4096x3 : Shape := ⟨2, ![4096, 3]⟩
abbrev S4096x1 : Shape := ⟨2, ![4096, 1]⟩
abbrev S1x128 : Shape := ⟨2, ![1, 128]⟩
abbrev S4096x128 : Shape := ⟨2, ![4096, 128]⟩
abbrev S1x1x128 : Shape := ⟨3, ![1, 1, 128]⟩
abbrev S128 : Shape := ⟨1, ![128]⟩
abbrev S1x128x128 : Shape := ⟨3, ![1, 128, 128]⟩
abbrev S4096x64 : Shape := ⟨2, ![4096, 64]⟩
abbrev S1x64 : Shape := ⟨2, ![1, 64]⟩
abbrev S1x1 : Shape := ⟨2, ![1, 1]⟩

abbrev nBuf : Space → Nat
  | .hbm => 57
  | .vmem => 19
  | .smem => 0
  | _ => 0

abbrev bufTy : (tb : Table) → Fin (tcTables nBuf tb) → BufTy
  | .hbm, ⟨0, _⟩ => ⟨S131072, .i32⟩
  | .hbm, ⟨1, _⟩ => ⟨S131072x3, .f32⟩
  | .hbm, ⟨2, _⟩ => ⟨S131072, .i32⟩
  | .hbm, ⟨3, _⟩ => ⟨S100x128, .f32⟩
  | .hbm, ⟨4, _⟩ => ⟨S3x1x128, .f32⟩
  | .hbm, ⟨5, _⟩ => ⟨S3x128, .f32⟩
  | .hbm, ⟨6, _⟩ => ⟨S3x128x128, .f32⟩
  | .hbm, ⟨7, _⟩ => ⟨S3x128, .f32⟩
  | .hbm, ⟨8, _⟩ => ⟨S3x128x128, .f32⟩
  | .hbm, ⟨9, _⟩ => ⟨S3x128, .f32⟩
  | .hbm, ⟨10, _⟩ => ⟨S3x128x128, .f32⟩
  | .hbm, ⟨11, _⟩ => ⟨S3x128, .f32⟩
  | .hbm, ⟨12, _⟩ => ⟨S3x128x128, .f32⟩
  | .hbm, ⟨13, _⟩ => ⟨S3x128, .f32⟩
  | .hbm, ⟨14, _⟩ => ⟨S128x64, .f32⟩
  | .hbm, ⟨15, _⟩ => ⟨S64, .f32⟩
  | .hbm, ⟨16, _⟩ => ⟨S64x1, .f32⟩
  | .hbm, ⟨17, _⟩ => ⟨S1, .f32⟩
  | .hbm, ⟨18, _⟩ => ⟨S2048x64x3, .f32⟩
  | .hbm, ⟨19, _⟩ => ⟨S2048x64x1x3, .f32⟩
  | .hbm, ⟨20, _⟩ => ⟨S2048x1x64x3, .f32⟩
  | .hbm, ⟨21, _⟩ => ⟨S2048x64x64x3, .f32⟩
  | .hbm, ⟨22, _⟩ => ⟨S2048x64x64x3, .f32⟩
  | .hbm, ⟨23, _⟩ => ⟨S2048x64x64x3, .f32⟩
  | .hbm, ⟨24, _⟩ => ⟨S2048x64x64x3, .f32⟩
  | .hbm, ⟨25, _⟩ => ⟨S_, .f32⟩
  | .hbm, ⟨26, _⟩ => ⟨S2048x64x64, .f32⟩
  | .hbm, ⟨27, _⟩ => ⟨S_, .f32⟩
  | .hbm, ⟨28, _⟩ => ⟨S2048x64x64, .f32⟩
  | .hbm, ⟨29, _⟩ => ⟨S2048x64x64, .f32⟩
  | .hbm, ⟨30, _⟩ => ⟨S2048x64x64, .f32⟩
  | .hbm, ⟨31, _⟩ => ⟨S_, .f32⟩
  | .hbm, ⟨32, _⟩ => ⟨S2048x64, .f32⟩
  | .hbm, ⟨33, _⟩ => ⟨S_, .f32⟩
  | .hbm, ⟨34, _⟩ => ⟨S2048x64, .f32⟩
  | .hbm, ⟨35, _⟩ => ⟨S2048x64, .f32⟩
  | .hbm, ⟨36, _⟩ => ⟨S131072, .f32⟩
  | .hbm, ⟨37, _⟩ => ⟨S_, .f32⟩
  | .hbm, ⟨38, _⟩ => ⟨S131072, .f32⟩
  | .hbm, ⟨39, _⟩ => ⟨S131072, .f32⟩
  | .hbm, ⟨40, _⟩ => ⟨S131072, .f32⟩
  | .hbm, ⟨41, _⟩ => ⟨S_, .f32⟩
  | .hbm, ⟨42, _⟩ => ⟨S131072, .f32⟩
  | .hbm, ⟨43, _⟩ => ⟨S131072, .i1⟩
  | .hbm, ⟨44, _⟩ => ⟨S131072, .f32⟩
  | .hbm, ⟨45, _⟩ => ⟨S131072, .f32⟩
  | .hbm, ⟨46, _⟩ => ⟨S131072, .f32⟩
  | .hbm, ⟨47, _⟩ => ⟨S131072x1, .f32⟩
  | .hbm, ⟨48, _⟩ => ⟨S131072x1, .f32⟩
  | .hbm, ⟨49, _⟩ => ⟨S131072x1, .f32⟩
  | .hbm, ⟨50, _⟩ => ⟨S131072x3, .f32⟩
  | .hbm, ⟨51, _⟩ => ⟨S_, .f32⟩
  | .hbm, ⟨52, _⟩ => ⟨S128x128, .f32⟩
  | .hbm, ⟨53, _⟩ => ⟨S_, .i32⟩
  | .hbm, ⟨54, _⟩ => ⟨S1, .i32⟩
  | .hbm, ⟨55, _⟩ => ⟨S128x128, .f32⟩
  | .hbm, ⟨56, _⟩ => ⟨S131072x1, .f32⟩
  | .local _ .vmem, ⟨0, _⟩ => ⟨S4096x3, .f32⟩
  | .local _ .vmem, ⟨1, _⟩ => ⟨S4096x3, .f32⟩
  | .local _ .vmem, ⟨2, _⟩ => ⟨S128x128, .f32⟩
  | .local _ .vmem, ⟨3, _⟩ => ⟨S3x1x128, .f32⟩
  | .local _ .vmem, ⟨4, _⟩ => ⟨S3x128, .f32⟩
  | .local _ .vmem, ⟨5, _⟩ => ⟨S3x128x128, .f32⟩
  | .local _ .vmem, ⟨6, _⟩ => ⟨S3x128, .f32⟩
  | .local _ .vmem, ⟨7, _⟩ => ⟨S3x128x128, .f32⟩
  | .local _ .vmem, ⟨8, _⟩ => ⟨S3x128, .f32⟩
  | .local _ .vmem, ⟨9, _⟩ => ⟨S3x128x128, .f32⟩
  | .local _ .vmem, ⟨10, _⟩ => ⟨S3x128, .f32⟩
  | .local _ .vmem, ⟨11, _⟩ => ⟨S3x128x128, .f32⟩
  | .local _ .vmem, ⟨12, _⟩ => ⟨S3x128, .f32⟩
  | .local _ .vmem, ⟨13, _⟩ => ⟨S128x64, .f32⟩
  | .local _ .vmem, ⟨14, _⟩ => ⟨S64, .f32⟩
  | .local _ .vmem, ⟨15, _⟩ => ⟨S64x1, .f32⟩
  | .local _ .vmem, ⟨16, _⟩ => ⟨S1, .f32⟩
  | .local _ .vmem, ⟨17, _⟩ => ⟨S4096x1, .f32⟩
  | .local _ .vmem, ⟨18, _⟩ => ⟨S4096x1, .f32⟩
  | _, _ => ⟨S131072, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_c : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg16_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem16_1 : DmaSem sig := 18

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S3x1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S3x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S3x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S3x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S3x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S128x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S64x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S4096x1 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

class Facts₀ : Prop where
  shapeCasts_S131072x3_S2048x64x3 : S131072x3.ShapeCasts S2048x64x3
  bcast_S2048x64x3_S2048x64x1x3_0_1_3 : S2048x64x3.BroadcastsInDim S2048x64x1x3 (![0, 1, 3] : Fin 3 → Fin S2048x64x1x3.rank)
  bcast_S2048x64x3_S2048x1x64x3_0_2_3 : S2048x64x3.BroadcastsInDim S2048x1x64x3 (![0, 2, 3] : Fin 3 → Fin S2048x1x64x3.rank)
  bcast_S2048x64x1x3_S2048x64x64x3_0_1_2_3 : S2048x64x1x3.BroadcastsInDim S2048x64x64x3 (![0, 1, 2, 3] : Fin 4 → Fin S2048x64x64x3.rank)
  bcast_S2048x1x64x3_S2048x64x64x3_0_1_2_3 : S2048x1x64x3.BroadcastsInDim S2048x64x64x3 (![0, 1, 2, 3] : Fin 4 → Fin S2048x64x64x3.rank)
  reducesTo_S2048x64x64x3_S2048x64x64_d3 : S2048x64x64x3.ReducesTo [3] S2048x64x64
  h_S_ : 0 < S_.numel
  bcast_S_S2048x64x64 : S_.BroadcastsInDim S2048x64x64 (![] : Fin 0 → Fin S2048x64x64.rank)
  reducesTo_S2048x64x64_S2048x64_d2 : S2048x64x64.ReducesTo [2] S2048x64
  bcast_S_S2048x64 : S_.BroadcastsInDim S2048x64 (![] : Fin 0 → Fin S2048x64.rank)
  shapeCasts_S2048x64_S131072 : S2048x64.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  concatenates_S131072x1_S131072x1_S131072x1_S131072x3_d1 : Shape.Concatenates [S131072x1, S131072x1, S131072x1] S131072x3 1
  bcast_S_S128x128 : S_.BroadcastsInDim S128x128 (![] : Fin 0 → Fin S128x128.rank)
  bcast_S_S1 : S_.BroadcastsInDim S1 (![] : Fin 0 → Fin S1.rank)
  inb_S4096x3_S4096x3_0_0 : ∀ a, (![0, 0] : Fin 2 → Nat) a + S4096x3.size a ≤ S4096x3.size a
  h_S4096x3 : 0 < S4096x3.numel
  shapeCasts_S4096x3_S4096x3 : S4096x3.ShapeCasts S4096x3
  slices_S4096x3_o0_0_S4096x1 : S4096x3.Slices ![0, 0] S4096x1
  slices_S4096x3_o0_1_S4096x1 : S4096x3.Slices ![0, 1] S4096x1
  slices_S4096x3_o0_2_S4096x1 : S4096x3.Slices ![0, 2] S4096x1
  iota_S1x128_d1_w32 : S1x128.Iotas .tc 32 [1]
  broadcasts_S4096x1_S4096x128 : S4096x1.Broadcasts S4096x128
  broadcasts_S1x128_S4096x128 : S1x128.Broadcasts S4096x128
  natLt_1_32 : 1 < 32
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S3x1x128_S1x1x128_0_0_0 : ∀ a, (![0, 0, 0] : Fin 3 → Nat) a + S1x1x128.size a ≤ S3x1x128.size a
  h_S1x1x128 : 0 < S1x1x128.numel
  shapeCasts_S1x1x128_S1x128 : S1x1x128.ShapeCasts S1x128
  inb_S3x128_S1x128_0_0 : ∀ a, (![0, 0] : Fin 2 → Nat) a + S1x128.size a ≤ S3x128.size a
  h_S1x128 : 0 < S1x128.numel
  shapeCasts_S1x128_S128 : S1x128.ShapeCasts S128
  inb_S3x128x128_S1x128x128_0_0_0 : ∀ a, (![0, 0, 0] : Fin 3 → Nat) a + S1x128x128.size a ≤ S3x128x128.size a
  h_S1x128x128 : 0 < S1x128x128.numel
  shapeCasts_S1x128x128_S128x128 : S1x128x128.ShapeCasts S128x128
  shapeCasts_S128_S1x128 : S128.ShapeCasts S1x128
  inb_S3x1x128_S1x1x128_1_0_0 : ∀ a, (![1, 0, 0] : Fin 3 → Nat) a + S1x1x128.size a ≤ S3x1x128.size a
  inb_S3x128_S1x128_1_0 : ∀ a, (![1, 0] : Fin 2 → Nat) a + S1x128.size a ≤ S3x128.size a
  inb_S3x128x128_S1x128x128_1_0_0 : ∀ a, (![1, 0, 0] : Fin 3 → Nat) a + S1x128x128.size a ≤ S3x128x128.size a
  inb_S3x1x128_S1x1x128_2_0_0 : ∀ a, (![2, 0, 0] : Fin 3 → Nat) a + S1x1x128.size a ≤ S3x1x128.size a
  inb_S3x128_S1x128_2_0 : ∀ a, (![2, 0] : Fin 2 → Nat) a + S1x128.size a ≤ S3x128.size a
  inb_S3x128x128_S1x128x128_2_0_0 : ∀ a, (![2, 0, 0] : Fin 3 → Nat) a + S1x128x128.size a ≤ S3x128x128.size a
  inb_S128x64_S128x64_0_0 : ∀ a, (![0, 0] : Fin 2 → Nat) a + S128x64.size a ≤ S128x64.size a
  h_S128x64 : 0 < S128x64.numel
  inb_S64_S64_0 : ∀ a, (![0] : Fin 1 → Nat) a + S64.size a ≤ S64.size a
  h_S64 : 0 < S64.numel
  shapeCasts_S64_S1x64 : S64.ShapeCasts S1x64
  broadcasts_S1x64_S4096x64 : S1x64.Broadcasts S4096x64
  inb_S64x1_S64x1_0_0 : ∀ a, (![0, 0] : Fin 2 → Nat) a + S64x1.size a ≤ S64x1.size a
  h_S64x1 : 0 < S64x1.numel
  inb_S1_S1_0 : ∀ a, (![0] : Fin 1 → Nat) a + S1.size a ≤ S1.size a
  h_S1 : 0 < S1.numel
  shapeCasts_S1_S1x1 : S1.ShapeCasts S1x1
  broadcasts_S1x1_S4096x1 : S1x1.Broadcasts S4096x1
  inb_S4096x1_S4096x1_0_0 : ∀ a, (![0, 0] : Fin 2 → Nat) a + S4096x1.size a ≤ S4096x1.size a
  h_S4096x1 : 0 < S4096x1.numel
  scatter_S128x128_S1_S100x128_01_n_0_0_wf : ScatterDims.WF S128x128 S1 S100x128 [0, 1] [] [0] 0
  dot_S4096x128_S128x128_S4096x128_1_0_0_1_n_n_wf : DotDims.WF S4096x128 S128x128 S4096x128 [1] [0] [0] [1] [] []
  dot_S4096x128_S128x64_S4096x64_1_0_0_1_n_n_wf : DotDims.WF S4096x128 S128x64 S4096x64 [1] [0] [0] [1] [] []
  dot_S4096x64_S64x1_S4096x1_1_0_0_1_n_n_wf : DotDims.WF S4096x64 S64x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x3.size a ≤ S131072x3.size a
  hwx0_0 : ∀ i : grid0.Coords, EltTy.bits .f32 = 32 ∨ (Rect.block (s := S131072x3) S4096x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S3x1x128.size a ≤ S3x1x128.size a
  hwx0_2 : ∀ i : grid0.Coords, EltTy.bits .f32 = 32 ∨ (Rect.block (s := S3x1x128) S3x1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128.size a ≤ S3x128.size a
  hwx0_3 : ∀ i : grid0.Coords, EltTy.bits .f32 = 32 ∨ (Rect.block (s := S3x128) S3x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S3x128x128.size a ≤ S3x128x128.size a
  hwx0_4 : ∀ i : grid0.Coords, EltTy.bits .f32 = 32 ∨ (Rect.block (s := S3x128x128) S3x128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x128.size a ≤ S3x128.size a
  hwx0_5 : ∀ i : grid0.Coords, EltTy.bits .f32 = 32 ∨ (Rect.block (s := S3x128) S3x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S3x128x128.size a ≤ S3x128x128.size a
  hwx0_6 : ∀ i : grid0.Coords, EltTy.bits .f32 = 32 ∨ (Rect.block (s := S3x128x128) S3x128x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S3x128.size a ≤ S3x128.size a
  hwx0_7 : ∀ i : grid0.Coords, EltTy.bits .f32 = 32 ∨ (Rect.block (s := S3x128) S3x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S3x128x128.size a ≤ S3x128x128.size a
  hwx0_8 : ∀ i : grid0.Coords, EltTy.bits .f32 = 32 ∨ (Rect.block (s := S3x128x128) S3x128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S3x128.size a ≤ S3x128.size a
  hwx0_9 : ∀ i : grid0.Coords, EltTy.bits .f32 = 32 ∨ (Rect.block (s := S3x128) S3x128.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S3x128x128.size a ≤ S3x128x128.size a
  hwx0_10 : ∀ i : grid0.Coords, EltTy.bits .f32 = 32 ∨ (Rect.block (s := S3x128x128) S3x128x128.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S3x128.size a ≤ S3x128.size a
  hwx0_11 : ∀ i : grid0.Coords, EltTy.bits .f32 = 32 ∨ (Rect.block (s := S3x128) S3x128.size (cc0_transform_11 i) (hinb0_11 i)).WholeWords (EltTy.packing .f32)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S128x64.size a ≤ S128x64.size a
  hwx0_12 : ∀ i : grid0.Coords, EltTy.bits .f32 = 32 ∨ (Rect.block (s := S128x64) S128x64.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S64.size a ≤ S64.size a
  hwx0_13 : ∀ i : grid0.Coords, EltTy.bits .f32 = 32 ∨ (Rect.block (s := S64) S64.size (cc0_transform_13 i) (hinb0_13 i)).WholeWords (EltTy.packing .f32)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S64x1.size a ≤ S64x1.size a
  hwx0_14 : ∀ i : grid0.Coords, EltTy.bits .f32 = 32 ∨ (Rect.block (s := S64x1) S64x1.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1.size a ≤ S1.size a
  hwx0_15 : ∀ i : grid0.Coords, EltTy.bits .f32 = 32 ∨ (Rect.block (s := S1) S1.size (cc0_transform_15 i) (hinb0_15 i)).WholeWords (EltTy.packing .f32)
  hstage0_16 : ∀ j, (stage0_16 j).IsWhole
  nbuf0_16 : grid0.bufCount reads0_16 false = 2
  hreads0_16 : ∀ i i' : grid0.Coords, (∀ a, reads0_16 a = true → i a = i' a) → cc0_transform_16 i = cc0_transform_16 i'
  hinb0_16 : ∀ (i : grid0.Coords) a, (cc0_transform_16 i a + 1) * S4096x1.size a ≤ S131072x1.size a
  hwx0_16 : ∀ i : grid0.Coords, EltTy.bits .f32 = 32 ∨ (Rect.block (s := S131072x1) S4096x1.size (cc0_transform_16 i) (hinb0_16 i)).WholeWords (EltTy.packing .f32)

variable [Facts₀]

def scatter_S128x128_S1_S100x128_01_n_0_0 : ScatterDims S128x128 S1 S100x128 where
  updateWindowDims := [0, 1]
  insertedWindowDims := []
  scatterDimsToOperandDims := [0]
  indexVectorDim := 0
  wf := scatter_S128x128_S1_S100x128_01_n_0_0_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def dot_S4096x64_S64x1_S4096x1_1_0_0_1_n_n : DotDims S4096x64 S64x1 S4096x1 where
  lhsContracting := [1]
  rhsContracting := [0]
  lhsNonContracting := [0]
  rhsNonContracting := [1]
  lhsBatch := []
  rhsBatch := []
  wf := dot_S4096x64_S64x1_S4096x1_1_0_0_1_n_n_wf

abbrev win0_0 : Pipeline.Window sig grid0 :=
  Pipeline.Window.ofSpec (Memref.whole main_v26) S4096x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v29) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S3x1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S3x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S3x128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg7) S3x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg8) S3x128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg9) S3x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg10) S3x128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg11) S3x128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg12) S3x128x128.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg13) S3x128.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg14) S128x64.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_arg15) S64.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg16) S64x1.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_arg17) S1.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_v30) S4096x1.size cc0_transform_16 reads0_16 true false 2 stage0_16 sem0_16
    hrank0 hreads0_16 hinb0_16 nbuf0_16 (Memref.isWhole_whole _) hwx0_16 hstage0_16

abbrev win0 : Fin 17 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | ⟨_ + 17, h⟩ => absurd h (Nat.not_lt.2 (Nat.le_add_left _ _))
abbrev spec0 : Fin 17 → Pipeline.WinSpec sig grid0.rank := fun w => (win0 w).toWinSpec

class Facts : Prop extends Facts₀ where

variable [Facts]
-- ==== ReferenceIdeal.lean ====
abbrev S131072 : Shape := ⟨1, ![131072]⟩
abbrev S131072x3 : Shape := ⟨2, ![131072, 3]⟩
abbrev S100x128 : Shape := ⟨2, ![100, 128]⟩
abbrev S3x1x128 : Shape := ⟨3, ![3, 1, 128]⟩
abbrev S3x128 : Shape := ⟨2, ![3, 128]⟩
abbrev S3x128x128 : Shape := ⟨3, ![3, 128, 128]⟩
abbrev S128x64 : Shape := ⟨2, ![128, 64]⟩
abbrev S64 : Shape := ⟨1, ![64]⟩
abbrev S64x1 : Shape := ⟨2, ![64, 1]⟩
abbrev S1 : Shape := ⟨1, ![1]⟩
abbrev S2048x64x3 : Shape := ⟨3, ![2048, 64, 3]⟩
abbrev S2048x64x1x3 : Shape := ⟨4, ![2048, 64, 1, 3]⟩
abbrev S2048x1x64x3 : Shape := ⟨4, ![2048, 1, 64, 3]⟩
abbrev S2048x64x64x3 : Shape := ⟨4, ![2048, 64, 64, 3]⟩
abbrev S_ : Shape := ⟨0, ![]⟩
abbrev S2048x64x64 : Shape := ⟨3, ![2048, 64, 64]⟩
abbrev S2048x64 : Shape := ⟨2, ![2048, 64]⟩
abbrev S131072x1 : Shape := ⟨2, ![131072, 1]⟩
abbrev S131072x128 : Shape := ⟨2, ![131072, 128]⟩
abbrev S1x1x128 : Shape := ⟨3, ![1, 1, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S131072x64 : Shape := ⟨2, ![131072, 64]⟩
abbrev S1x64 : Shape := ⟨2, ![1, 64]⟩
abbrev S1x1 : Shape := ⟨2, ![1, 1]⟩

abbrev nBuf : Space → Nat
  | .hbm => 231
  | .vmem => 0
  | .smem => 0
  | _ => 0

abbrev hbmTy0_0 (i : Nat) : BufTy := match i % 128 with
  | 0 => ⟨S131072, .i32⟩
  | 1 => ⟨S131072x3, .f32⟩
  | 2 => ⟨S131072, .i32⟩
  | 3 => ⟨S100x128, .f32⟩
  | 4 => ⟨S3x1x128, .f32⟩
  | 5 => ⟨S3x128, .f32⟩
  | 6 => ⟨S3x128x128, .f32⟩
  | 7 => ⟨S3x128, .f32⟩
  | 8 => ⟨S3x128x128, .f32⟩
  | 9 => ⟨S3x128, .f32⟩
  | 10 => ⟨S3x128x128, .f32⟩
  | 11 => ⟨S3x128, .f32⟩
  | 12 => ⟨S3x128x128, .f32⟩
  | 13 => ⟨S3x128, .f32⟩
  | 14 => ⟨S128x64, .f32⟩
  | 15 => ⟨S64, .f32⟩
  | 16 => ⟨S64x1, .f32⟩
  | 17 => ⟨S1, .f32⟩
  | 18 => ⟨S2048x64x3, .f32⟩
  | 19 => ⟨S2048x64x1x3, .f32⟩
  | 20 => ⟨S2048x1x64x3, .f32⟩
  | 21 => ⟨S2048x64x64x3, .f32⟩
  | 22 => ⟨S2048x64x64x3, .f32⟩
  | 23 => ⟨S2048x64x64x3, .f32⟩
  | 24 => ⟨S2048x64x64x3, .f32⟩
  | 25 => ⟨S_, .f32⟩
  | 26 => ⟨S2048x64x64, .f32⟩
  | 27 => ⟨S_, .f32⟩
  | 28 => ⟨S2048x64x64, .f32⟩
  | 29 => ⟨S2048x64x64, .f32⟩
  | 30 => ⟨S2048x64x64, .f32⟩
  | 31 => ⟨S_, .f32⟩
  | 32 => ⟨S2048x64, .f32⟩
  | 33 => ⟨S_, .f32⟩
  | 34 => ⟨S2048x64, .f32⟩
  | 35 => ⟨S2048x64, .f32⟩
  | 36 => ⟨S131072, .f32⟩
  | 37 => ⟨S_, .f32⟩
  | 38 => ⟨S131072, .f32⟩
  | 39 => ⟨S131072, .f32⟩
  | 40 => ⟨S131072, .f32⟩
  | 41 => ⟨S_, .f32⟩
  | 42 => ⟨S131072, .f32⟩
  | 43 => ⟨S131072, .i1⟩
  | 44 => ⟨S131072, .f32⟩
  | 45 => ⟨S131072, .f32⟩
  | 46 => ⟨S_, .i32⟩
  | 47 => ⟨S131072, .i32⟩
  | 48 => ⟨S131072, .i1⟩
  | 49 => ⟨S_, .i32⟩
  | 50 => ⟨S131072, .i32⟩
  | 51 => ⟨S131072, .i32⟩
  | 52 => ⟨S131072, .i32⟩
  | 53 => ⟨S131072x1, .i32⟩
  | 54 => ⟨S131072x128, .f32⟩
  | 55 => ⟨S131072x1, .f32⟩
  | 56 => ⟨S1x1x128, .f32⟩
  | 57 => ⟨S1x128, .f32⟩
  | 58 => ⟨S128, .f32⟩
  | 59 => ⟨S1x128, .f32⟩
  | 60 => ⟨S131072x128, .f32⟩
  | 61 => ⟨S131072x128, .f32⟩
  | 62 => ⟨S131072x128, .f32⟩
  | 63 => ⟨S1x128, .f32⟩
  | 64 => ⟨S128, .f32⟩
  | 65 => ⟨S1x128, .f32⟩
  | 66 => ⟨S131072x128, .f32⟩
  | 67 => ⟨S131072x128, .f32⟩
  | 68 => ⟨S_, .f32⟩
  | 69 => ⟨S131072x128, .f32⟩
  | 70 => ⟨S131072x128, .f32⟩
  | 71 => ⟨S1x128x128, .f32⟩
  | 72 => ⟨S128x128, .f32⟩
  | 73 => ⟨S131072x128, .f32⟩
  | 74 => ⟨S1x128, .f32⟩
  | 75 => ⟨S128, .f32⟩
  | 76 => ⟨S1x128, .f32⟩
  | 77 => ⟨S131072x128, .f32⟩
  | 78 => ⟨S131072x128, .f32⟩
  | 79 => ⟨S131072x1, .f32⟩
  | 80 => ⟨S131072x128, .f32⟩
  | 81 => ⟨S131072x128, .f32⟩
  | 82 => ⟨S1x128x128, .f32⟩
  | 83 => ⟨S128x128, .f32⟩
  | 84 => ⟨S131072x128, .f32⟩
  | 85 => ⟨S1x128, .f32⟩
  | 86 => ⟨S128, .f32⟩
  | 87 => ⟨S1x128, .f32⟩
  | 88 => ⟨S131072x128, .f32⟩
  | 89 => ⟨S131072x128, .f32⟩
  | 90 => ⟨S1x128x128, .f32⟩
  | 91 => ⟨S128x128, .f32⟩
  | 92 => ⟨S131072x128, .f32⟩
  | 93 => ⟨S1x128, .f32⟩
  | 94 => ⟨S128, .f32⟩
  | 95 => ⟨S1x128, .f32⟩
  | 96 => ⟨S131072x128, .f32⟩
  | 97 => ⟨S131072x128, .f32⟩
  | 98 => ⟨S_, .f32⟩
  | 99 => ⟨S131072x128, .f32⟩
  | 100 => ⟨S131072x128, .f32⟩
  | 101 => ⟨S1x128x128, .f32⟩
  | 102 => ⟨S128x128, .f32⟩
  | 103 => ⟨S131072x128, .f32⟩
  | 104 => ⟨S1x128, .f32⟩
  | 105 => ⟨S128, .f32⟩
  | 106 => ⟨S1x128, .f32⟩
  | 107 => ⟨S131072x128, .f32⟩
  | 108 => ⟨S131072x128, .f32⟩
  | 109 => ⟨S131072x128, .f32⟩
  | 110 => ⟨S131072x1, .f32⟩
  | 111 => ⟨S1x1x128, .f32⟩
  | 112 => ⟨S1x128, .f32⟩
  | 113 => ⟨S128, .f32⟩
  | 114 => ⟨S1x128, .f32⟩
  | 115 => ⟨S131072x128, .f32⟩
  | 116 => ⟨S131072x128, .f32⟩
  | 117 => ⟨S131072x128, .f32⟩
  | 118 => ⟨S1x128, .f32⟩
  | 119 => ⟨S128, .f32⟩
  | 120 => ⟨S1x128, .f32⟩
  | 121 => ⟨S131072x128, .f32⟩
  | 122 => ⟨S131072x128, .f32⟩
  | 123 => ⟨S_, .f32⟩
  | 124 => ⟨S131072x128, .f32⟩
  | 125 => ⟨S131072x128, .f32⟩
  | 126 => ⟨S1x128x128, .f32⟩
  | 127 => ⟨S128x128, .f32⟩
  | _ => ⟨S131072, .i32⟩

abbrev hbmTy0_1 (i : Nat) : BufTy := match i % 128 with
  | 0 => ⟨S131072x128, .f32⟩
  | 1 => ⟨S1x128, .f32⟩
  | 2 => ⟨S128, .f32⟩
  | 3 => ⟨S1x128, .f32⟩
  | 4 => ⟨S131072x128, .f32⟩
  | 5 => ⟨S131072x128, .f32⟩
  | 6 => ⟨S131072x1, .f32⟩
  | 7 => ⟨S131072x128, .f32⟩
  | 8 => ⟨S131072x128, .f32⟩
  | 9 => ⟨S1x128x128, .f32⟩
  | 10 => ⟨S128x128, .f32⟩
  | 11 => ⟨S131072x128, .f32⟩
  | 12 => ⟨S1x128, .f32⟩
  | 13 => ⟨S128, .f32⟩
  | 14 => ⟨S1x128, .f32⟩
  | 15 => ⟨S131072x128, .f32⟩
  | 16 => ⟨S131072x128, .f32⟩
  | 17 => ⟨S1x128x128, .f32⟩
  | 18 => ⟨S128x128, .f32⟩
  | 19 => ⟨S131072x128, .f32⟩
  | 20 => ⟨S1x128, .f32⟩
  | 21 => ⟨S128, .f32⟩
  | 22 => ⟨S1x128, .f32⟩
  | 23 => ⟨S131072x128, .f32⟩
  | 24 => ⟨S131072x128, .f32⟩
  | 25 => ⟨S_, .f32⟩
  | 26 => ⟨S131072x128, .f32⟩
  | 27 => ⟨S131072x128, .f32⟩
  | 28 => ⟨S1x128x128, .f32⟩
  | 29 => ⟨S128x128, .f32⟩
  | 30 => ⟨S131072x128, .f32⟩
  | 31 => ⟨S1x128, .f32⟩
  | 32 => ⟨S128, .f32⟩
  | 33 => ⟨S1x128, .f32⟩
  | 34 => ⟨S131072x128, .f32⟩
  | 35 => ⟨S131072x128, .f32⟩
  | 36 => ⟨S131072x128, .f32⟩
  | 37 => ⟨S131072x1, .f32⟩
  | 38 => ⟨S1x1x128, .f32⟩
  | 39 => ⟨S1x128, .f32⟩
  | 40 => ⟨S128, .f32⟩
  | 41 => ⟨S1x128, .f32⟩
  | 42 => ⟨S131072x128, .f32⟩
  | 43 => ⟨S131072x128, .f32⟩
  | 44 => ⟨S131072x128, .f32⟩
  | 45 => ⟨S1x128, .f32⟩
  | 46 => ⟨S128, .f32⟩
  | 47 => ⟨S1x128, .f32⟩
  | 48 => ⟨S131072x128, .f32⟩
  | 49 => ⟨S131072x128, .f32⟩
  | 50 => ⟨S_, .f32⟩
  | 51 => ⟨S131072x128, .f32⟩
  | 52 => ⟨S131072x128, .f32⟩
  | 53 => ⟨S1x128x128, .f32⟩
  | 54 => ⟨S128x128, .f32⟩
  | 55 => ⟨S131072x128, .f32⟩
  | 56 => ⟨S1x128, .f32⟩
  | 57 => ⟨S128, .f32⟩
  | 58 => ⟨S1x128, .f32⟩
  | 59 => ⟨S131072x128, .f32⟩
  | 60 => ⟨S131072x128, .f32⟩
  | 61 => ⟨S131072x1, .f32⟩
  | 62 => ⟨S131072x128, .f32⟩
  | 63 => ⟨S131072x128, .f32⟩
  | 64 => ⟨S1x128x128, .f32⟩
  | 65 => ⟨S128x128, .f32⟩
  | 66 => ⟨S131072x128, .f32⟩
  | 67 => ⟨S1x128, .f32⟩
  | 68 => ⟨S128, .f32⟩
  | 69 => ⟨S1x128, .f32⟩
  | 70 => ⟨S131072x128, .f32⟩
  | 71 => ⟨S131072x128, .f32⟩
  | 72 => ⟨S1x128x128, .f32⟩
  | 73 => ⟨S128x128, .f32⟩
  | 74 => ⟨S131072x128, .f32⟩
  | 75 => ⟨S1x128, .f32⟩
  | 76 => ⟨S128, .f32⟩
  | 77 => ⟨S1x128, .f32⟩
  | 78 => ⟨S131072x128, .f32⟩
  | 79 => ⟨S131072x128, .f32⟩
  | 80 => ⟨S_, .f32⟩
  | 81 => ⟨S131072x128, .f32⟩
  | 82 => ⟨S131072x128, .f32⟩
  | 83 => ⟨S1x128x128, .f32⟩
  | 84 => ⟨S128x128, .f32⟩
  | 85 => ⟨S131072x128, .f32⟩
  | 86 => ⟨S1x128, .f32⟩
  | 87 => ⟨S128, .f32⟩
  | 88 => ⟨S1x128, .f32⟩
  | 89 => ⟨S131072x128, .f32⟩
  | 90 => ⟨S131072x128, .f32⟩
  | 91 => ⟨S131072x128, .f32⟩
  | 92 => ⟨S131072x64, .f32⟩
  | 93 => ⟨S1x64, .f32⟩
  | 94 => ⟨S131072x64, .f32⟩
  | 95 => ⟨S131072x64, .f32⟩
  | 96 => ⟨S_, .f32⟩
  | 97 => ⟨S131072x64, .f32⟩
  | 98 => ⟨S131072x64, .f32⟩
  | 99 => ⟨S131072x1, .f32⟩
  | 100 => ⟨S1x1, .f32⟩
  | 101 => ⟨S131072x1, .f32⟩
  | 102 => ⟨S131072x1, .f32⟩
  | _ => ⟨S131072, .i32⟩

abbrev hbmTy (i : Nat) : BufTy := match i / 128 with
  | 0 => hbmTy0_0 i
  | 1 => hbmTy0_1 i
  | _ => ⟨S131072, .i32⟩

abbrev bufTy : (tb : Table) → Fin (tcTables nBuf tb) → BufTy
  | .hbm, ⟨i, _⟩ => hbmTy i
  | _, _ => ⟨S131072, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_v0 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_v5 : Ref sig .tc := ⟨.hbm, 23, rfl⟩
abbrev main_v6 : Ref sig .tc := ⟨.hbm, 24, rfl⟩
abbrev main_cst : Ref sig .tc := ⟨.hbm, 25, rfl⟩
abbrev main_v7 : Ref sig .tc := ⟨.hbm, 26, rfl⟩
abbrev main_cst_0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_1 : Ref sig .tc := ⟨.hbm, 31, rfl⟩
abbrev main_v11 : Ref sig .tc := ⟨.hbm, 32, rfl⟩
abbrev main_cst_2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_cst_3 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_4 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_c : Ref sig .tc := ⟨.hbm, 46, rfl⟩
abbrev main_v22 : Ref sig .tc := ⟨.hbm, 47, rfl⟩
abbrev main_v23 : Ref sig .tc := ⟨.hbm, 48, rfl⟩
abbrev main_c_5 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_call0_cst : Ref sig .tc := ⟨.hbm, 68, rfl⟩
abbrev main_call0_v0 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_call1_cst : Ref sig .tc := ⟨.hbm, 98, rfl⟩
abbrev main_call1_v0 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_call2_cst : Ref sig .tc := ⟨.hbm, 123, rfl⟩
abbrev main_call2_v0 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩
abbrev main_v104 : Ref sig .tc := ⟨.hbm, 136, rfl⟩
abbrev main_v105 : Ref sig .tc := ⟨.hbm, 137, rfl⟩
abbrev main_v106 : Ref sig .tc := ⟨.hbm, 138, rfl⟩
abbrev main_v107 : Ref sig .tc := ⟨.hbm, 139, rfl⟩
abbrev main_v108 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_v115 : Ref sig .tc := ⟨.hbm, 147, rfl⟩
abbrev main_v116 : Ref sig .tc := ⟨.hbm, 148, rfl⟩
abbrev main_v117 : Ref sig .tc := ⟨.hbm, 149, rfl⟩
abbrev main_v118 : Ref sig .tc := ⟨.hbm, 150, rfl⟩
abbrev main_v119 : Ref sig .tc := ⟨.hbm, 151, rfl⟩
abbrev main_v120 : Ref sig .tc := ⟨.hbm, 152, rfl⟩
abbrev main_call3_cst : Ref sig .tc := ⟨.hbm, 153, rfl⟩
abbrev main_call3_v0 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_call4_cst : Ref sig .tc := ⟨.hbm, 178, rfl⟩
abbrev main_call4_v0 : Ref sig .tc := ⟨.hbm, 179, rfl⟩
abbrev main_v144 : Ref sig .tc := ⟨.hbm, 180, rfl⟩
abbrev main_v145 : Ref sig .tc := ⟨.hbm, 181, rfl⟩
abbrev main_v146 : Ref sig .tc := ⟨.hbm, 182, rfl⟩
abbrev main_v147 : Ref sig .tc := ⟨.hbm, 183, rfl⟩
abbrev main_v148 : Ref sig .tc := ⟨.hbm, 184, rfl⟩
abbrev main_v149 : Ref sig .tc := ⟨.hbm, 185, rfl⟩
abbrev main_v150 : Ref sig .tc := ⟨.hbm, 186, rfl⟩
abbrev main_v151 : Ref sig .tc := ⟨.hbm, 187, rfl⟩
abbrev main_v152 : Ref sig .tc := ⟨.hbm, 188, rfl⟩
abbrev main_v153 : Ref sig .tc := ⟨.hbm, 189, rfl⟩
abbrev main_v154 : Ref sig .tc := ⟨.hbm, 190, rfl⟩
abbrev main_v155 : Ref sig .tc := ⟨.hbm, 191, rfl⟩
abbrev main_v156 : Ref sig .tc := ⟨.hbm, 192, rfl⟩
abbrev main_v157 : Ref sig .tc := ⟨.hbm, 193, rfl⟩
abbrev main_v158 : Ref sig .tc := ⟨.hbm, 194, rfl⟩
abbrev main_v159 : Ref sig .tc := ⟨.hbm, 195, rfl⟩
abbrev main_v160 : Ref sig .tc := ⟨.hbm, 196, rfl⟩
abbrev main_v161 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_v165 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_call5_cst : Ref sig .tc := ⟨.hbm, 208, rfl⟩
abbrev main_call5_v0 : Ref sig .tc := ⟨.hbm, 209, rfl⟩
abbrev main_v172 : Ref sig .tc := ⟨.hbm, 210, rfl⟩
abbrev main_v173 : Ref sig .tc := ⟨.hbm, 211, rfl⟩
abbrev main_v174 : Ref sig .tc := ⟨.hbm, 212, rfl⟩
abbrev main_v175 : Ref sig .tc := ⟨.hbm, 213, rfl⟩
abbrev main_v176 : Ref sig .tc := ⟨.hbm, 214, rfl⟩
abbrev main_v177 : Ref sig .tc := ⟨.hbm, 215, rfl⟩
abbrev main_v178 : Ref sig .tc := ⟨.hbm, 216, rfl⟩
abbrev main_v179 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_call6_cst : Ref sig .tc := ⟨.hbm, 224, rfl⟩
abbrev main_call6_v0 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_v189 : Ref sig .tc := ⟨.hbm, 229, rfl⟩
abbrev main_v190 : Ref sig .tc := ⟨.hbm, 230, rfl⟩

abbrev nD : Nat := 1
abbrev τ : Topo := Topo.v7x

variable {F : FTy → Type} [FloatOps F]

class Facts₀ : Prop where
  shapeCasts_S131072x3_S2048x64x3 : S131072x3.ShapeCasts S2048x64x3
  bcast_S2048x64x3_S2048x64x1x3_0_1_3 : S2048x64x3.BroadcastsInDim S2048x64x1x3 (![0, 1, 3] : Fin 3 → Fin S2048x64x1x3.rank)
  bcast_S2048x64x3_S2048x1x64x3_0_2_3 : S2048x64x3.BroadcastsInDim S2048x1x64x3 (![0, 2, 3] : Fin 3 → Fin S2048x1x64x3.rank)
  bcast_S2048x64x1x3_S2048x64x64x3_0_1_2_3 : S2048x64x1x3.BroadcastsInDim S2048x64x64x3 (![0, 1, 2, 3] : Fin 4 → Fin S2048x64x64x3.rank)
  bcast_S2048x1x64x3_S2048x64x64x3_0_1_2_3 : S2048x1x64x3.BroadcastsInDim S2048x64x64x3 (![0, 1, 2, 3] : Fin 4 → Fin S2048x64x64x3.rank)
  reducesTo_S2048x64x64x3_S2048x64x64_d3 : S2048x64x64x3.ReducesTo [3] S2048x64x64
  h_S_ : 0 < S_.numel
  bcast_S_S2048x64x64 : S_.BroadcastsInDim S2048x64x64 (![] : Fin 0 → Fin S2048x64x64.rank)
  reducesTo_S2048x64x64_S2048x64_d2 : S2048x64x64.ReducesTo [2] S2048x64
  bcast_S_S2048x64 : S_.BroadcastsInDim S2048x64 (![] : Fin 0 → Fin S2048x64.rank)
  shapeCasts_S2048x64_S131072 : S2048x64.ShapeCasts S131072
  bcast_S_S131072 : S_.BroadcastsInDim S131072 (![] : Fin 0 → Fin S131072.rank)
  bcast_S131072_S131072x1_0 : S131072.BroadcastsInDim S131072x1 (![0] : Fin 1 → Fin S131072x1.rank)
  slices_S3x1x128_S1x1x128_0_0_0 : S3x1x128.Slices ![0, 0, 0] S1x1x128
  shapeCasts_S1x1x128_S1x128 : S1x1x128.ShapeCasts S1x128
  shapeCasts_S1x128_S128 : S1x128.ShapeCasts S128
  bcast_S128_S1x128_1 : S128.BroadcastsInDim S1x128 (![1] : Fin 1 → Fin S1x128.rank)
  bcast_S131072x1_S131072x128_0_1 : S131072x1.BroadcastsInDim S131072x128 (![0, 1] : Fin 2 → Fin S131072x128.rank)
  bcast_S1x128_S131072x128_0_1 : S1x128.BroadcastsInDim S131072x128 (![0, 1] : Fin 2 → Fin S131072x128.rank)
  slices_S3x128_S1x128_0_0 : S3x128.Slices ![0, 0] S1x128
  bcast_S_S131072x128 : S_.BroadcastsInDim S131072x128 (![] : Fin 0 → Fin S131072x128.rank)
  slices_S3x128x128_S1x128x128_0_0_0 : S3x128x128.Slices ![0, 0, 0] S1x128x128
  shapeCasts_S1x128x128_S128x128 : S1x128x128.ShapeCasts S128x128
  slices_S3x1x128_S1x1x128_1_0_0 : S3x1x128.Slices ![1, 0, 0] S1x1x128
  slices_S3x128_S1x128_1_0 : S3x128.Slices ![1, 0] S1x128
  slices_S3x128x128_S1x128x128_1_0_0 : S3x128x128.Slices ![1, 0, 0] S1x128x128
  slices_S3x1x128_S1x1x128_2_0_0 : S3x1x128.Slices ![2, 0, 0] S1x1x128
  slices_S3x128_S1x128_2_0 : S3x128.Slices ![2, 0] S1x128
  slices_S3x128x128_S1x128x128_2_0_0 : S3x128x128.Slices ![2, 0, 0] S1x128x128
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S1_S1x1_1 : S1.BroadcastsInDim S1x1 (![1] : Fin 1 → Fin S1x1.rank)
  bcast_S1x1_S131072x1_0_1 : S1x1.BroadcastsInDim S131072x1 (![0, 1] : Fin 2 → Fin S131072x1.rank)
  gather_S100x128_S131072x1_S131072x128_1_0_n_n_0_1_1128_wf : GatherDims.WF S100x128 S131072x1 S131072x128 [1] [0] [] [0] [] 1 ![1, 128]
  dot_S131072x128_S128x128_S131072x128_1_0_0_1_n_n_wf : DotDims.WF S131072x128 S128x128 S131072x128 [1] [0] [0] [1] [] []
  dot_S131072x128_S128x64_S131072x64_1_0_0_1_n_n_wf : DotDims.WF S131072x128 S128x64 S131072x64 [1] [0] [0] [1] [] []
  dot_S131072x64_S64x1_S131072x1_1_0_0_1_n_n_wf : DotDims.WF S131072x64 S64x1 S131072x1 [1] [0] [0] [1] [] []

variable [Facts₀]

def gather_S100x128_S131072x1_S131072x128_1_0_n_n_0_1_1128 : GatherDims S100x128 S131072x1 S131072x128 where
  offsetDims := [1]
  collapsedSliceDims := [0]
  operandBatchingDims := []
  startIndicesBatchingDims := []
  startIndexMap := [0]
  indexVectorDim := 1
  sliceSizes := ![1, 128]
  wf := gather_S100x128_S131072x1_S131072x128_1_0_n_n_0_1_1128_wf
def dot_S131072x128_S128x128_S131072x128_1_0_0_1_n_n : DotDims S131072x128 S128x128 S131072x128 where
  lhsContracting := [1]
  rhsContracting := [0]
  lhsNonContracting := [0]
  rhsNonContracting := [1]
  lhsBatch := []
  rhsBatch := []
  wf := dot_S131072x128_S128x128_S131072x128_1_0_0_1_n_n_wf
def dot_S131072x128_S128x64_S131072x64_1_0_0_1_n_n : DotDims S131072x128 S128x64 S131072x64 where
  lhsContracting := [1]
  rhsContracting := [0]
  lhsNonContracting := [0]
  rhsNonContracting := [1]
  lhsBatch := []
  rhsBatch := []
  wf := dot_S131072x128_S128x64_S131072x64_1_0_0_1_n_n_wf
def dot_S131072x64_S64x1_S131072x1_1_0_0_1_n_n : DotDims S131072x64 S64x1 S131072x1 where
  lhsContracting := [1]
  rhsContracting := [0]
  lhsNonContracting := [0]
  rhsNonContracting := [1]
  lhsBatch := []
  rhsBatch := []
  wf := dot_S131072x64_S64x1_S131072x1_1_0_0_1_n_n_wf

class Facts : Prop extends Facts₀ where

variable [Facts]
-- ==== Proof.KIBodyOut.lean ====
/- The value the kernel body stores, as one pure function of the sixteen input blocks: the payloads
   of the body's five parts composed along its data flow, each load written as the input block read
   through the load's rectangle. -/
import proofs.«415417_j37220186587161_1_alg».proof.Proof.Gen.KernelIdeal.Skeleton
import Idealize.ShloMosaic.Lib.Pipeline.FrameBody

noncomputable section

namespace Cert.KernelIdeal.Body

open Cert.KernelIdeal Cert.KernelIdeal.Gen Idealize.ShloMosaic

variable {F : FTy → Type} [FloatOps F]

/-! ## The rectangles the body loads and stores through -/

/-- The whole of the 4096x3 block (window 0). -/
abbrev rW0 : Rect S4096x3 := Rect.unit (s := S4096x3) ![0, 0] S4096x3.size inb_S4096x3_S4096x3_0_0
/-- The whole of the 128x128 block (window 1). -/
abbrev rW1 : Rect S128x128 := Rect.unit (s := S128x128) ![0, 0] S128x128.size inb_S128x128_S128x128_0_0
/-- Row `k` of a 3x1x128 block (window 2), as a 1x1x128 slab. -/
abbrev rA0 : Rect S3x1x128 := Rect.unit (s := S3x1x128) ![0, 0, 0] S1x1x128.size inb_S3x1x128_S1x1x128_0_0_0
abbrev rA1 : Rect S3x1x128 := Rect.unit (s := S3x1x128) ![1, 0, 0] S1x1x128.size inb_S3x1x128_S1x1x128_1_0_0
abbrev rA2 : Rect S3x1x128 := Rect.unit (s := S3x1x128) ![2, 0, 0] S1x1x128.size inb_S3x1x128_S1x1x128_2_0_0
/-- Row `k` of a 3x128 block (windows 3, 5, 7, 9, 11), as a 1x128 slab. -/
abbrev rB0 : Rect S3x128 := Rect.unit (s := S3x128) ![0, 0] S1x128.size inb_S3x128_S1x128_0_0
abbrev rB1 : Rect S3x128 := Rect.unit (s := S3x128) ![1, 0] S1x128.size inb_S3x128_S1x128_1_0
abbrev rB2 : Rect S3x128 := Rect.unit (s := S3x128) ![2, 0] S1x128.size inb_S3x128_S1x128_2_0
/-- Slab `k` of a 3x128x128 block (windows 4, 6, 8, 10), as a 1x128x128 slab. -/
abbrev rC0 : Rect S3x128x128 := Rect.unit (s := S3x128x128) ![0, 0, 0] S1x128x128.size inb_S3x128x128_S1x128x128_0_0_0
abbrev rC1 : Rect S3x128x128 := Rect.unit (s := S3x128x128) ![1, 0, 0] S1x128x128.size inb_S3x128x128_S1x128x128_1_0_0
abbrev rC2 : Rect S3x128x128 := Rect.unit (s := S3x128x128) ![2, 0, 0] S1x128x128.size inb_S3x128x128_S1x128x128_2_0_0
/-- The whole of the 128x64 block (window 12). -/
abbrev rW12 : Rect S128x64 := Rect.unit (s := S128x64) ![0, 0] S128x64.size inb_S128x64_S128x64_0_0
/-- The whole of the 64 block (window 13). -/
abbrev rW13 : Rect S64 := Rect.unit (s := S64) ![0] S64.size inb_S64_S64_0
/-- The whole of the 64x1 block (window 14). -/
abbrev rW14 : Rect S64x1 := Rect.unit (s := S64x1) ![0, 0] S64x1.size inb_S64x1_S64x1_0_0
/-- The whole of the 1 block (window 15). -/
abbrev rW15 : Rect S1 := Rect.unit (s := S1) ![0] S1.size inb_S1_S1_0
/-- The whole of the 4096x1 block (window 16, the output). -/
abbrev rW16 : Rect S4096x1 := Rect.unit (s := S4096x1) ![0, 0] S4096x1.size inb_S4096x1_S4096x1_0_0

/-! ## The stored value -/

/-- What the body stores over the whole output block, from the sixteen input blocks: three interaction
    layers (slabs 0, 1, 2 of the stacked weights) over the features of block 0, then the two-layer
    readout. Each `View.ld xK r` is a load of input block `K` through rectangle `r`. -/
def bodyOut (x0 : Vec F S4096x3 .f32) (x1 : Vec F S128x128 .f32) (x2 : Vec F S3x1x128 .f32) (x3 : Vec F S3x128 .f32) (x4 : Vec F S3x128x128 .f32) (x5 : Vec F S3x128 .f32) (x6 : Vec F S3x128x128 .f32) (x7 : Vec F S3x128 .f32) (x8 : Vec F S3x128x128 .f32) (x9 : Vec F S3x128 .f32) (x10 : Vec F S3x128x128 .f32) (x11 : Vec F S3x128 .f32) (x12 : Vec F S128x64 .f32) (x13 : Vec F S64 .f32) (x14 : Vec F S64x1 .f32) (x15 : Vec F S1 .f32) : FVec F S4096x1 .f32 :=
  k0_pay1
    (k0_pay33 (k0_pay3 (View.ld x0 rW0)) (k0_pay4 (View.ld x0 rW0))
    (k0_pay23
      (k0_pay14 (k0_pay3 (View.ld x0 rW0)) (k0_pay4 (View.ld x0 rW0)) (k0_pay5 (View.ld x0 rW0) (View.ld x1 rW1))
        (k0_pay6 (View.ld x2 rA0)) (k0_pay7 (View.ld x3 rB0)) (k0_pay8 (View.ld x4 rC0)) (k0_pay9 (View.ld x5 rB0))
        (k0_pay10 (View.ld x6 rC0)) (k0_pay11 (View.ld x7 rB0)) (k0_pay12 (View.ld x8 rC0)) (k0_pay13 (View.ld x9 rB0))
        (View.ld x10 rC0) (View.ld x11 rB0))
      (k0_pay17 (View.ld x8 rC1)) (k0_pay18 (View.ld x9 rB1)) (k0_pay19 (View.ld x10 rC1)) (k0_pay20 (View.ld x11 rB1))
      (k0_pay21 (k0_pay3 (View.ld x0 rW0)) (k0_pay4 (View.ld x0 rW0)) (k0_pay15 (View.ld x2 rA1)) (k0_pay16 (View.ld x3 rB1))
        (View.ld x4 rC1) (View.ld x5 rB1) (View.ld x6 rC1))
      (k0_pay22 (View.ld x7 rB1)))
    (k0_pay24 (View.ld x2 rA2)) (k0_pay25 (View.ld x3 rB2)) (k0_pay26 (View.ld x4 rC2)) (k0_pay27 (View.ld x5 rB2))
    (k0_pay28 (View.ld x6 rC2)) (k0_pay29 (View.ld x7 rB2)) (k0_pay30 (View.ld x8 rC2)) (k0_pay31 (View.ld x9 rB2))
    (k0_pay32 (View.ld x10 rC2)) (View.ld x11 rB2) (View.ld x12 rW12) (View.ld x13 rW13))
    (Scalar.ofBits .f32 0x00000000#32) (View.ld x14 rW14) (View.ld x15 rW15)

end Cert.KernelIdeal.Body

end
-- ==== Proof.KIFrame.lean ====
/- The frame of the program: its host operations leave every argument array untouched, its one region is a
   pipeline over a grid of 32 points whose body loads its sixteen input blocks through fixed rectangles and stores one
   value over the whole output block; so the body's triple, the pipeline's proof data, the body obligation and the
   run follow, and with them that the program terminates without fault with every argument array as launched.
   Stated at any float family. -/
import proofs.«415417_j37220186587161_1_alg».proof.Proof.Gen.KernelIdeal.Launch
import proofs.«415417_j37220186587161_1_alg».proof.Proof.Gen.KernelIdeal.Skeleton
import proofs.«415417_j37220186587161_1_alg».proof.Proof.Gen.KernelIdeal.Points
import proofs.«415417_j37220186587161_1_alg».proof.Proof.KIBodyOut
import Idealize.ShloMosaic.Lib.Pipeline.FrameBody
import Idealize.ShloMosaic.Lib.Ring
import Idealize.ShloMosaic.Lib.Tactic

set_option maxRecDepth 16384

noncomputable section

namespace Cert.KernelIdeal.HFrame

open Cert.KernelIdeal Cert.KernelIdeal.Gen Cert.KernelIdeal.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- Core `c`'s buffers when the region is entered: the launch memory after the host operations. -/
abbrev V (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The program is its host operations followed by its one region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] (by simp only [List.Forall]; exact hostOps0_sub)
    (by simp only [List.Forall]; exact hostOps0_fresh) main_chain

/-- No host operation writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 4: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 5: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 6: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 7: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 8: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 9: the region finds it as launched. -/
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 10: the region finds it as launched. -/
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 11: the region finds it as launched. -/
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 12: the region finds it as launched. -/
theorem V_main_arg12 (c : Dev nD) : V m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 13: the region finds it as launched. -/
theorem V_main_arg13 (c : Dev nD) : V m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 14: the region finds it as launched. -/
theorem V_main_arg14 (c : Dev nD) : V m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 15: the region finds it as launched. -/
theorem V_main_arg15 (c : Dev nD) : V m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 16: the region finds it as launched. -/
theorem V_main_arg16 (c : Dev nD) : V m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))
/-- No host operation writes argument 17: the region finds it as launched. -/
theorem V_main_arg17 (c : Dev nD) : V m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for any proof
    data whose array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for any proof
    data whose array is the region-entry contents and whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for any proof
    data whose array is the region-entry contents and whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for any proof
    data whose array is the region-entry contents and whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for any proof
    data whose array is the region-entry contents and whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for any proof
    data whose array is the region-entry contents and whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for any proof
    data whose array is the region-entry contents and whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for any proof
    data whose array is the region-entry contents and whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for any proof
    data whose array is the region-entry contents and whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for any proof
    data whose array is the region-entry contents and whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not, for any proof
    data whose array is the region-entry contents and whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not, for any proof
    data whose array is the region-entry contents and whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)
/-- Input window 12's current staging buffer holds its block at every point, fetched there or not, for any proof
    data whose array is the region-entry contents and whose body leaves the block in place. -/
theorem before0_12_of {c : Dev nD} (dat : Dat τ (Elt F) Unit ℕ (UR sig nD τ) ℕ cfg0 c) (hA : dat.A 12 = V m c (Pipeline.arrRef spec0 12))
    (hafter : ∀ t, dat.after 12 t = iblk m c 12 t) (t : Fin cfg0.N) (d) : dat.before 12 t d = iblk m c 12 t :=
  (dat.before_in_eq_fetched 12 rfl (fun _ => rfl) (fun _ _ _ => rfl) (fun t => by rw [hafter]; unfold Dat.blockOf iblk; rw [hA]; try rfl) t d).trans
    (by unfold Dat.fetched Dat.blockOf iblk; rw [hA]; try rfl)
/-- Input window 13's current staging buffer holds its block at every point, fetched there or not, for any proof
    data whose array is the region-entry contents and whose body leaves the block in place. -/
theorem before0_13_of {c : Dev nD} (dat : Dat τ (Elt F) Unit ℕ (UR sig nD τ) ℕ cfg0 c) (hA : dat.A 13 = V m c (Pipeline.arrRef spec0 13))
    (hafter : ∀ t, dat.after 13 t = iblk m c 13 t) (t : Fin cfg0.N) (d) : dat.before 13 t d = iblk m c 13 t :=
  (dat.before_in_eq_fetched 13 rfl (fun _ => rfl) (fun _ _ _ => rfl) (fun t => by rw [hafter]; unfold Dat.blockOf iblk; rw [hA]; try rfl) t d).trans
    (by unfold Dat.fetched Dat.blockOf iblk; rw [hA]; try rfl)
/-- Input window 14's current staging buffer holds its block at every point, fetched there or not, for any proof
    data whose array is the region-entry contents and whose body leaves the block in place. -/
theorem before0_14_of {c : Dev nD} (dat : Dat τ (Elt F) Unit ℕ (UR sig nD τ) ℕ cfg0 c) (hA : dat.A 14 = V m c (Pipeline.arrRef spec0 14))
    (hafter : ∀ t, dat.after 14 t = iblk m c 14 t) (t : Fin cfg0.N) (d) : dat.before 14 t d = iblk m c 14 t :=
  (dat.before_in_eq_fetched 14 rfl (fun _ => rfl) (fun _ _ _ => rfl) (fun t => by rw [hafter]; unfold Dat.blockOf iblk; rw [hA]; try rfl) t d).trans
    (by unfold Dat.fetched Dat.blockOf iblk; rw [hA]; try rfl)
/-- Input window 15's current staging buffer holds its block at every point, fetched there or not, for any proof
    data whose array is the region-entry contents and whose body leaves the block in place. -/
theorem before0_15_of {c : Dev nD} (dat : Dat τ (Elt F) Unit ℕ (UR sig nD τ) ℕ cfg0 c) (hA : dat.A 15 = V m c (Pipeline.arrRef spec0 15))
    (hafter : ∀ t, dat.after 15 t = iblk m c 15 t) (t : Fin cfg0.N) (d) : dat.before 15 t d = iblk m c 15 t :=
  (dat.before_in_eq_fetched 15 rfl (fun _ => rfl) (fun _ _ _ => rfl) (fun t => by rw [hafter]; unfold Dat.blockOf iblk; rw [hA]; try rfl) t d).trans
    (by unfold Dat.fetched Dat.blockOf iblk; rw [hA]; try rfl)

/-! ## The argument arrays after a frame run -/

set_option maxHeartbeats 1000000 in
/-- Argument 0, which no window stages, ends as launched. -/
theorem kept_arg0 (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) :
    r.2.mem ((c.tc : Thread nD τ).loc main_arg0) = m ((c.tc : Thread nD τ).loc main_arg0) :=
  ((h c).2 main_arg0 (Pipeline.mem_restRefs_of main_arg0 (by decide) (by decide))).trans (V_main_arg0 m c)
set_option maxHeartbeats 1000000 in
/-- Argument 1, which no window stages, ends as launched. -/
theorem kept_arg1 (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) :
    r.2.mem ((c.tc : Thread nD τ).loc main_arg1) = m ((c.tc : Thread nD τ).loc main_arg1) :=
  ((h c).2 main_arg1 (Pipeline.mem_restRefs_of main_arg1 (by decide) (by decide))).trans (V_main_arg1 m c)
set_option maxHeartbeats 1000000 in
/-- Argument 2, which no window stages, ends as launched. -/
theorem kept_arg2 (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) :
    r.2.mem ((c.tc : Thread nD τ).loc main_arg2) = m ((c.tc : Thread nD τ).loc main_arg2) :=
  ((h c).2 main_arg2 (Pipeline.mem_restRefs_of main_arg2 (by decide) (by decide))).trans (V_main_arg2 m c)
set_option maxHeartbeats 1000000 in
/-- Argument 3, which no window stages, ends as launched. -/
theorem kept_arg3 (dats : (p : Fin 1) → (c : Dev nD) → Dat τ (Elt F) Unit ℕ (UR sig nD τ) ℕ (cfgs p) c)
    (r : PUnit × MemSt nD τ sig (Elt F)) (h : Pipeline.FramePost cfgs dats 0 (V m) r) (c : Dev nD) :
    r.2.mem ((c.tc : Thread nD τ).loc main_arg3) = m ((c.tc : Thread nD τ).loc main_arg3) :=
  ((h c).2 main_arg3 (Pipeline.mem_restRefs_of main_arg3 (by decide) (by decide))).trans (V_main_arg3 m c)
set_option maxHeartbeats 1000000 in
/-- Argument 4, the array of input window 2, ends as launched. -/
theorem kept_arg4 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg4) = m ((c.tc : Thread nD τ).loc main_arg4) :=
  ((h c).1 2).trans (((dats 0 c).arrAt_in 2 rfl _).trans ((hA c 2).trans (V_main_arg4 m c)))
set_option maxHeartbeats 1000000 in
/-- Argument 5, the array of input window 3, ends as launched. -/
theorem kept_arg5 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg5) = m ((c.tc : Thread nD τ).loc main_arg5) :=
  ((h c).1 3).trans (((dats 0 c).arrAt_in 3 rfl _).trans ((hA c 3).trans (V_main_arg5 m c)))
set_option maxHeartbeats 1000000 in
/-- Argument 6, the array of input window 4, ends as launched. -/
theorem kept_arg6 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg6) = m ((c.tc : Thread nD τ).loc main_arg6) :=
  ((h c).1 4).trans (((dats 0 c).arrAt_in 4 rfl _).trans ((hA c 4).trans (V_main_arg6 m c)))
set_option maxHeartbeats 1000000 in
/-- Argument 7, the array of input window 5, ends as launched. -/
theorem kept_arg7 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg7) = m ((c.tc : Thread nD τ).loc main_arg7) :=
  ((h c).1 5).trans (((dats 0 c).arrAt_in 5 rfl _).trans ((hA c 5).trans (V_main_arg7 m c)))
set_option maxHeartbeats 1000000 in
/-- Argument 8, the array of input window 6, ends as launched. -/
theorem kept_arg8 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg8) = m ((c.tc : Thread nD τ).loc main_arg8) :=
  ((h c).1 6).trans (((dats 0 c).arrAt_in 6 rfl _).trans ((hA c 6).trans (V_main_arg8 m c)))
set_option maxHeartbeats 1000000 in
/-- Argument 9, the array of input window 7, ends as launched. -/
theorem kept_arg9 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg9) = m ((c.tc : Thread nD τ).loc main_arg9) :=
  ((h c).1 7).trans (((dats 0 c).arrAt_in 7 rfl _).trans ((hA c 7).trans (V_main_arg9 m c)))
set_option maxHeartbeats 1000000 in
/-- Argument 10, the array of input window 8, ends as launched. -/
theorem kept_arg10 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg10) = m ((c.tc : Thread nD τ).loc main_arg10) :=
  ((h c).1 8).trans (((dats 0 c).arrAt_in 8 rfl _).trans ((hA c 8).trans (V_main_arg10 m c)))
set_option maxHeartbeats 1000000 in
/-- Argument 11, the array of input window 9, ends as launched. -/
theorem kept_arg11 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg11) = m ((c.tc : Thread nD τ).loc main_arg11) :=
  ((h c).1 9).trans (((dats 0 c).arrAt_in 9 rfl _).trans ((hA c 9).trans (V_main_arg11 m c)))
set_option maxHeartbeats 1000000 in
/-- Argument 12, the array of input window 10, ends as launched. -/
theorem kept_arg12 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg12) = m ((c.tc : Thread nD τ).loc main_arg12) :=
  ((h c).1 10).trans (((dats 0 c).arrAt_in 10 rfl _).trans ((hA c 10).trans (V_main_arg12 m c)))
set_option maxHeartbeats 1000000 in
/-- Argument 13, the array of input window 11, ends as launched. -/
theorem kept_arg13 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg13) = m ((c.tc : Thread nD τ).loc main_arg13) :=
  ((h c).1 11).trans (((dats 0 c).arrAt_in 11 rfl _).trans ((hA c 11).trans (V_main_arg13 m c)))
set_option maxHeartbeats 1000000 in
/-- Argument 14, the array of input window 12, ends as launched. -/
theorem kept_arg14 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg14) = m ((c.tc : Thread nD τ).loc main_arg14) :=
  ((h c).1 12).trans (((dats 0 c).arrAt_in 12 rfl _).trans ((hA c 12).trans (V_main_arg14 m c)))
set_option maxHeartbeats 1000000 in
/-- Argument 15, the array of input window 13, ends as launched. -/
theorem kept_arg15 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg15) = m ((c.tc : Thread nD τ).loc main_arg15) :=
  ((h c).1 13).trans (((dats 0 c).arrAt_in 13 rfl _).trans ((hA c 13).trans (V_main_arg15 m c)))
set_option maxHeartbeats 1000000 in
/-- Argument 16, the array of input window 14, ends as launched. -/
theorem kept_arg16 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg16) = m ((c.tc : Thread nD τ).loc main_arg16) :=
  ((h c).1 14).trans (((dats 0 c).arrAt_in 14 rfl _).trans ((hA c 14).trans (V_main_arg16 m c)))
set_option maxHeartbeats 1000000 in
/-- Argument 17, the array of input window 15, ends as launched. -/
theorem kept_arg17 (dats : (p : Fin 1) → (c : Dev nD) → Dat τ (Elt F) Unit ℕ (UR sig nD τ) ℕ (cfgs p) c)
    (hA : ∀ c w, (dats 0 c).A w = V m c (Pipeline.arrRef spec0 w))
    (r : PUnit × MemSt nD τ sig (Elt F)) (h : Pipeline.FramePost cfgs dats 0 (V m) r) (c : Dev nD) :
    r.2.mem ((c.tc : Thread nD τ).loc main_arg17) = m ((c.tc : Thread nD τ).loc main_arg17) :=
  ((h c).1 15).trans (((dats 0 c).arrAt_in 15 rfl _).trans ((hA c 15).trans (V_main_arg17 m c)))

/-- For any proof data whose arrays are the region-entry contents, a run to the library's frame post leaves every
    argument array as launched: an argument a window stages (arguments 4 to 17, windows 2 to 15, all inputs) by the
    post's first clause, an argument no window stages (arguments 0 to 3) by its second; each is then as launched
    because no host operation writes it. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨kept_arg0 m dats r h c,
      kept_arg1 m dats r h c,
      kept_arg2 m dats r h c,
      kept_arg3 m dats r h c,
      kept_arg4 m dats hA r h c,
      kept_arg5 m dats hA r h c,
      kept_arg6 m dats hA r h c,
      kept_arg7 m dats hA r h c,
      kept_arg8 m dats hA r h c,
      kept_arg9 m dats hA r h c,
      kept_arg10 m dats hA r h c,
      kept_arg11 m dats hA r h c,
      kept_arg12 m dats hA r h c,
      kept_arg13 m dats hA r h c,
      kept_arg14 m dats hA r h c,
      kept_arg15 m dats hA r h c,
      kept_arg16 m dats hA r h c,
      kept_arg17 m dats hA r h c⟩) h

/-! ## What the body leaves in the output window's buffer -/

/-- The output window's staging buffer after the body, from the input windows' blocks: its one store, of the body's
    value, over the whole block. -/
def out16 (x0 : Vec F S4096x3 .f32) (x1 : Vec F S128x128 .f32) (x2 : Vec F S3x1x128 .f32) (x3 : Vec F S3x128 .f32) (x4 : Vec F S3x128x128 .f32) (x5 : Vec F S3x128 .f32) (x6 : Vec F S3x128x128 .f32) (x7 : Vec F S3x128 .f32) (x8 : Vec F S3x128x128 .f32) (x9 : Vec F S3x128 .f32) (x10 : Vec F S3x128x128 .f32) (x11 : Vec F S3x128 .f32) (x12 : Vec F S128x64 .f32) (x13 : Vec F S64 .f32) (x14 : Vec F S64x1 .f32) (x15 : Vec F S1 .f32) : Vec F S4096x1 .f32 :=
  View.canon [⟨rW16, bodyOut x0 x1 x2 x3 x4 x5 x6 x7 x8 x9 x10 x11 x12 x13 x14 x15⟩]

/-- The one store is through the whole block's rectangle, so it covers the buffer. -/
theorem cover16 (p0 : Vec F S4096x1 .f32) (y : S4096x1.Idx) :
    ∃ pc ∈ ([⟨rW16, p0⟩] : List (View.Piece (Elt F) S4096x1 .f32)), y ∈ pc.1.set :=
  View.cover_of_tiled [⟨rW16, p0⟩] S4096x1.size (by rfl) y

/-! ## The body's triple -/

set_option maxHeartbeats 4000000 in
/-- The kernel body on whole staging memrefs, the sixteen inputs' at read contents `xK` and the output's at anything,
    runs to the continuation holding the inputs' as they were and the output's at `out16` of the inputs: every load reads
    an input block through its rectangle (the one load of the output block is of a value the body never uses), and the
    single store lays the composed payloads over the whole output block. -/
theorem sound_kernel (c : Dev nD) (E : Set ℕ) (i : grid0.Coords) (arg1 : Memref sig .tc .vmem S4096x3 .f32) (harg1 : arg1.IsWhole) (arg2 : Memref sig .tc .vmem S128x128 .f32) (harg2 : arg2.IsWhole) (arg3 : Memref sig .tc .vmem S3x1x128 .f32) (harg3 : arg3.IsWhole) (arg4 : Memref sig .tc .vmem S3x128 .f32) (harg4 : arg4.IsWhole) (arg5 : Memref sig .tc .vmem S3x128x128 .f32) (harg5 : arg5.IsWhole) (arg6 : Memref sig .tc .vmem S3x128 .f32) (harg6 : arg6.IsWhole) (arg7 : Memref sig .tc .vmem S3x128x128 .f32) (harg7 : arg7.IsWhole) (arg8 : Memref sig .tc .vmem S3x128 .f32) (harg8 : arg8.IsWhole) (arg9 : Memref sig .tc .vmem S3x128x128 .f32) (harg9 : arg9.IsWhole) (arg10 : Memref sig .tc .vmem S3x128 .f32) (harg10 : arg10.IsWhole) (arg11 : Memref sig .tc .vmem S3x128x128 .f32) (harg11 : arg11.IsWhole) (arg12 : Memref sig .tc .vmem S3x128 .f32) (harg12 : arg12.IsWhole) (arg13 : Memref sig .tc .vmem S128x64 .f32) (harg13 : arg13.IsWhole) (arg14 : Memref sig .tc .vmem S64 .f32) (harg14 : arg14.IsWhole) (arg15 : Memref sig .tc .vmem S64x1 .f32) (harg15 : arg15.IsWhole) (arg16 : Memref sig .tc .vmem S1 .f32) (harg16 : arg16.IsWhole) (arg17 : Memref sig .tc .vmem S4096x1 .f32) (harg17 : arg17.IsWhole)
    (x0 : Vec F S4096x3 .f32) (x1 : Vec F S128x128 .f32) (x2 : Vec F S3x1x128 .f32) (x3 : Vec F S3x128 .f32) (x4 : Vec F S3x128x128 .f32) (x5 : Vec F S3x128 .f32) (x6 : Vec F S3x128x128 .f32) (x7 : Vec F S3x128 .f32) (x8 : Vec F S3x128x128 .f32) (x9 : Vec F S3x128 .f32) (x10 : Vec F S3x128x128 .f32) (x11 : Vec F S3x128 .f32) (x12 : Vec F S128x64 .f32) (x13 : Vec F S64 .f32) (x14 : Vec F S64x1 .f32) (x15 : Vec F S1 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ (∃ d, owns (c : Thread nD τ) arg17 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ owns (c : Thread nD τ) arg16 fullShare x15 ∗ owns (c : Thread nD τ) arg17 fullShare (out16 x0 x1 x2 x3 x4 x5 x6 x7 x8 x9 x10 x11 x12 x13 x14 x15)) -∗ K ⟨⟩))
      ⊢ wp frame (wpE (defs₀ (F := F)) Variants.none c none) E (cc0__schnet_kernel i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  simp only [cc0__schnet_kernel_eq_skeleton]; unfold cc0__schnet_kernel_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, Hk⟩
  subst hf0 hf1 hf2 hf3 hf4 hf5 hf6 hf7 hf8 hf9 hf10 hf11 hf12 hf13 hf14 hf15
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  iexists _; isplitr
  swap; · iexact H16
  ipureintro
  try dsimp only
  exact View.read_writes_eq_canon _ _ _ (cover16 _)

/-! ## The pipeline's proof data -/

/-- The proof data of the one pipeline on core `c`: the arrays as the region finds them; after the body at point `t`
    each input's buffer at its block and the output's at `out16` of the input blocks; the invariant the scoped rest and
    the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
    | ⟨_ + 17, h⟩ => absurd h (Nat.not_lt.2 (Nat.le_add_left _ _))
  Φ _ := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = out16 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) := by dsimp only [dats]

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ d, owns (c : Thread nD τ) (st0_16 t) fullShare ((dats m 0 c).before 16 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ owns (c : Thread nD τ) (st0_16 t) fullShare ((dats m 0 c).after 16 t))

set_option maxHeartbeats 2000000 in
/-- The body at any point: the inputs' memrefs hold their blocks, so the body's triple applies; the invariant and the
    core's obligations pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩⟩
  iapply (sound_kernel c Set.univ (grid0.coords t) _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  iintro ⟨H0, H1, H2, H3, H4, H5, H6, H7, H8, H9, H10, H11, H12, H13, H14, H15, H16⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  iexact H16

set_option maxHeartbeats 1000000 in
/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
set_option maxHeartbeats 1000000 in
/-- From any memory with zero counters, every weakly fair execution of the program on the TensorCores terminates, and every
    final state has every array of the pipeline at what the library computes from the proof data and every other
    unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The program runs, terminates without fault, and its argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  frame_of m ρ (dats m) (A_eq m) (run_main m ρ)

end Cert.KernelIdeal.HFrame

end
-- ==== Proof.Spec.lean ====
/-
  The result, as ONE function of one atom's data. For an atom with atomic number `z`, mean pair distance `d` and
  cutoff weight `cut`, the network's prediction is

    head (emb[z] + V₀(d, cut) + V₁(d, cut) + V₂(d, cut)),

  where each interaction `Vₗ` is: the filter `relu(d · fw1 + fb1)`, a dense layer, the product with the cutoff weight,
  the dense projection, and a two-layer perceptron with a `relu` in between; the head is a dense layer, `relu`, and a
  dense layer onto one number. Everything is over the extended reals, a dense layer's column `j` being
  `(∑ k, x k · W k j) + b j`, the `relu` the maximum with the zero word's value (kept as that word: it is the same on
  both sides and never evaluated). Rows do not interact: both programs compute this row function at every atom.
-/
import Idealize.ShloMosaic.PureOps.Ideal
import Idealize.ShloMosaic.Lib.ValueIdx

noncomputable section

open scoped BigOperators

namespace Cert.Spec

open Idealize.ShloMosaic Idealize.ShloMosaic.ValueIdx

/-- The value of the zero word of the 32-bit format. -/
abbrev z32 : EReal := Ideal.ofBits .f32 0x00000000#32

/-- Column `j` of a dense layer: `x · W[:, j] + b[j]`. -/
def lin {K J : ℕ} (x : Fin K → EReal) (W : Fin K → Fin J → EReal) (b : Fin J → EReal) (j : Fin J) : EReal :=
  (∑ k : Fin K, x k * W k j) + b j

/-- The rectifier, as the maximum with the zero word's value. -/
def relu (x : EReal) : EReal := max x z32

/-- One interaction's weights, by coordinates. -/
structure LayerW where
  fw1 : Fin 128 → EReal
  fb1 : Fin 128 → EReal
  fw2 : Fin 128 → Fin 128 → EReal
  fb2 : Fin 128 → EReal
  cw : Fin 128 → Fin 128 → EReal
  cb : Fin 128 → EReal
  dw1 : Fin 128 → Fin 128 → EReal
  db1 : Fin 128 → EReal
  dw2 : Fin 128 → Fin 128 → EReal
  db2 : Fin 128 → EReal

/-- The filter generated from the distance: `relu(d · fw1 + fb1)`. -/
def filt (d : EReal) (W : LayerW) (k : Fin 128) : EReal := relu (d * W.fw1 k + W.fb1 k)

/-- The filter after its dense layer, weighted by the cutoff. -/
def filtCut (d cut : EReal) (W : LayerW) (j : Fin 128) : EReal := lin (filt d W) W.fw2 W.fb2 j * cut

/-- The hidden layer of the interaction's perceptron. -/
def hid (d cut : EReal) (W : LayerW) (j : Fin 128) : EReal := relu (lin (lin (filtCut d cut W) W.cw W.cb) W.dw1 W.db1 j)

/-- One interaction's update of an atom's features (it depends on the atom only through `d` and `cut`). -/
def layerV (d cut : EReal) (W : LayerW) (j : Fin 128) : EReal := lin (hid d cut W) W.dw2 W.db2 j

/-- The embedding row of atomic number `z`: row `z` of the table for `z` below its 100 rows, zero otherwise. -/
def embRow (emb : Fin 100 → Fin 128 → EReal) (z : BitVec 32) (j : Fin 128) : EReal :=
  if h : z.toNat < 100 then emb ⟨z.toNat, h⟩ j else 0

/-- The output head: dense to 64, `relu`, dense to one number. -/
def headV (x : Fin 128 → EReal) (ow1 : Fin 128 → Fin 64 → EReal) (ob1 : Fin 64 → EReal) (ow2 : Fin 64 → EReal) (ob2 : EReal) : EReal :=
  (∑ k : Fin 64, relu (lin x ow1 ob1 k) * ow2 k) + ob2

/-- An atom's features after the three interactions, added in order. -/
def feat (x0 : Fin 128 → EReal) (d cut : EReal) (W0 W1 W2 : LayerW) (j : Fin 128) : EReal :=
  ((x0 j + layerV d cut W0 j) + layerV d cut W1 j) + layerV d cut W2 j

/-- The prediction for one atom. -/
def rowOut (emb : Fin 100 → Fin 128 → EReal) (z : BitVec 32) (d cut : EReal) (W0 W1 W2 : LayerW)
    (ow1 : Fin 128 → Fin 64 → EReal) (ob1 : Fin 64 → EReal) (ow2 : Fin 64 → EReal) (ob2 : EReal) : EReal :=
  headV (feat (embRow emb z) d cut W0 W1 W2) ow1 ob1 ow2 ob2

/-- The embedding row read from the table padded with zero rows to 128 rows (as the one-hot product reads it). -/
def embRowPad (pad : Fin 128 → Fin 128 → EReal) (z : BitVec 32) (j : Fin 128) : EReal :=
  if h : z.toNat < 128 then pad ⟨z.toNat, h⟩ j else 0

/-- A padded table whose first 100 rows are the table's and whose other rows are zero gives the table's row. -/
theorem embRowPad_eq (emb : Fin 100 → Fin 128 → EReal) (pad : Fin 128 → Fin 128 → EReal)
    (hlo : ∀ (k : Fin 128) (h : k.val < 100) (j : Fin 128), pad k j = emb ⟨k.val, h⟩ j)
    (hhi : ∀ (k : Fin 128), ¬ k.val < 100 → ∀ j : Fin 128, pad k j = 0) (z : BitVec 32) :
    embRowPad pad z = embRow emb z := by
  funext j
  unfold embRowPad embRow
  by_cases h : z.toNat < 100
  · rw [dif_pos (show z.toNat < 128 by omega), dif_pos h]; exact hlo ⟨z.toNat, by omega⟩ h j
  · rw [dif_neg h]
    by_cases h' : z.toNat < 128
    · rw [dif_pos h']; exact hhi ⟨z.toNat, h'⟩ h j
    · rw [dif_neg h']

/-- The prediction from an atom's embedding row. -/
def featOut (x0 : Fin 128 → EReal) (d cut : EReal) (W0 W1 W2 : LayerW)
    (ow1 : Fin 128 → Fin 64 → EReal) (ob1 : Fin 64 → EReal) (ow2 : Fin 64 → EReal) (ob2 : EReal) : EReal :=
  headV (feat x0 d cut W0 W1 W2) ow1 ob1 ow2 ob2

theorem rowOut_eq (emb : Fin 100 → Fin 128 → EReal) (z : BitVec 32) (d cut : EReal) (W0 W1 W2 : LayerW)
    (ow1 : Fin 128 → Fin 64 → EReal) (ob1 : Fin 64 → EReal) (ow2 : Fin 64 → EReal) (ob2 : EReal) :
    rowOut emb z d cut W0 W1 W2 ow1 ob1 ow2 ob2 = featOut (embRow emb z) d cut W0 W1 W2 ow1 ob1 ow2 ob2 := rfl

/-! ## The weights as the programs hold them: arrays indexed by coordinates -/

/-- All the network's weights: the three interactions' (stacked along a leading axis) and the head's. -/
structure NetW where
  fw1 : (⟨3, ![3, 1, 128]⟩ : Shape).Idx → EReal
  fb1 : (⟨2, ![3, 128]⟩ : Shape).Idx → EReal
  fw2 : (⟨3, ![3, 128, 128]⟩ : Shape).Idx → EReal
  fb2 : (⟨2, ![3, 128]⟩ : Shape).Idx → EReal
  cw : (⟨3, ![3, 128, 128]⟩ : Shape).Idx → EReal
  cb : (⟨2, ![3, 128]⟩ : Shape).Idx → EReal
  dw1 : (⟨3, ![3, 128, 128]⟩ : Shape).Idx → EReal
  db1 : (⟨2, ![3, 128]⟩ : Shape).Idx → EReal
  dw2 : (⟨3, ![3, 128, 128]⟩ : Shape).Idx → EReal
  db2 : (⟨2, ![3, 128]⟩ : Shape).Idx → EReal
  ow1 : (⟨2, ![128, 64]⟩ : Shape).Idx → EReal
  ob1 : (⟨1, ![64]⟩ : Shape).Idx → EReal
  ow2 : (⟨2, ![64, 1]⟩ : Shape).Idx → EReal
  ob2 : (⟨1, ![1]⟩ : Shape).Idx → EReal

/-- Interaction `l`'s weights: slice `l` of each stacked array. -/
def NetW.layer (W : NetW) (l : Fin 3) : LayerW where
  fw1 k := W.fw1 (ix3 l (0 : Fin 1) k)
  fb1 k := W.fb1 (ix2 l k)
  fw2 k j := W.fw2 (ix3 l k j)
  fb2 k := W.fb2 (ix2 l k)
  cw k j := W.cw (ix3 l k j)
  cb k := W.cb (ix2 l k)
  dw1 k j := W.dw1 (ix3 l k j)
  db1 k := W.db1 (ix2 l k)
  dw2 k j := W.dw2 (ix3 l k j)
  db2 k := W.db2 (ix2 l k)

/-- The prediction from an atom's embedding row, with the weights as arrays. -/
def netOut (W : NetW) (x0 : Fin 128 → EReal) (d cut : EReal) : EReal :=
  featOut x0 d cut (W.layer 0) (W.layer 1) (W.layer 2) (fun k j => W.ow1 (ix2 k j)) (fun k => W.ob1 (ix1 k))
    (fun k => W.ow2 (ix2 k (0 : Fin 1))) (W.ob2 (ix1 (0 : Fin 1)))

/-- THE RESULT ARRAY: one prediction per atom, from the atomic numbers, the per-atom distances and cutoff weights,
    the embedding table and the weights. -/
def G (Z : (⟨1, ![131072]⟩ : Shape).Idx → BitVec 32) (dvec cutvec : (⟨1, ![131072]⟩ : Shape).Idx → EReal)
    (emb : (⟨2, ![100, 128]⟩ : Shape).Idx → EReal) (W : NetW) : (⟨2, ![131072, 1]⟩ : Shape).Idx → EReal :=
  fun i => netOut W (embRow (fun k j => emb (ix2 k j)) (Z (ix1 (i 0)))) (dvec (ix1 (i 0))) (cutvec (ix1 (i 0)))

end Cert.Spec

end
-- ==== Proof.KIVal.lean ====
/- What the kernel body stores at one row. Every row of the block goes through the same network: the embedding row
   picked by a one-hot product, three interaction updates (one vector function at three sets of weights) added in
   order, and the two-layer head. Read at row `r`, each block product is a sum over its inner coordinate, each
   broadcast bias a coordinate of the bias, and the one-hot product the table row of the atom's number. -/
import proofs.«415417_j37220186587161_1_alg».proof.Proof.KIBodyOut
import proofs.«415417_j37220186587161_1_alg».proof.Proof.Spec
import proofs.«415417_j37220186587161_1_alg».proof.Proof.Gen.KernelIdeal.Skeleton
import Idealize.ShloMosaic.Lib.ValueIdx
import Idealize.ShloMosaic.Lib.Pipeline.Value
import Idealize.ShloMosaic.Lib.ValueLayout
import Idealize.ShloMosaic.Lib.StableHlo.Predicate
import Idealize.ShloMosaic.PureOps.Ideal.Laws

noncomputable section

open scoped BigOperators

namespace Cert.KernelIdeal.Val

open Cert.KernelIdeal Cert.KernelIdeal.Gen Cert.KernelIdeal.Body Idealize.ShloMosaic Idealize.ShloMosaic.ValueIdx

/-! ## The three block products read at a row and a column -/

theorem lhsA_0 (i : S4096x128.Idx) (q : dot_S4096x128_S128x128_S4096x128_1_0_0_1_n_n.contr.Idx) : (dot_S4096x128_S128x128_S4096x128_1_0_0_1_n_n.lhsIdx i q 0).val = (i 0).val := by
  unfold DotDims.lhsIdx
  rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
  rfl
theorem lhsA_1 (i : S4096x128.Idx) (q : dot_S4096x128_S128x128_S4096x128_1_0_0_1_n_n.contr.Idx) : (dot_S4096x128_S128x128_S4096x128_1_0_0_1_n_n.lhsIdx i q 1).val = (q ⟨0, by decide⟩).val :=
  dot_S4096x128_S128x128_S4096x128_1_0_0_1_n_n.lhsIdx_val_of_single rfl i q
theorem rhsA_0 (i : S4096x128.Idx) (q : dot_S4096x128_S128x128_S4096x128_1_0_0_1_n_n.contr.Idx) : (dot_S4096x128_S128x128_S4096x128_1_0_0_1_n_n.rhsIdx i q 0).val = (q ⟨0, by decide⟩).val :=
  dot_S4096x128_S128x128_S4096x128_1_0_0_1_n_n.rhsIdx_val_of_single rfl i q
theorem rhsA_1 (i : S4096x128.Idx) (q : dot_S4096x128_S128x128_S4096x128_1_0_0_1_n_n.contr.Idx) : (dot_S4096x128_S128x128_S4096x128_1_0_0_1_n_n.rhsIdx i q 1).val = (i 1).val := by
  unfold DotDims.rhsIdx
  rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
  rfl

/-- The [4096,128]·[128,128] product into the zero block, read at row `r` and column `j`: the sum over the 128 inner
    coordinates of the row's entries times the column's. -/
theorem mmA_apply {φ₁ φ₂ : FTy} (a : FVec Ideal S4096x128 φ₁) (b : FVec Ideal S128x128 φ₂) (r : Fin 4096) (j : Fin 128) :
    matmul dot_S4096x128_S128x128_S4096x128_1_0_0_1_n_n none a b (constant (F := Ideal) S4096x128 .f32 0x00000000#32) (ix2 r j)
      = ∑ k : Fin 128, a (ix2 r k) * b (ix2 k j) := by
  show FloatOps.matmul dot_S4096x128_S128x128_S4096x128_1_0_0_1_n_n none a b (constant (F := Ideal) S4096x128 .f32 0x00000000#32) (ix2 r j) = _
  rw [Ideal.matmul_constant_zero_apply, ← Equiv.sum_comp (ValueIdx.contrEquiv1 dot_S4096x128_S128x128_S4096x128_1_0_0_1_n_n 128 rfl rfl).symm]
  refine Finset.sum_congr rfl fun k _ => ?_
  have hk := ValueIdx.contrEquiv1_symm_val dot_S4096x128_S128x128_S4096x128_1_0_0_1_n_n 128 rfl rfl k
  have el : dot_S4096x128_S128x128_S4096x128_1_0_0_1_n_n.lhsIdx (ix2 r j) ((ValueIdx.contrEquiv1 dot_S4096x128_S128x128_S4096x128_1_0_0_1_n_n 128 rfl rfl).symm k) = ix2 r k := funext fun a => Fin.ext (by
    match a with
    | ⟨0, _⟩ => exact lhsA_0 _ _
    | ⟨1, _⟩ => exact (lhsA_1 _ _).trans hk)
  have er : dot_S4096x128_S128x128_S4096x128_1_0_0_1_n_n.rhsIdx (ix2 r j) ((ValueIdx.contrEquiv1 dot_S4096x128_S128x128_S4096x128_1_0_0_1_n_n 128 rfl rfl).symm k) = ix2 k j := funext fun a => Fin.ext (by
    match a with
    | ⟨0, _⟩ => exact (rhsA_0 _ _).trans hk
    | ⟨1, _⟩ => exact rhsA_1 _ _)
  rw [el, er]

theorem lhsB_0 (i : S4096x64.Idx) (q : dot_S4096x128_S128x64_S4096x64_1_0_0_1_n_n.contr.Idx) : (dot_S4096x128_S128x64_S4096x64_1_0_0_1_n_n.lhsIdx i q 0).val = (i 0).val := by
  unfold DotDims.lhsIdx
  rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
  rfl
theorem lhsB_1 (i : S4096x64.Idx) (q : dot_S4096x128_S128x64_S4096x64_1_0_0_1_n_n.contr.Idx) : (dot_S4096x128_S128x64_S4096x64_1_0_0_1_n_n.lhsIdx i q 1).val = (q ⟨0, by decide⟩).val :=
  dot_S4096x128_S128x64_S4096x64_1_0_0_1_n_n.lhsIdx_val_of_single rfl i q
theorem rhsB_0 (i : S4096x64.Idx) (q : dot_S4096x128_S128x64_S4096x64_1_0_0_1_n_n.contr.Idx) : (dot_S4096x128_S128x64_S4096x64_1_0_0_1_n_n.rhsIdx i q 0).val = (q ⟨0, by decide⟩).val :=
  dot_S4096x128_S128x64_S4096x64_1_0_0_1_n_n.rhsIdx_val_of_single rfl i q
theorem rhsB_1 (i : S4096x64.Idx) (q : dot_S4096x128_S128x64_S4096x64_1_0_0_1_n_n.contr.Idx) : (dot_S4096x128_S128x64_S4096x64_1_0_0_1_n_n.rhsIdx i q 1).val = (i 1).val := by
  unfold DotDims.rhsIdx
  rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
  rfl

/-- The [4096,128]·[128,64] product into the zero block, read at row `r` and column `j`: the sum over the 128 inner
    coordinates of the row's entries times the column's. -/
theorem mmB_apply {φ₁ φ₂ : FTy} (a : FVec Ideal S4096x128 φ₁) (b : FVec Ideal S128x64 φ₂) (r : Fin 4096) (j : Fin 64) :
    matmul dot_S4096x128_S128x64_S4096x64_1_0_0_1_n_n none a b (constant (F := Ideal) S4096x64 .f32 0x00000000#32) (ix2 r j)
      = ∑ k : Fin 128, a (ix2 r k) * b (ix2 k j) := by
  show FloatOps.matmul dot_S4096x128_S128x64_S4096x64_1_0_0_1_n_n none a b (constant (F := Ideal) S4096x64 .f32 0x00000000#32) (ix2 r j) = _
  rw [Ideal.matmul_constant_zero_apply, ← Equiv.sum_comp (ValueIdx.contrEquiv1 dot_S4096x128_S128x64_S4096x64_1_0_0_1_n_n 128 rfl rfl).symm]
  refine Finset.sum_congr rfl fun k _ => ?_
  have hk := ValueIdx.contrEquiv1_symm_val dot_S4096x128_S128x64_S4096x64_1_0_0_1_n_n 128 rfl rfl k
  have el : dot_S4096x128_S128x64_S4096x64_1_0_0_1_n_n.lhsIdx (ix2 r j) ((ValueIdx.contrEquiv1 dot_S4096x128_S128x64_S4096x64_1_0_0_1_n_n 128 rfl rfl).symm k) = ix2 r k := funext fun a => Fin.ext (by
    match a with
    | ⟨0, _⟩ => exact lhsB_0 _ _
    | ⟨1, _⟩ => exact (lhsB_1 _ _).trans hk)
  have er : dot_S4096x128_S128x64_S4096x64_1_0_0_1_n_n.rhsIdx (ix2 r j) ((ValueIdx.contrEquiv1 dot_S4096x128_S128x64_S4096x64_1_0_0_1_n_n 128 rfl rfl).symm k) = ix2 k j := funext fun a => Fin.ext (by
    match a with
    | ⟨0, _⟩ => exact (rhsB_0 _ _).trans hk
    | ⟨1, _⟩ => exact rhsB_1 _ _)
  rw [el, er]

theorem lhsC_0 (i : S4096x1.Idx) (q : dot_S4096x64_S64x1_S4096x1_1_0_0_1_n_n.contr.Idx) : (dot_S4096x64_S64x1_S4096x1_1_0_0_1_n_n.lhsIdx i q 0).val = (i 0).val := by
  unfold DotDims.lhsIdx
  rw [dif_neg (show ¬(0 : Fin S4096x64.rank) ∈ dot_S4096x64_S64x1_S4096x1_1_0_0_1_n_n.lhsBatch by decide), dif_pos (show (0 : Fin S4096x64.rank) ∈ dot_S4096x64_S64x1_S4096x1_1_0_0_1_n_n.lhsNonContracting by decide)]
  rfl
theorem lhsC_1 (i : S4096x1.Idx) (q : dot_S4096x64_S64x1_S4096x1_1_0_0_1_n_n.contr.Idx) : (dot_S4096x64_S64x1_S4096x1_1_0_0_1_n_n.lhsIdx i q 1).val = (q ⟨0, by decide⟩).val :=
  dot_S4096x64_S64x1_S4096x1_1_0_0_1_n_n.lhsIdx_val_of_single rfl i q
theorem rhsC_0 (i : S4096x1.Idx) (q : dot_S4096x64_S64x1_S4096x1_1_0_0_1_n_n.contr.Idx) : (dot_S4096x64_S64x1_S4096x1_1_0_0_1_n_n.rhsIdx i q 0).val = (q ⟨0, by decide⟩).val :=
  dot_S4096x64_S64x1_S4096x1_1_0_0_1_n_n.rhsIdx_val_of_single rfl i q
theorem rhsC_1 (i : S4096x1.Idx) (q : dot_S4096x64_S64x1_S4096x1_1_0_0_1_n_n.contr.Idx) : (dot_S4096x64_S64x1_S4096x1_1_0_0_1_n_n.rhsIdx i q 1).val = (i 1).val := by
  unfold DotDims.rhsIdx
  rw [dif_neg (show ¬(1 : Fin S64x1.rank) ∈ dot_S4096x64_S64x1_S4096x1_1_0_0_1_n_n.rhsBatch by decide), dif_pos (show (1 : Fin S64x1.rank) ∈ dot_S4096x64_S64x1_S4096x1_1_0_0_1_n_n.rhsNonContracting by decide)]
  rfl

/-- The [4096,64]·[64,1] product into the zero block, read at row `r` and column `j`: the sum over the 64 inner
    coordinates of the row's entries times the column's. -/
theorem mmC_apply {φ₁ φ₂ : FTy} (a : FVec Ideal S4096x64 φ₁) (b : FVec Ideal S64x1 φ₂) (r : Fin 4096) (j : Fin 1) :
    matmul dot_S4096x64_S64x1_S4096x1_1_0_0_1_n_n none a b (constant (F := Ideal) S4096x1 .f32 0x00000000#32) (ix2 r j)
      = ∑ k : Fin 64, a (ix2 r k) * b (ix2 k j) := by
  show FloatOps.matmul dot_S4096x64_S64x1_S4096x1_1_0_0_1_n_n none a b (constant (F := Ideal) S4096x1 .f32 0x00000000#32) (ix2 r j) = _
  rw [Ideal.matmul_constant_zero_apply, ← Equiv.sum_comp (ValueIdx.contrEquiv1 dot_S4096x64_S64x1_S4096x1_1_0_0_1_n_n 64 rfl rfl).symm]
  refine Finset.sum_congr rfl fun k _ => ?_
  have hk := ValueIdx.contrEquiv1_symm_val dot_S4096x64_S64x1_S4096x1_1_0_0_1_n_n 64 rfl rfl k
  have el : dot_S4096x64_S64x1_S4096x1_1_0_0_1_n_n.lhsIdx (ix2 r j) ((ValueIdx.contrEquiv1 dot_S4096x64_S64x1_S4096x1_1_0_0_1_n_n 64 rfl rfl).symm k) = ix2 r k := funext fun a => Fin.ext (by
    match a with
    | ⟨0, _⟩ => exact lhsC_0 _ _
    | ⟨1, _⟩ => exact (lhsC_1 _ _).trans hk)
  have er : dot_S4096x64_S64x1_S4096x1_1_0_0_1_n_n.rhsIdx (ix2 r j) ((ValueIdx.contrEquiv1 dot_S4096x64_S64x1_S4096x1_1_0_0_1_n_n 64 rfl rfl).symm k) = ix2 k j := funext fun a => Fin.ext (by
    match a with
    | ⟨0, _⟩ => exact (rhsC_0 _ _).trans hk
    | ⟨1, _⟩ => exact rhsC_1 _ _)
  rw [el, er]

/-! ## Broadcasts, casts and loads read at an index -/

/-- A column broadcast across 128 columns reads its row's entry. -/
theorem bcastCol_apply {α : Type} (v : S4096x1.Idx → α) (r : Fin 4096) (j : Fin 128) :
    broadcastTo S4096x128 v broadcasts_S4096x1_S4096x128 (ix2 r j) = v (ix2 r (0 : Fin 1)) := by
  refine broadcastTo_apply v _ (ix2 r j) (ix2 r (0 : Fin 1)) fun ax => ?_
  match ax with
  | ⟨0, _⟩ => rfl
  | ⟨1, _⟩ => rfl

/-- A bias vector cast to one row and broadcast down 4096 rows reads its coordinate. -/
theorem biasA_apply {α : Type} (b : S128.Idx → α) (r : Fin 4096) (j : Fin 128) :
    broadcastTo S4096x128 (shapeCast S1x128 b shapeCasts_S128_S1x128) broadcasts_S1x128_S4096x128 (ix2 r j) = b (ix1 j) :=
  (broadcastTo_1b_ab_apply _ _ r j).trans (shapeCast_a_1a_apply b _ 0 j)

theorem biasB_apply {α : Type} (b : S64.Idx → α) (r : Fin 4096) (j : Fin 64) :
    broadcastTo S4096x64 (shapeCast S1x64 b shapeCasts_S64_S1x64) broadcasts_S1x64_S4096x64 (ix2 r j) = b (ix1 j) :=
  (broadcastTo_1b_ab_apply _ _ r j).trans (shapeCast_a_1a_apply b _ 0 j)

theorem biasC_apply {α : Type} (b : S1.Idx → α) (r : Fin 4096) (j : Fin 1) :
    broadcastTo S4096x1 (shapeCast S1x1 b shapeCasts_S1_S1x1) broadcasts_S1x1_S4096x1 (ix2 r j) = b (ix1 j) :=
  (broadcastTo_1b_ab_apply _ _ r j).trans (shapeCast_a_1a_apply b _ 0 j)

section Loads
variable {F : FTy → Type} [FloatOps F]

theorem zeros2 : (![0, 0] : Fin 2 → Nat) = fun _ => 0 := funext fun a => by fin_cases a <;> rfl
theorem zeros1 : (![0] : Fin 1 → Nat) = fun _ => 0 := funext fun a => by fin_cases a <;> rfl

/-- Slab `l` of a stacked [3,128,128] array, loaded as [1,128,128] and cast to [128,128], reads the array at `(l, k, j)`. -/
theorem ldC_apply (x : Vec F S3x128x128 .f32) (l : Fin 3)
    (inb : ∀ a, (![l.val, 0, 0] : Fin 3 → Nat) a + S1x128x128.size a ≤ S3x128x128.size a) (k j : Fin 128) :
    shapeCast S128x128 (View.ld x (Rect.unit (s := S3x128x128) ![l.val, 0, 0] S1x128x128.size inb) : Vec F S1x128x128 .f32)
      shapeCasts_S1x128x128_S128x128 (ix2 k j) = x (ix3 l k j) := by
  refine (shapeCast_1ab_ab_apply _ _ k j).trans ?_
  show x _ = x _
  refine congrArg x (funext fun a => Fin.ext ?_)
  match a with
  | ⟨0, _⟩ => show l.val + 1 * 0 = l.val; omega
  | ⟨1, _⟩ => show 0 + 1 * k.val = k.val; omega
  | ⟨2, _⟩ => show 0 + 1 * j.val = j.val; omega

/-- Row `l` of a stacked [3,128] array, loaded as [1,128] and cast to [128], reads the array at `(l, k)`. -/
theorem ldB_apply (x : Vec F S3x128 .f32) (l : Fin 3)
    (inb : ∀ a, (![l.val, 0] : Fin 2 → Nat) a + S1x128.size a ≤ S3x128.size a) (k : Fin 128) :
    shapeCast S128 (View.ld x (Rect.unit (s := S3x128) ![l.val, 0] S1x128.size inb) : Vec F S1x128 .f32)
      shapeCasts_S1x128_S128 (ix1 k) = x (ix2 l k) := by
  refine (shapeCast_1a_a_apply _ _ k).trans ?_
  show x _ = x _
  refine congrArg x (funext fun a => Fin.ext ?_)
  match a with
  | ⟨0, _⟩ => show l.val + 1 * 0 = l.val; omega
  | ⟨1, _⟩ => show 0 + 1 * k.val = k.val; omega

/-- Row `l` of a stacked [3,1,128] array, loaded as [1,1,128] and cast to [1,128], reads the array at `(l, 0, k)`. -/
theorem ldA_apply (x : Vec F S3x1x128 .f32) (l : Fin 3)
    (inb : ∀ a, (![l.val, 0, 0] : Fin 3 → Nat) a + S1x1x128.size a ≤ S3x1x128.size a) (k : Fin 128) :
    shapeCast S1x128 (View.ld x (Rect.unit (s := S3x1x128) ![l.val, 0, 0] S1x1x128.size inb) : Vec F S1x1x128 .f32)
      shapeCasts_S1x1x128_S1x128 (ix2 (0 : Fin 1) k) = x (ix3 l (0 : Fin 1) k) := by
  refine (shapeCast_1ab_ab_apply _ _ (0 : Fin 1) k).trans ?_
  show x _ = x _
  refine congrArg x (funext fun a => Fin.ext ?_)
  match a with
  | ⟨0, _⟩ => show l.val + 1 * 0 = l.val; omega
  | ⟨1, _⟩ => show 0 + 1 * 0 = 0; omega
  | ⟨2, _⟩ => show 0 + 1 * k.val = k.val; omega

/-- Columns 1 and 2 of the per-atom block: the distance and the cutoff weight. -/
theorem pay3_apply (v0 : Vec F S4096x3 .f32) (r : Fin 4096) : k0_pay3 v0 (ix2 r (0 : Fin 1)) = v0 (ix2 r (1 : Fin 3)) := by
  unfold k0_pay3 k0_pay2
  rw [shapeCast_self]
  exact slice2_axis1_apply 1 v0 _ r (0 : Fin 1) (1 : Fin 3) rfl

theorem pay4_apply (v0 : Vec F S4096x3 .f32) (r : Fin 4096) : k0_pay4 v0 (ix2 r (0 : Fin 1)) = v0 (ix2 r (2 : Fin 3)) := by
  unfold k0_pay4 k0_pay2
  rw [shapeCast_self]
  exact slice2_axis1_apply 2 v0 _ r (0 : Fin 1) (2 : Fin 3) rfl

end Loads

/-! ## The vector functions the body is built from -/

section Vectors
variable {F : FTy → Type} [FloatOps F]

/-- A dense layer on every row: the block times the weight matrix, plus the bias broadcast down the rows. -/
def denseVec (x : FVec F S4096x128 .f32) (W : FVec F S128x128 .f32) (b : FVec F S128 .f32) : FVec F S4096x128 .f32 :=
  addf (matmul dot_S4096x128_S128x128_S4096x128_1_0_0_1_n_n none (truncf .bf16 x bitsLt_bf16_f32) (truncf .bf16 W bitsLt_bf16_f32)
      (constant S4096x128 .f32 0x00000000#32))
    (broadcastTo S4096x128 (shapeCast S1x128 b shapeCasts_S128_S1x128) broadcasts_S1x128_S4096x128)

/-- The rectifier on every entry. -/
def reluVec (x : FVec F S4096x128 .f32) : FVec F S4096x128 .f32 :=
  maximumf x (broadcast S4096x128 (Scalar.ofBits .f32 0x00000000#32))

/-- The filter generated from the distance column: `relu(d · fw1 + fb1)` on every row. -/
def filtVec (v3 : FVec F S4096x1 .f32) (fw1 : FVec F S1x128 .f32) (fb1 : FVec F S128 .f32) : FVec F S4096x128 .f32 :=
  reluVec (addf (mulf (broadcastTo S4096x128 v3 broadcasts_S4096x1_S4096x128) (broadcastTo S4096x128 fw1 broadcasts_S1x128_S4096x128))
    (broadcastTo S4096x128 (shapeCast S1x128 fb1 shapeCasts_S128_S1x128) broadcasts_S1x128_S4096x128))

/-- One interaction's update on every row, from the distance and cutoff columns and the interaction's ten weights. -/
def layerVec (v3 v4 : FVec F S4096x1 .f32) (fw1 : FVec F S1x128 .f32) (fb1 : FVec F S128 .f32) (fw2 : FVec F S128x128 .f32)
    (fb2 : FVec F S128 .f32) (cw : FVec F S128x128 .f32) (cb : FVec F S128 .f32) (dw1 : FVec F S128x128 .f32) (db1 : FVec F S128 .f32)
    (dw2 : FVec F S128x128 .f32) (db2 : FVec F S128 .f32) : FVec F S4096x128 .f32 :=
  denseVec (reluVec (denseVec (denseVec (mulf (denseVec (filtVec v3 fw1 fb1) fw2 fb2)
    (broadcastTo S4096x128 v4 broadcasts_S4096x1_S4096x128)) cw cb) dw1 db1)) dw2 db2

/-- The head's first layer on every row. -/
def headVec (x : FVec F S4096x128 .f32) (ow1 : FVec F S128x64 .f32) (ob1 : FVec F S64 .f32) : FVec F S4096x64 .f32 :=
  addf (matmul dot_S4096x128_S128x64_S4096x64_1_0_0_1_n_n none (truncf .bf16 x bitsLt_bf16_f32) (truncf .bf16 ow1 bitsLt_bf16_f32)
      (constant S4096x64 .f32 0x00000000#32))
    (broadcastTo S4096x64 (shapeCast S1x64 ob1 shapeCasts_S64_S1x64) broadcasts_S1x64_S4096x64)

/-- The first interaction's payload is the embedding block plus the update at the first slab's weights. -/
theorem pay14_eq (v3 v4 : FVec F S4096x1 .f32) (v16 : FVec F S4096x128 .f32) (v18 : FVec F S1x128 .f32) (v20 : FVec F S128 .f32)
    (v22 : FVec F S128x128 .f32) (v24 : FVec F S128 .f32) (v26 : FVec F S128x128 .f32) (v28 : FVec F S128 .f32)
    (v30 : FVec F S128x128 .f32) (v32 : FVec F S128 .f32) (v33 : Vec F S1x128x128 .f32) (v35 : Vec F S1x128 .f32) :
    k0_pay14 v3 v4 v16 v18 v20 v22 v24 v26 v28 v30 v32 v33 v35
      = addf v16 (layerVec v3 v4 v18 v20 v22 v24 v26 v28 v30 v32 (shapeCast S128x128 v33 shapeCasts_S1x128x128_S128x128)
          (shapeCast S128 v35 shapeCasts_S1x128_S128)) := rfl

/-- The second interaction, split over three payloads, is the running block plus the update at the second slab's weights. -/
theorem pay23_eq (v3 v4 : FVec F S4096x1 .f32) (v73 : FVec F S4096x128 .f32) (v75 : FVec F S1x128 .f32) (v77 : FVec F S128 .f32)
    (v78 : Vec F S1x128x128 .f32) (v80 : Vec F S1x128 .f32) (v82 : Vec F S1x128x128 .f32) (v84 : Vec F S1x128 .f32)
    (v87 : FVec F S128x128 .f32) (v89 : FVec F S128 .f32) (v91 : FVec F S128x128 .f32) (v93 : FVec F S128 .f32) :
    k0_pay23 v73 v87 v89 v91 v93 (k0_pay21 v3 v4 v75 v77 v78 v80 v82) (k0_pay22 v84)
      = addf v73 (layerVec v3 v4 v75 v77 (shapeCast S128x128 v78 shapeCasts_S1x128x128_S128x128) (shapeCast S128 v80 shapeCasts_S1x128_S128)
          (shapeCast S128x128 v82 shapeCasts_S1x128x128_S128x128) (shapeCast S128 v84 shapeCasts_S1x128_S128) v87 v89 v91 v93) := rfl

/-- The third interaction and the head's first layer. -/
theorem pay33_eq (v3 v4 : FVec F S4096x1 .f32) (v130 : FVec F S4096x128 .f32) (v132 : FVec F S1x128 .f32) (v134 : FVec F S128 .f32)
    (v136 : FVec F S128x128 .f32) (v138 : FVec F S128 .f32) (v140 : FVec F S128x128 .f32) (v142 : FVec F S128 .f32)
    (v144 : FVec F S128x128 .f32) (v146 : FVec F S128 .f32) (v148 : FVec F S128x128 .f32) (v149 : Vec F S1x128 .f32)
    (v189 : Vec F S128x64 .f32) (v192 : Vec F S64 .f32) :
    k0_pay33 v3 v4 v130 v132 v134 v136 v138 v140 v142 v144 v146 v148 v149 v189 v192
      = headVec (addf v130 (layerVec v3 v4 v132 v134 v136 v138 v140 v142 v144 v146 v148 (shapeCast S128 v149 shapeCasts_S1x128_S128)))
          v189 v192 := rfl

end Vectors

/-! ## The vector functions read at a row, over the extended reals -/

open Cert.Spec in
/-- A dense layer's column depends only on the coordinates of its three arguments. -/
theorem lin_congr {K J : ℕ} {x x' : Fin K → EReal} {W W' : Fin K → Fin J → EReal} {b b' : Fin J → EReal}
    (hx : ∀ k, x k = x' k) (hW : ∀ k j, W k j = W' k j) (hb : ∀ j, b j = b' j) (j : Fin J) : lin x W b j = lin x' W' b' j := by
  unfold lin
  rw [hb j]
  exact congrArg (· + b' j) (Finset.sum_congr rfl fun k _ => by rw [hx k, hW k j])

open Cert.Spec in
theorem denseVec_apply (x : FVec Ideal S4096x128 .f32) (W : FVec Ideal S128x128 .f32) (b : FVec Ideal S128 .f32)
    (r : Fin 4096) (j : Fin 128) :
    denseVec x W b (ix2 r j) = lin (fun k => x (ix2 r k)) (fun k j => W (ix2 k j)) (fun j => b (ix1 j)) j := by
  unfold denseVec lin
  rw [addf_apply, mmA_apply, biasA_apply]
  rfl

open Cert.Spec in
theorem reluVec_apply (x : FVec Ideal S4096x128 .f32) (i : S4096x128.Idx) : reluVec x i = relu (x i) := rfl

open Cert.Spec in
theorem filtVec_apply (v3 : FVec Ideal S4096x1 .f32) (fw1 : FVec Ideal S1x128 .f32) (fb1 : FVec Ideal S128 .f32)
    (r : Fin 4096) (k : Fin 128) :
    filtVec v3 fw1 fb1 (ix2 r k) = relu (v3 (ix2 r (0 : Fin 1)) * fw1 (ix2 (0 : Fin 1) k) + fb1 (ix1 k)) := by
  unfold filtVec
  rw [reluVec_apply, addf_apply, mulf_apply, bcastCol_apply, broadcastTo_1b_ab_apply, biasA_apply]

open Cert.Spec in
/-- One interaction's update at row `r`: the row function at that row's distance and cutoff weight. -/
theorem layerVec_apply (v3 v4 : FVec Ideal S4096x1 .f32) (fw1 : FVec Ideal S1x128 .f32) (fb1 : FVec Ideal S128 .f32)
    (fw2 : FVec Ideal S128x128 .f32) (fb2 : FVec Ideal S128 .f32) (cw : FVec Ideal S128x128 .f32) (cb : FVec Ideal S128 .f32)
    (dw1 : FVec Ideal S128x128 .f32) (db1 : FVec Ideal S128 .f32) (dw2 : FVec Ideal S128x128 .f32) (db2 : FVec Ideal S128 .f32)
    (W : LayerW) (h1 : ∀ k, fw1 (ix2 (0 : Fin 1) k) = W.fw1 k) (h2 : ∀ k, fb1 (ix1 k) = W.fb1 k)
    (h3 : ∀ k j, fw2 (ix2 k j) = W.fw2 k j) (h4 : ∀ k, fb2 (ix1 k) = W.fb2 k)
    (h5 : ∀ k j, cw (ix2 k j) = W.cw k j) (h6 : ∀ k, cb (ix1 k) = W.cb k)
    (h7 : ∀ k j, dw1 (ix2 k j) = W.dw1 k j) (h8 : ∀ k, db1 (ix1 k) = W.db1 k)
    (h9 : ∀ k j, dw2 (ix2 k j) = W.dw2 k j) (h10 : ∀ k, db2 (ix1 k) = W.db2 k) (r : Fin 4096) (j : Fin 128) :
    layerVec v3 v4 fw1 fb1 fw2 fb2 cw cb dw1 db1 dw2 db2 (ix2 r j)
      = layerV (v3 (ix2 r (0 : Fin 1))) (v4 (ix2 r (0 : Fin 1))) W j := by
  unfold layerVec layerV hid filtCut filt
  refine (denseVec_apply _ _ _ r j).trans (lin_congr (fun k => ?_) h9 h10 j)
  rw [reluVec_apply]
  refine congrArg relu ?_
  refine (denseVec_apply _ _ _ r k).trans (lin_congr (fun m => ?_) h7 h8 k)
  refine (denseVec_apply _ _ _ r m).trans (lin_congr (fun n => ?_) h5 h6 m)
  rw [mulf_apply, bcastCol_apply]
  refine congrArg (· * v4 (ix2 r (0 : Fin 1))) ?_
  refine (denseVec_apply _ _ _ r n).trans (lin_congr (fun p => ?_) h3 h4 n)
  rw [filtVec_apply, h1, h2]

open Cert.Spec in
theorem headVec_apply (x : FVec Ideal S4096x128 .f32) (ow1 : FVec Ideal S128x64 .f32) (ob1 : FVec Ideal S64 .f32)
    (r : Fin 4096) (k : Fin 64) :
    headVec x ow1 ob1 (ix2 r k) = lin (fun m => x (ix2 r m)) (fun m k => ow1 (ix2 m k)) (fun k => ob1 (ix1 k)) k := by
  unfold headVec lin
  rw [addf_apply, mmB_apply, biasB_apply]
  rfl

open Cert.Spec in
/-- The head's second layer at row `r`: the rectified hidden row against the 64 output weights, plus the bias. -/
theorem pay1_apply (y : FVec Ideal S4096x64 .f32) (ow2 : Vec Ideal S64x1 .f32) (ob2 : Vec Ideal S1 .f32) (r : Fin 4096) :
    k0_pay1 (F := Ideal) y (Scalar.ofBits .f32 0x00000000#32) ow2 ob2 (ix2 r (0 : Fin 1))
      = (∑ k : Fin 64, relu (y (ix2 r k)) * ow2 (ix2 k (0 : Fin 1))) + ob2 (ix1 (0 : Fin 1)) := by
  unfold k0_pay1
  rw [addf_apply, mmC_apply, biasC_apply]
  rfl

/-! ## The embedding row: a one-hot product -/

/-- The comparison of a word with a small index, widened and converted: 1 where they agree, 0 elsewhere. -/
theorem onehot_word (z : BitVec 32) (k : Fin 128) :
    ((((IntOp.cmpi .eq z (BitVec.ofNat 32 k.val)).setWidth 32).toInt : ℝ) : EReal) = if z.toNat = k.val then 1 else 0 := by
  have hk : k.val % 2 ^ 32 = k.val := Nat.mod_eq_of_lt (by have := k.isLt; omega)
  by_cases h : z.toNat = k.val
  · have hz : z = BitVec.ofNat 32 k.val := BitVec.eq_of_toNat_eq (by rw [BitVec.toNat_ofNat, hk, h])
    have e : (BitVec.setWidth 32 1#1).toInt = 1 := by decide
    rw [if_pos h, StableHlo.Predicate.cmpi_eq_iff.mpr hz, e]
    simp
  · have hz : ¬ z = BitVec.ofNat 32 k.val := fun e => h (by rw [e, BitVec.toNat_ofNat, hk])
    have e : (BitVec.setWidth 32 0#1).toInt = 0 := by decide
    rw [if_neg h, eq_zero_of_ne_one (fun e => hz (StableHlo.Predicate.cmpi_eq_iff.mp e)), e]
    simp

/-- A sum against an indicator of one index picks that index's term, or nothing when the index is out of range. -/
theorem sum_onehot (n z : ℕ) (T : Fin n → EReal) :
    ∑ k : Fin n, (if z = k.val then (1 : EReal) else 0) * T k = if h : z < n then T ⟨z, h⟩ else 0 := by
  by_cases h : z < n
  · rw [dif_pos h, Finset.sum_eq_single (⟨z, h⟩ : Fin n)]
    · rw [if_pos rfl, one_mul]
    · intro k _ hk
      rw [if_neg (fun e => hk (Fin.ext e.symm)), zero_mul]
    · intro hn
      exact absurd (Finset.mem_univ _) hn
  · rw [dif_neg h]
    exact Finset.sum_eq_zero fun k _ => by rw [if_neg (fun (e : z = k.val) => h (by rw [e]; exact k.isLt)), zero_mul]

/-- The comparison of the atom's number with the column index, widened and converted: 1 in the number's column. -/
theorem onehot_apply (v2 : FVec Ideal S4096x1 .f32) (r : Fin 4096) (k : Fin 128) :
    (truncf .bf16 (sitofp (F := Ideal) .f32 (extui 32 (cmpi .eq (broadcastTo S4096x128 (fptosi 32 v2) broadcasts_S4096x1_S4096x128)
        (broadcastTo S4096x128 (iota .tc S1x128 32 [1] iota_S1x128_d1_w32) broadcasts_S1x128_S4096x128)) natLt_1_32)) bitsLt_bf16_f32
          : FVec Ideal S4096x128 .bf16) (ix2 r k)
      = if (Ideal.fptosi 32 (v2 (ix2 r (0 : Fin 1)))).toNat = k.val then 1 else 0 := by
  show ((((IntOp.cmpi .eq (broadcastTo S4096x128 (fptosi (F := Ideal) 32 v2) broadcasts_S4096x1_S4096x128 (ix2 r k))
      (broadcastTo S4096x128 (iota .tc S1x128 32 [1] iota_S1x128_d1_w32) broadcasts_S1x128_S4096x128 (ix2 r k))).setWidth 32).toInt : ℝ) : EReal) = _
  rw [bcastCol_apply, broadcastTo_1b_ab_apply, iota_single_apply]
  exact onehot_word _ k

/-- The one-hot product at row `r`: the row of the padded table at the atom's number. -/
theorem pay5_apply (v0 : Vec Ideal S4096x3 .f32) (v13 : Vec Ideal S128x128 .f32) (r : Fin 4096) (j : Fin 128) :
    k0_pay5 (F := Ideal) v0 v13 (ix2 r j)
      = Cert.Spec.embRowPad (fun k j => v13 (ix2 k j)) (Ideal.fptosi 32 (v0 (ix2 r (0 : Fin 3)))) j := by
  unfold k0_pay5 k0_pay2 Cert.Spec.embRowPad
  rw [mmA_apply]
  dsimp only
  rw [shapeCast_self, shapeCast_self]
  refine Eq.trans (Finset.sum_congr rfl fun k _ => ?_) (sum_onehot 128 _ (fun k => v13 (ix2 k j)))
  rw [onehot_apply, slice2_axis1_apply 0 v0 _ r (0 : Fin 1) (0 : Fin 3) rfl]
  rfl

/-! ## The body's stored value -/

section Body
variable {F : FTy → Type} [FloatOps F]

/-- The stored block as the network on every row: the embedding block, the three updates added in order (each at
    its slab of the stacked weights), the head's two layers. -/
theorem bodyOut_eq (x0 : Vec F S4096x3 .f32) (x1 : Vec F S128x128 .f32) (x2 : Vec F S3x1x128 .f32) (x3 : Vec F S3x128 .f32) (x4 : Vec F S3x128x128 .f32) (x5 : Vec F S3x128 .f32) (x6 : Vec F S3x128x128 .f32) (x7 : Vec F S3x128 .f32) (x8 : Vec F S3x128x128 .f32) (x9 : Vec F S3x128 .f32) (x10 : Vec F S3x128x128 .f32) (x11 : Vec F S3x128 .f32) (x12 : Vec F S128x64 .f32) (x13 : Vec F S64 .f32) (x14 : Vec F S64x1 .f32) (x15 : Vec F S1 .f32) :
    bodyOut x0 x1 x2 x3 x4 x5 x6 x7 x8 x9 x10 x11 x12 x13 x14 x15
      = k0_pay1
          (headVec
            (addf
              (addf
                (addf (k0_pay5 (View.ld x0 rW0) (View.ld x1 rW1))
                  (layerVec (k0_pay3 (View.ld x0 rW0)) (k0_pay4 (View.ld x0 rW0))
              (shapeCast S1x128 (View.ld x2 rA0) shapeCasts_S1x1x128_S1x128) (shapeCast S128 (View.ld x3 rB0) shapeCasts_S1x128_S128)
              (shapeCast S128x128 (View.ld x4 rC0) shapeCasts_S1x128x128_S128x128) (shapeCast S128 (View.ld x5 rB0) shapeCasts_S1x128_S128)
              (shapeCast S128x128 (View.ld x6 rC0) shapeCasts_S1x128x128_S128x128) (shapeCast S128 (View.ld x7 rB0) shapeCasts_S1x128_S128)
              (shapeCast S128x128 (View.ld x8 rC0) shapeCasts_S1x128x128_S128x128) (shapeCast S128 (View.ld x9 rB0) shapeCasts_S1x128_S128)
              (shapeCast S128x128 (View.ld x10 rC0) shapeCasts_S1x128x128_S128x128) (shapeCast S128 (View.ld x11 rB0) shapeCasts_S1x128_S128)))
                (layerVec (k0_pay3 (View.ld x0 rW0)) (k0_pay4 (View.ld x0 rW0))
              (shapeCast S1x128 (View.ld x2 rA1) shapeCasts_S1x1x128_S1x128) (shapeCast S128 (View.ld x3 rB1) shapeCasts_S1x128_S128)
              (shapeCast S128x128 (View.ld x4 rC1) shapeCasts_S1x128x128_S128x128) (shapeCast S128 (View.ld x5 rB1) shapeCasts_S1x128_S128)
              (shapeCast S128x128 (View.ld x6 rC1) shapeCasts_S1x128x128_S128x128) (shapeCast S128 (View.ld x7 rB1) shapeCasts_S1x128_S128)
              (shapeCast S128x128 (View.ld x8 rC1) shapeCasts_S1x128x128_S128x128) (shapeCast S128 (View.ld x9 rB1) shapeCasts_S1x128_S128)
              (shapeCast S128x128 (View.ld x10 rC1) shapeCasts_S1x128x128_S128x128) (shapeCast S128 (View.ld x11 rB1) shapeCasts_S1x128_S128)))
              (layerVec (k0_pay3 (View.ld x0 rW0)) (k0_pay4 (View.ld x0 rW0))
              (shapeCast S1x128 (View.ld x2 rA2) shapeCasts_S1x1x128_S1x128) (shapeCast S128 (View.ld x3 rB2) shapeCasts_S1x128_S128)
              (shapeCast S128x128 (View.ld x4 rC2) shapeCasts_S1x128x128_S128x128) (shapeCast S128 (View.ld x5 rB2) shapeCasts_S1x128_S128)
              (shapeCast S128x128 (View.ld x6 rC2) shapeCasts_S1x128x128_S128x128) (shapeCast S128 (View.ld x7 rB2) shapeCasts_S1x128_S128)
              (shapeCast S128x128 (View.ld x8 rC2) shapeCasts_S1x128x128_S128x128) (shapeCast S128 (View.ld x9 rB2) shapeCasts_S1x128_S128)
              (shapeCast S128x128 (View.ld x10 rC2) shapeCasts_S1x128x128_S128x128) (shapeCast S128 (View.ld x11 rB2) shapeCasts_S1x128_S128)))
            (View.ld x12 rW12) (View.ld x13 rW13))
          (Scalar.ofBits .f32 0x00000000#32) (View.ld x14 rW14) (View.ld x15 rW15) := rfl

end Body

open Cert.Spec in
/-- Interaction `l`'s update at row `r`, its weights read as slab `l` of the stacked arrays: the row function at
    interaction `l`'s weights. -/
theorem layerAt_apply (x2 : Vec Ideal S3x1x128 .f32) (x3 : Vec Ideal S3x128 .f32) (x4 : Vec Ideal S3x128x128 .f32) (x5 : Vec Ideal S3x128 .f32) (x6 : Vec Ideal S3x128x128 .f32) (x7 : Vec Ideal S3x128 .f32) (x8 : Vec Ideal S3x128x128 .f32) (x9 : Vec Ideal S3x128 .f32) (x10 : Vec Ideal S3x128x128 .f32) (x11 : Vec Ideal S3x128 .f32) (x12 : Vec Ideal S128x64 .f32) (x13 : Vec Ideal S64 .f32) (x14 : Vec Ideal S64x1 .f32) (x15 : Vec Ideal S1 .f32) (v3 v4 : FVec Ideal S4096x1 .f32) (l : Fin 3)
    (inbA : ∀ a, (![l.val, 0, 0] : Fin 3 → Nat) a + S1x1x128.size a ≤ S3x1x128.size a)
    (inbB : ∀ a, (![l.val, 0] : Fin 2 → Nat) a + S1x128.size a ≤ S3x128.size a)
    (inbC : ∀ a, (![l.val, 0, 0] : Fin 3 → Nat) a + S1x128x128.size a ≤ S3x128x128.size a) (r : Fin 4096) (m : Fin 128) :
    (layerVec v3 v4
        (shapeCast S1x128 (View.ld x2 (Rect.unit (s := S3x1x128) ![l.val, 0, 0] S1x1x128.size inbA) : Vec Ideal S1x1x128 .f32) shapeCasts_S1x1x128_S1x128)
        (shapeCast S128 (View.ld x3 (Rect.unit (s := S3x128) ![l.val, 0] S1x128.size inbB) : Vec Ideal S1x128 .f32) shapeCasts_S1x128_S128)
        (shapeCast S128x128 (View.ld x4 (Rect.unit (s := S3x128x128) ![l.val, 0, 0] S1x128x128.size inbC) : Vec Ideal S1x128x128 .f32) shapeCasts_S1x128x128_S128x128)
        (shapeCast S128 (View.ld x5 (Rect.unit (s := S3x128) ![l.val, 0] S1x128.size inbB) : Vec Ideal S1x128 .f32) shapeCasts_S1x128_S128)
        (shapeCast S128x128 (View.ld x6 (Rect.unit (s := S3x128x128) ![l.val, 0, 0] S1x128x128.size inbC) : Vec Ideal S1x128x128 .f32) shapeCasts_S1x128x128_S128x128)
        (shapeCast S128 (View.ld x7 (Rect.unit (s := S3x128) ![l.val, 0] S1x128.size inbB) : Vec Ideal S1x128 .f32) shapeCasts_S1x128_S128)
        (shapeCast S128x128 (View.ld x8 (Rect.unit (s := S3x128x128) ![l.val, 0, 0] S1x128x128.size inbC) : Vec Ideal S1x128x128 .f32) shapeCasts_S1x128x128_S128x128)
        (shapeCast S128 (View.ld x9 (Rect.unit (s := S3x128) ![l.val, 0] S1x128.size inbB) : Vec Ideal S1x128 .f32) shapeCasts_S1x128_S128)
        (shapeCast S128x128 (View.ld x10 (Rect.unit (s := S3x128x128) ![l.val, 0, 0] S1x128x128.size inbC) : Vec Ideal S1x128x128 .f32) shapeCasts_S1x128x128_S128x128)
        (shapeCast S128 (View.ld x11 (Rect.unit (s := S3x128) ![l.val, 0] S1x128.size inbB) : Vec Ideal S1x128 .f32) shapeCasts_S1x128_S128)) (ix2 r m)
      = layerV (v3 (ix2 r (0 : Fin 1))) (v4 (ix2 r (0 : Fin 1)))
          (NetW.layer ⟨x2, x3, x4, x5, x6, x7, x8, x9, x10, x11, x12, x13, x14, x15⟩ l) m :=
  layerVec_apply _ _ _ _ _ _ _ _ _ _ _ _ (NetW.layer ⟨x2, x3, x4, x5, x6, x7, x8, x9, x10, x11, x12, x13, x14, x15⟩ l)
    (fun k => ldA_apply x2 l inbA k) (fun k => ldB_apply x3 l inbB k) (fun k j => ldC_apply x4 l inbC k j)
    (fun k => ldB_apply x5 l inbB k) (fun k j => ldC_apply x6 l inbC k j) (fun k => ldB_apply x7 l inbB k)
    (fun k j => ldC_apply x8 l inbC k j) (fun k => ldB_apply x9 l inbB k) (fun k j => ldC_apply x10 l inbC k j)
    (fun k => ldB_apply x11 l inbB k) r m

open Cert.Spec in
/-- WHAT THE BODY STORES AT ROW `r`: the network's prediction from the row of the padded embedding table at the atom's
    number (column 0 of the per-atom block, converted to an integer), the distance (column 1) and the cutoff weight
    (column 2), at the weights the blocks hold. -/
theorem bodyOut_apply (x0 : Vec Ideal S4096x3 .f32) (x1 : Vec Ideal S128x128 .f32) (x2 : Vec Ideal S3x1x128 .f32) (x3 : Vec Ideal S3x128 .f32) (x4 : Vec Ideal S3x128x128 .f32) (x5 : Vec Ideal S3x128 .f32) (x6 : Vec Ideal S3x128x128 .f32) (x7 : Vec Ideal S3x128 .f32) (x8 : Vec Ideal S3x128x128 .f32) (x9 : Vec Ideal S3x128 .f32) (x10 : Vec Ideal S3x128x128 .f32) (x11 : Vec Ideal S3x128 .f32) (x12 : Vec Ideal S128x64 .f32) (x13 : Vec Ideal S64 .f32) (x14 : Vec Ideal S64x1 .f32) (x15 : Vec Ideal S1 .f32) (r : Fin 4096) :
    bodyOut (F := Ideal) x0 x1 x2 x3 x4 x5 x6 x7 x8 x9 x10 x11 x12 x13 x14 x15 (ix2 r (0 : Fin 1))
      = Cert.Spec.netOut ⟨x2, x3, x4, x5, x6, x7, x8, x9, x10, x11, x12, x13, x14, x15⟩
          (Cert.Spec.embRowPad (fun k j => x1 (ix2 k j)) (Ideal.fptosi 32 (x0 (ix2 r (0 : Fin 3))))) (x0 (ix2 r (1 : Fin 3)))
          (x0 (ix2 r (2 : Fin 3))) := by
  have e0 : (View.ld (Val := Elt Ideal) x0 rW0 : Vec Ideal S4096x3 .f32) = x0 := View.ld_unit_zero zeros2 _ x0
  have e1 : (View.ld (Val := Elt Ideal) x1 rW1 : Vec Ideal S128x128 .f32) = x1 := View.ld_unit_zero zeros2 _ x1
  have e12 : (View.ld (Val := Elt Ideal) x12 rW12 : Vec Ideal S128x64 .f32) = x12 := View.ld_unit_zero zeros2 _ x12
  have e13 : (View.ld (Val := Elt Ideal) x13 rW13 : Vec Ideal S64 .f32) = x13 := View.ld_unit_zero zeros1 _ x13
  have e14 : (View.ld (Val := Elt Ideal) x14 rW14 : Vec Ideal S64x1 .f32) = x14 := View.ld_unit_zero zeros2 _ x14
  have e15 : (View.ld (Val := Elt Ideal) x15 rW15 : Vec Ideal S1 .f32) = x15 := View.ld_unit_zero zeros1 _ x15
  rw [bodyOut_eq, e0, e1, e12, e13, e14, e15]
  refine (pay1_apply _ _ _ r).trans ?_
  unfold netOut featOut headV
  refine congrArg (· + x15 (ix1 (0 : Fin 1))) (Finset.sum_congr rfl fun k _ => ?_)
  refine congrArg (fun t => relu t * x14 (ix2 k (0 : Fin 1))) ?_
  refine (headVec_apply _ _ _ r k).trans (lin_congr (fun m => ?_) (fun _ _ => rfl) (fun _ => rfl) k)
  unfold feat
  rw [addf_apply, addf_apply, addf_apply]
  have hd := pay3_apply x0 r
  have hc := pay4_apply x0 r
  refine congrArg₂ (· + ·) (congrArg₂ (· + ·) (congrArg₂ (· + ·) (pay5_apply x0 x1 r m) ?_) ?_) ?_
  · exact (layerAt_apply x2 x3 x4 x5 x6 x7 x8 x9 x10 x11 x12 x13 x14 x15 _ _ 0 _ _ _ r m).trans (by rw [hd, hc])
  · exact (layerAt_apply x2 x3 x4 x5 x6 x7 x8 x9 x10 x11 x12 x13 x14 x15 _ _ 1 _ _ _ r m).trans (by rw [hd, hc])
  · exact (layerAt_apply x2 x3 x4 x5 x6 x7 x8 x9 x10 x11 x12 x13 x14 x15 _ _ 2 _ _ _ r m).trans (by rw [hd, hc])

end Cert.KernelIdeal.Val

end
-- ==== Proof.Small.lean ====
/- A 32-bit word read as a signed integer, taken to the extended reals, and converted back by truncation toward zero
   clamped to the signed 32-bit range, is the word itself: the integer is already whole (floor and ceiling fix it) and
   already within [-2^31, 2^31 - 1] (the clamp fixes it), and a word is recovered from its signed reading. -/
import Idealize.ShloMosaic.PureOps.Ideal
import Mathlib.Algebra.Order.Floor.Ring

noncomputable section

namespace Cert.Small

open Idealize.ShloMosaic

/-- Truncation toward zero of a real that is a whole number is that whole number, on either side of zero. -/
theorem trunc_intCast (n : Int) : (if (0 : ℝ) ≤ (n : ℝ) then ⌊(n : ℝ)⌋ else ⌈(n : ℝ)⌉) = n := by
  split
  · exact Int.floor_intCast n
  · exact Int.ceil_intCast n

/-- The signed reading of a 32-bit word, sent to the extended reals and back (truncating, clamped to the signed
    32-bit range), is the word. -/
theorem fptosi_sitofp (z : BitVec 32) : Ideal.fptosi 32 (((z.toInt : ℝ) : EReal)) = z := by
  have hlo : -(2 ^ 31 : Int) ≤ z.toInt := by
    have := BitVec.le_toInt z
    omega
  have hhi : z.toInt ≤ (2 ^ 31 : Int) - 1 := by
    have := BitVec.toInt_lt (x := z)
    omega
  rw [Ideal.fptosi, Ideal.toIntClamped_coe, trunc_intCast]
  have hclamp : max (-((2 ^ (32 - 1) : Nat) : Int)) (min (((2 ^ (32 - 1) : Nat) : Int) - 1) z.toInt) = z.toInt := by
    have e : ((2 ^ (32 - 1) : Nat) : Int) = 2 ^ 31 := by norm_num
    rw [e, min_eq_right hhi, max_eq_right hlo]
  rw [hclamp]
  exact BitVec.ofInt_toInt

end Cert.Small
-- ==== Proof.KIArr.lean ====
/-
  From the kernel's blocks to the whole result array, over the extended reals.

  The host operations before the region end with ten that build what the region reads: the stack of three per-atom
  columns (the atomic number as a real, the mean pair distance, the cutoff weight) and the embedding table padded with
  zero rows to 128 rows. Read at an index, row `n` of the stack is `(z n, d n, cut n)` and entry `(k, j)` of the padded
  table is the table's for `k < 100` and zero below. The region's grid has 32 points; point `t` reads rows
  `4096 t … 4096 t + 4095` of the stack and the whole of every other array, and writes rows `4096 t … 4096 t + 4095` of the
  result. Row `r` of what the body computes at point `t` is the network's prediction for atom `4096 t + r`; the 32 blocks
  cover the result, so after the run the result array is the prediction at every atom, and every argument array is as
  launched.
-/
import proofs.«415417_j37220186587161_1_alg».proof.Proof.KIFrame
import proofs.«415417_j37220186587161_1_alg».proof.Proof.KIVal
import proofs.«415417_j37220186587161_1_alg».proof.Proof.Small
import proofs.«415417_j37220186587161_1_alg».proof.Proof.Spec
import Idealize.ShloMosaic.Lib.Pipeline.Frame
import Idealize.ShloMosaic.Lib.StableHlo.Run
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Arr

open Cert.KernelIdeal Cert.KernelIdeal.Gen Cert.KernelIdeal.Body Cert.KernelIdeal.HFrame Idealize.ShloMosaic Idealize.ShloMosaic.TcCoe Idealize.SL.Sem Idealize.ShloMosaic.ValueIdx
open Idealize.ShloMosaic.Pipeline (Dat)

/-! ## General lemmas -/

section General
variable {τ : Topo} {sig : RefSig} {Val : EltTy → Type}

/-- An operation over a literal family of three references: each operand's contents at its own reference. -/
theorem nary3_result (x a b y : Ref sig .tc)
    (f : ((k : Fin 3) → ((![x, a, b] : Fin 3 → Ref sig .tc) k).ty.Contents Val) → y.ty.Contents Val) (hxs hy)
    (F : Valuation τ sig Val) :
    (StableHlo.nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [StableHlo.nary_result]; congr 1; funext k; fin_cases k <;> rfl

end General

section Scatter
variable {α : Type} {s si u : Shape} {w : Nat}

/-- A scatter that writes the update: an index no update lands at keeps the fold's contents. -/
theorem scatter_fold_keep (d : ScatterDims s si u) (idx : IVec si w) (upd : u.Idx → α) (i' : s.Idx) :
    ∀ (L : List (Fin u.numel)) (r : s.Idx → α), (∀ n ∈ L, d.resultIdx? (u.rowMajor.symm n) idx ≠ some i') →
      (L.foldl (fun r n =>
        match d.resultIdx? (u.rowMajor.symm n) idx with
        | some i => fun i' => if i' = i then (fun _ b => b) (r i) (upd (u.rowMajor.symm n)) else r i'
        | none => r) r) i' = r i'
  | [], r, _ => rfl
  | n :: L, r, h => by
    rw [List.foldl_cons, scatter_fold_keep d idx upd i' L _ (fun k hk => h k (List.mem_cons_of_mem _ hk))]
    have hn := h n List.mem_cons_self
    generalize d.resultIdx? (u.rowMajor.symm n) idx = o at hn ⊢
    cases o with
    | none => rfl
    | some i =>
      show (if i' = i then _ else r i') = r i'
      rw [if_neg]; intro e; exact hn (by rw [e])

/-- A scatter that writes the update: an index exactly one update lands at holds that update. -/
theorem scatter_fold_hit (d : ScatterDims s si u) (idx : IVec si w) (upd : u.Idx → α) (i' : s.Idx) (j : u.Idx)
    (hj : d.resultIdx? j idx = some i') (huniq : ∀ j', d.resultIdx? j' idx = some i' → j' = j) :
    ∀ (L : List (Fin u.numel)) (r : s.Idx → α), L.Nodup → u.rowMajor j ∈ L →
      (L.foldl (fun r n =>
        match d.resultIdx? (u.rowMajor.symm n) idx with
        | some i => fun i' => if i' = i then (fun _ b => b) (r i) (upd (u.rowMajor.symm n)) else r i'
        | none => r) r) i' = upd j
  | [], r, _, hm => absurd hm List.not_mem_nil
  | n :: L, r, hnd, hm => by
    rw [List.foldl_cons]
    by_cases hn : n = u.rowMajor j
    · have hL : ∀ k ∈ L, d.resultIdx? (u.rowMajor.symm k) idx ≠ some i' := fun k hk e => by
        have e1 : u.rowMajor.symm k = j := huniq _ e
        have e2 : k = n := by rw [hn, ← e1, Equiv.apply_symm_apply]
        exact (List.nodup_cons.mp hnd).1 (e2 ▸ hk)
      rw [scatter_fold_keep d idx upd i' L _ hL]
      subst hn
      rw [Equiv.symm_apply_apply, hj]
      show (if i' = i' then upd j else _) = upd j
      rw [if_pos rfl]
    · exact scatter_fold_hit d idx upd i' j hj huniq L _ (List.nodup_cons.mp hnd).2 ((List.mem_cons.mp hm).resolve_left (Ne.symm hn))

/-- A scatter writing the update, at an index where exactly one update lands: that update. -/
theorem scatter_set_apply_of_unique (d : ScatterDims s si u) (x : s.Idx → α) (idx : IVec si w) (upd : u.Idx → α) (i' : s.Idx) (j : u.Idx)
    (hj : d.resultIdx? j idx = some i') (huniq : ∀ j', d.resultIdx? j' idx = some i' → j' = j) :
    Host.scatter d (fun _ b => b) x idx upd i' = upd j := by
  unfold Host.scatter
  exact scatter_fold_hit d idx upd i' j hj huniq _ x (List.nodup_finRange _) (List.mem_finRange _)

/-- A scatter writing the update, at an index where no update lands: the operand. -/
theorem scatter_set_apply_of_none (d : ScatterDims s si u) (x : s.Idx → α) (idx : IVec si w) (upd : u.Idx → α) (i' : s.Idx)
    (h : ∀ j, d.resultIdx? j idx ≠ some i') :
    Host.scatter d (fun _ b => b) x idx upd i' = x i' := by
  unfold Host.scatter
  exact scatter_fold_keep d idx upd i' _ x (fun n _ => h _)

end Scatter

/-! ## The stack of the three per-atom columns and the padded table, read at an index -/

section Reads

/-- A vector broadcast to a column, read at a row. -/
theorem col_apply {α : Type} (X : S131072.Idx → α) (n : Fin 131072) :
    broadcastInDim S131072x1 ![0] bcast_S131072_S131072x1_0 X (ix2 n (0 : Fin 1)) = X (ix1 n) :=
  broadcastInDim_apply _ _ X _ (ix1 n) (fun a => by
    match a with
    | ⟨0, _⟩ => rfl)

/-- The stack of three columns along axis 1, read at a row: column `k` is the `k`-th vector. -/
theorem stack_apply {α : Type} (A B C : S131072.Idx → α) (n : Fin 131072) :
    concatenate S131072x3 1 [⟨S131072x1, broadcastInDim S131072x1 ![0] bcast_S131072_S131072x1_0 A⟩,
        ⟨S131072x1, broadcastInDim S131072x1 ![0] bcast_S131072_S131072x1_0 B⟩,
        ⟨S131072x1, broadcastInDim S131072x1 ![0] bcast_S131072_S131072x1_0 C⟩] concatenates_S131072x1_S131072x1_S131072x1_S131072x3_d1 (ix2 n (0 : Fin 3)) = A (ix1 n)
    ∧ concatenate S131072x3 1 [⟨S131072x1, broadcastInDim S131072x1 ![0] bcast_S131072_S131072x1_0 A⟩,
        ⟨S131072x1, broadcastInDim S131072x1 ![0] bcast_S131072_S131072x1_0 B⟩,
        ⟨S131072x1, broadcastInDim S131072x1 ![0] bcast_S131072_S131072x1_0 C⟩] concatenates_S131072x1_S131072x1_S131072x1_S131072x3_d1 (ix2 n (1 : Fin 3)) = B (ix1 n)
    ∧ concatenate S131072x3 1 [⟨S131072x1, broadcastInDim S131072x1 ![0] bcast_S131072_S131072x1_0 A⟩,
        ⟨S131072x1, broadcastInDim S131072x1 ![0] bcast_S131072_S131072x1_0 B⟩,
        ⟨S131072x1, broadcastInDim S131072x1 ![0] bcast_S131072_S131072x1_0 C⟩] concatenates_S131072x1_S131072x1_S131072x1_S131072x3_d1 (ix2 n (2 : Fin 3)) = C (ix1 n) := by
  refine ⟨?_, ?_, ?_⟩
  · rw [concatenate_apply_piece (1 : Fin 2) _ _ (ix2 n (0 : Fin 3)) 0 (by show (0 : ℕ) < 3; omega) S131072x1 _ rfl rfl 0 rfl (ix2 n (0 : Fin 1))
      (fun b hb => by match b with | ⟨0, _⟩ => rfl | ⟨1, _⟩ => exact absurd rfl hb) rfl]
    exact col_apply A n
  · rw [concatenate_apply_piece (1 : Fin 2) _ _ (ix2 n (1 : Fin 3)) 1 (by show (1 : ℕ) < 3; omega) S131072x1 _ rfl rfl 1 rfl (ix2 n (0 : Fin 1))
      (fun b hb => by match b with | ⟨0, _⟩ => rfl | ⟨1, _⟩ => exact absurd rfl hb) rfl]
    exact col_apply B n
  · rw [concatenate_apply_piece (1 : Fin 2) _ _ (ix2 n (2 : Fin 3)) 2 (by show (2 : ℕ) < 3; omega) S131072x1 _ rfl rfl 2 rfl (ix2 n (0 : Fin 1))
      (fun b hb => by match b with | ⟨0, _⟩ => rfl | ⟨1, _⟩ => exact absurd rfl hb) rfl]
    exact col_apply C n

/-- Where update `j'` of the table lands when every start index is zero: at its own coordinates. -/
theorem resultIdx_eq (idx : IVec S1 32) (hidx : ∀ q, idx q = 0#32) (j' : S100x128.Idx) :
    scatter_S128x128_S1_S100x128_01_n_0_0.resultIdx? j' idx
      = some (ix2 (⟨(j' 0).val, by have h : (j' 0).val < 100 := (j' 0).isLt; omega⟩ : Fin 128) (⟨(j' 1).val, (j' 1).isLt⟩ : Fin 128)) := by
  have hs : ∀ a, scatter_S128x128_S1_S100x128_01_n_0_0.start j' idx a = 0 := by
    intro a; unfold ScatterDims.start; split
    · rw [hidx]; rfl
    · rfl
  have hw0 : scatter_S128x128_S1_S100x128_01_n_0_0.window j' (0 : Fin 2) = (j' 0).val := by
    unfold ScatterDims.window; rw [dif_pos (by decide)]; rfl
  have hw1 : scatter_S128x128_S1_S100x128_01_n_0_0.window j' (1 : Fin 2) = (j' 1).val := by
    unfold ScatterDims.window; rw [dif_pos (by decide)]; rfl
  have h0 : (j' 0).val < 100 := (j' 0).isLt
  have h1 : (j' 1).val < 128 := (j' 1).isLt
  unfold ScatterDims.resultIdx?
  rw [dif_pos (fun a => by
    match a with
    | ⟨0, _⟩ => rw [hs]; show (0 : ℤ) ≤ 0 + ((scatter_S128x128_S1_S100x128_01_n_0_0.window j' (0 : Fin 2) : ℕ) : ℤ) ∧ 0 + ((scatter_S128x128_S1_S100x128_01_n_0_0.window j' (0 : Fin 2) : ℕ) : ℤ) < ((128 : ℕ) : ℤ); rw [hw0]; omega
    | ⟨1, _⟩ => rw [hs]; show (0 : ℤ) ≤ 0 + ((scatter_S128x128_S1_S100x128_01_n_0_0.window j' (1 : Fin 2) : ℕ) : ℤ) ∧ 0 + ((scatter_S128x128_S1_S100x128_01_n_0_0.window j' (1 : Fin 2) : ℕ) : ℤ) < ((128 : ℕ) : ℤ); rw [hw1]; omega)]
  congr 1
  funext a
  apply Fin.ext
  match a with
  | ⟨0, _⟩ => show (scatter_S128x128_S1_S100x128_01_n_0_0.start j' idx (0 : Fin 2) + ((scatter_S128x128_S1_S100x128_01_n_0_0.window j' (0 : Fin 2) : ℕ) : ℤ)).toNat = (j' 0).val; rw [hs, hw0]; omega
  | ⟨1, _⟩ => show (scatter_S128x128_S1_S100x128_01_n_0_0.start j' idx (1 : Fin 2) + ((scatter_S128x128_S1_S100x128_01_n_0_0.window j' (1 : Fin 2) : ℕ) : ℤ)).toNat = (j' 1).val; rw [hs, hw1]; omega

/-- The zero table of 128 rows with the 100-row table written from row 0, read at an entry: the table's entry in
    its first 100 rows, zero below. -/
theorem padded_apply (X : S100x128.Idx → EReal) (k j : Fin 128) :
    Host.scatter scatter_S128x128_S1_S100x128_01_n_0_0 (fun _ b => b)
        (broadcastInDim S128x128 ![] bcast_S_S128x128 (constant (F := Ideal) S_ .f32 0x00000000#32))
        (broadcastInDim S1 ![] bcast_S_S1 (constantI S_ 32 0#32)) X (ix2 k j)
      = if h : k.val < 100 then X (ix2 ⟨k.val, h⟩ j) else 0 := by
  have hidx : ∀ q, (broadcastInDim S1 ![] bcast_S_S1 (constantI S_ 32 0#32) : IVec S1 32) q = 0#32 := fun q => rfl
  by_cases h : k.val < 100
  · rw [dif_pos h]
    refine scatter_set_apply_of_unique _ _ _ X _ (ix2 ⟨k.val, h⟩ j) ?_ ?_
    · rw [resultIdx_eq _ hidx]
    · intro j' e
      rw [resultIdx_eq _ hidx] at e
      have e' := Option.some.inj e
      have e0 : (j' 0).val = k.val := congrArg Fin.val (congrFun e' (0 : Fin 2))
      have e1 : (j' 1).val = j.val := congrArg Fin.val (congrFun e' (1 : Fin 2))
      funext a
      match a with
      | ⟨0, _⟩ => exact Fin.ext e0
      | ⟨1, _⟩ => exact Fin.ext e1
  · rw [dif_neg h, scatter_set_apply_of_none]
    · show Ideal.ofBits .f32 0x00000000#32 = 0
      exact Ideal.ofBits_zero_f32
    · intro j' e
      rw [resultIdx_eq _ hidx] at e
      have e' := Option.some.inj e
      have e0 : (j' 0).val = k.val := congrArg Fin.val (congrFun e' (0 : Fin 2))
      have h0 : (j' 0).val < 100 := (j' 0).isLt
      omega

end Reads

/-! ## The host operations: the last ten, over whatever the first twenty-eight leave -/

section Host
variable {F : FTy → Type} [FloatOps F]

/-- The last ten host operations: the stack of the three per-atom columns and the padded table. -/
abbrev suf : List (HloOp τ sig (Elt F)) :=
  ( StableHlo.unary main_arg0 main_v22 (sitofp .f32 : (⟨S131072, .i32⟩ : BufTy).Contents (Elt F) → (⟨S131072, .f32⟩ : BufTy).Contents (Elt F))
  :: StableHlo.unary main_v22 main_v23 (broadcastInDim S131072x1 ![0] bcast_S131072_S131072x1_0 : (⟨S131072, .f32⟩ : BufTy).Contents (Elt F) → (⟨S131072x1, .f32⟩ : BufTy).Contents (Elt F))
  :: StableHlo.unary main_v14 main_v24 (broadcastInDim S131072x1 ![0] bcast_S131072_S131072x1_0 : (⟨S131072, .f32⟩ : BufTy).Contents (Elt F) → (⟨S131072x1, .f32⟩ : BufTy).Contents (Elt F))
  :: StableHlo.unary main_v21 main_v25 (broadcastInDim S131072x1 ![0] bcast_S131072_S131072x1_0 : (⟨S131072, .f32⟩ : BufTy).Contents (Elt F) → (⟨S131072x1, .f32⟩ : BufTy).Contents (Elt F))
  :: StableHlo.nary ![main_v23, main_v24, main_v25] main_v26 (fun u => concatenate S131072x3 1 [⟨S131072x1, u 0⟩, ⟨S131072x1, u 1⟩, ⟨S131072x1, u 2⟩] concatenates_S131072x1_S131072x1_S131072x1_S131072x3_d1)
  :: StableHlo.nullary main_cst_5 (constant S_ .f32 0x00000000#32)
  :: StableHlo.unary main_cst_5 main_v27 (broadcastInDim S128x128 ![] bcast_S_S128x128 : (⟨S_, .f32⟩ : BufTy).Contents (Elt F) → (⟨S128x128, .f32⟩ : BufTy).Contents (Elt F))
  :: StableHlo.nullary main_c (constantI S_ 32 0#32)
  :: StableHlo.unary main_c main_v28 (broadcastInDim S1 ![] bcast_S_S1 : (⟨S_, .i32⟩ : BufTy).Contents (Elt F) → (⟨S1, .i32⟩ : BufTy).Contents (Elt F))
  :: StableHlo.ternary main_v27 main_v28 main_arg3 main_v29 ((fun x i u => Host.scatter scatter_S128x128_S1_S100x128_01_n_0_0 (fun _ b => b) x i u) : (⟨S128x128, .f32⟩ : BufTy).Contents (Elt F) → (⟨S1, .i32⟩ : BufTy).Contents (Elt F) → (⟨S100x128, .f32⟩ : BufTy).Contents (Elt F) → (⟨S128x128, .f32⟩ : BufTy).Contents (Elt F))
  :: [] )

/-- The host operations are their first twenty-eight followed by the last ten. -/
theorem host_split : (List.flatten [hostOps0] : List (HloOp τ sig (Elt F))) = List.take 28 hostOps0 ++ suf := by
  rw [List.flatten_cons, List.flatten_nil, List.append_nil]
  exact (List.take_append_drop 28 hostOps0).symm

/-- The stack the region reads, over the buffers the last ten operations find. -/
theorem suf_v26 (W : Valuation τ sig (Elt F)) :
    StableHlo.after suf W (Proc.devRef .tc main_v26)
      = concatenate S131072x3 1 [⟨S131072x1, broadcastInDim S131072x1 ![0] bcast_S131072_S131072x1_0 (sitofp .f32 (W (Proc.devRef .tc main_arg0)))⟩,
          ⟨S131072x1, broadcastInDim S131072x1 ![0] bcast_S131072_S131072x1_0 (W (Proc.devRef .tc main_v14))⟩,
          ⟨S131072x1, broadcastInDim S131072x1 ![0] bcast_S131072_S131072x1_0 (W (Proc.devRef .tc main_v21))⟩] concatenates_S131072x1_S131072x1_S131072x1_S131072x3_d1 := by
  dsimp only [suf]
  simp only [StableHlo.after_cons, StableHlo.after_nil]
  repeat (first
    | (rw [StableHlo.nullary_result_ne]; rotate_left; decide)
    | (rw [StableHlo.unary_result_ne]; rotate_left; decide)
    | (rw [StableHlo.ternary_result_ne]; rotate_left; decide))
  rw [nary3_result]
  repeat (first
    | rw [StableHlo.unary_result]
    | (rw [StableHlo.unary_result_ne]; rotate_left; decide))
  rfl

/-- The padded table the region reads, over the buffers the last ten operations find. -/
theorem suf_v29 (W : Valuation τ sig (Elt F)) :
    StableHlo.after suf W (Proc.devRef .tc main_v29)
      = Host.scatter scatter_S128x128_S1_S100x128_01_n_0_0 (fun _ b => b)
          (broadcastInDim S128x128 ![] bcast_S_S128x128 (constant (F := F) S_ .f32 0x00000000#32))
          (broadcastInDim S1 ![] bcast_S_S1 (constantI S_ 32 0#32))
          (W (Proc.devRef .tc main_arg3)) := by
  dsimp only [suf]
  after_results

/-- The last ten operations write neither the atomic numbers, nor the table, nor the distance and cutoff vectors. -/
theorem suf_arg0 (W : Valuation τ sig (Elt F)) : StableHlo.after suf W (Proc.devRef .tc main_arg0) = W (Proc.devRef .tc main_arg0) := by
  dsimp only [suf]; after_results
theorem suf_arg3 (W : Valuation τ sig (Elt F)) : StableHlo.after suf W (Proc.devRef .tc main_arg3) = W (Proc.devRef .tc main_arg3) := by
  dsimp only [suf]; after_results
theorem suf_v14 (W : Valuation τ sig (Elt F)) : StableHlo.after suf W (Proc.devRef .tc main_v14) = W (Proc.devRef .tc main_v14) := by
  dsimp only [suf]; after_results
theorem suf_v21 (W : Valuation τ sig (Elt F)) : StableHlo.after suf W (Proc.devRef .tc main_v21) = W (Proc.devRef .tc main_v21) := by
  dsimp only [suf]; after_results

end Host

/-! ## What the region finds -/

variable (m : (ℓ : Loc nD τ sig) → Buf (Elt Ideal) ℓ)

/-- Core `c`'s buffers before the last ten host operations. -/
abbrev W0 (c : Dev nD) : Valuation τ sig (Elt Ideal) := StableHlo.after (List.take 28 hostOps0) (fun b => m (c, b))

/-- The region's buffers are the last ten operations' results over those. -/
theorem V_eq (c : Dev nD) (b : Ref sig .tc) : V m c b = StableHlo.after suf (W0 m c) (Proc.devRef .tc b) := by
  show StableHlo.after (List.flatten [hostOps0]) (fun b => m (c, b)) _ = _
  rw [host_split, StableHlo.after_append]

/-- Row `n` of the stack the region reads: the atomic number as a real, the distance, the cutoff weight. -/
theorem sdat_apply (c : Dev nD) (n : Fin 131072) :
    V m c main_v26 (ix2 n (0 : Fin 3)) = ((((m ((c : Thread nD τ).loc main_arg0) (ix1 n)).toInt : ℝ) : EReal))
    ∧ V m c main_v26 (ix2 n (1 : Fin 3)) = V m c main_v14 (ix1 n)
    ∧ V m c main_v26 (ix2 n (2 : Fin 3)) = V m c main_v21 (ix1 n) := by
  have e26 := V_eq m c main_v26
  rw [suf_v26] at e26
  have e14 : V m c main_v14 = W0 m c (Proc.devRef .tc main_v14) := (V_eq m c main_v14).trans (suf_v14 _)
  have e21 : V m c main_v21 = W0 m c (Proc.devRef .tc main_v21) := (V_eq m c main_v21).trans (suf_v21 _)
  have e0 : m ((c : Thread nD τ).loc main_arg0) = W0 m c (Proc.devRef .tc main_arg0) :=
    (V_main_arg0 m c).symm.trans ((V_eq m c main_arg0).trans (suf_arg0 _))
  rw [e26, e14, e21, e0]
  exact stack_apply _ _ _ n

/-- The padded table the region reads: the table's entry in its first 100 rows, zero below. -/
theorem pad_apply (c : Dev nD) (k j : Fin 128) :
    (V m c main_v29 (ix2 k j) : EReal) = if h : k.val < 100 then m ((c : Thread nD τ).loc main_arg3) (ix2 ⟨k.val, h⟩ j) else (0 : EReal) := by
  have e29 := V_eq m c main_v29
  rw [suf_v29] at e29
  have e3 : m ((c : Thread nD τ).loc main_arg3) = W0 m c (Proc.devRef .tc main_arg3) :=
    (V_main_arg3 m c).symm.trans ((V_eq m c main_arg3).trans (suf_arg3 _))
  rw [e29, e3]
  exact padded_apply _ k j

/-! ## The windows' blocks -/

/-- The index maps over the grid: the stack's and the result's blocks go down the rows with the point, every other window's block is its whole array. -/
theorem idx_rows : ∀ t : Fin cfg0.N, win0_0.index t (0 : Fin 2) = t.val ∧ win0_0.index t (1 : Fin 2) = 0
    ∧ win0_16.index t (0 : Fin 2) = t.val ∧ win0_16.index t (1 : Fin 2) = 0 :=
  (by decide +kernel : ∀ t : Fin grid0.N, win0_0.index t (0 : Fin 2) = t.val ∧ win0_0.index t (1 : Fin 2) = 0
    ∧ win0_16.index t (0 : Fin 2) = t.val ∧ win0_16.index t (1 : Fin 2) = 0)

theorem idx_whole : ∀ t : Fin cfg0.N, (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0) ∧ (∀ a, win0_11.index t a = 0)
    ∧ (∀ a, win0_12.index t a = 0) ∧ (∀ a, win0_13.index t a = 0) ∧ (∀ a, win0_14.index t a = 0) ∧ (∀ a, win0_15.index t a = 0) :=
  (by decide +kernel : ∀ t : Fin grid0.N, (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0)
    ∧ (∀ a, win0_8.index t a = 0) ∧ (∀ a, win0_9.index t a = 0) ∧ (∀ a, win0_10.index t a = 0) ∧ (∀ a, win0_11.index t a = 0)
    ∧ (∀ a, win0_12.index t a = 0) ∧ (∀ a, win0_13.index t a = 0) ∧ (∀ a, win0_14.index t a = 0) ∧ (∀ a, win0_15.index t a = 0))

/-- The stack's block at point `t`, read at row `r`: row `4096 t + r` of the stack. -/
theorem iblk0_apply (c : Dev nD) (t : Fin cfg0.N) (r : Fin 4096) (col : Fin 3) (hn : 4096 * t.val + r.val < 131072) :
    iblk m c 0 t (ix2 r col) = V m c main_v26 (ix2 ⟨4096 * t.val + r.val, hn⟩ col) := by
  show V m c main_v26 (((cfg0.win 0).blk t).view.emb (ix2 r col)) = _
  congr 1
  funext a
  apply Fin.ext
  obtain ⟨e0, e1, -, -⟩ := idx_rows t
  match a with
  | ⟨0, _⟩ => show win0_0.index t (0 : Fin 2) * 4096 + 1 * r.val = 4096 * t.val + r.val; omega
  | ⟨1, _⟩ => show win0_0.index t (1 : Fin 2) * 3 + 1 * col.val = col.val; omega

/-- The padded table's block at any point is the whole padded table. -/
theorem iblk1_eq (c : Dev nD) (t : Fin cfg0.N) : (iblk m c 1 t : S128x128.Idx → EReal) = V m c main_v29 := by
  funext j
  show V m c main_v29 (((cfg0.win 1).blk t).view.emb j) = V m c main_v29 j
  congr 1
  funext a
  apply Fin.ext
  have e := (idx_whole t).1
  match a with
  | ⟨0, _⟩ => show win0_1.index t (0 : Fin 2) * 128 + 1 * (j 0).val = (j 0).val; rw [e]; omega
  | ⟨1, _⟩ => show win0_1.index t (1 : Fin 2) * 128 + 1 * (j 1).val = (j 1).val; rw [e]; omega

/-- Each weight window's block at any point is the whole argument array, as launched. -/
theorem iblk2_eq (c : Dev nD) (t : Fin cfg0.N) : (iblk m c 2 t : S3x1x128.Idx → EReal) = m ((c : Thread nD τ).loc main_arg4) := by
  refine Eq.trans ?_ (V_main_arg4 m c)
  funext j
  show V m c main_arg4 (((cfg0.win 2).blk t).view.emb j) = V m c main_arg4 j
  congr 1
  funext a
  apply Fin.ext
  obtain ⟨-, e, -, -, -, -, -, -, -, -, -, -, -, -, -⟩ := idx_whole t
  match a with
  | ⟨0, _⟩ => show win0_2.index t (0 : Fin 3) * 3 + 1 * (j 0).val = (j 0).val; rw [e]; omega
  | ⟨1, _⟩ => show win0_2.index t (1 : Fin 3) * 1 + 1 * (j 1).val = (j 1).val; rw [e]; omega
  | ⟨2, _⟩ => show win0_2.index t (2 : Fin 3) * 128 + 1 * (j 2).val = (j 2).val; rw [e]; omega
theorem iblk3_eq (c : Dev nD) (t : Fin cfg0.N) : (iblk m c 3 t : S3x128.Idx → EReal) = m ((c : Thread nD τ).loc main_arg5) := by
  refine Eq.trans ?_ (V_main_arg5 m c)
  funext j
  show V m c main_arg5 (((cfg0.win 3).blk t).view.emb j) = V m c main_arg5 j
  congr 1
  funext a
  apply Fin.ext
  obtain ⟨-, -, e, -, -, -, -, -, -, -, -, -, -, -, -⟩ := idx_whole t
  match a with
  | ⟨0, _⟩ => show win0_3.index t (0 : Fin 2) * 3 + 1 * (j 0).val = (j 0).val; rw [e]; omega
  | ⟨1, _⟩ => show win0_3.index t (1 : Fin 2) * 128 + 1 * (j 1).val = (j 1).val; rw [e]; omega
theorem iblk4_eq (c : Dev nD) (t : Fin cfg0.N) : (iblk m c 4 t : S3x128x128.Idx → EReal) = m ((c : Thread nD τ).loc main_arg6) := by
  refine Eq.trans ?_ (V_main_arg6 m c)
  funext j
  show V m c main_arg6 (((cfg0.win 4).blk t).view.emb j) = V m c main_arg6 j
  congr 1
  funext a
  apply Fin.ext
  obtain ⟨-, -, -, e, -, -, -, -, -, -, -, -, -, -, -⟩ := idx_whole t
  match a with
  | ⟨0, _⟩ => show win0_4.index t (0 : Fin 3) * 3 + 1 * (j 0).val = (j 0).val; rw [e]; omega
  | ⟨1, _⟩ => show win0_4.index t (1 : Fin 3) * 128 + 1 * (j 1).val = (j 1).val; rw [e]; omega
  | ⟨2, _⟩ => show win0_4.index t (2 : Fin 3) * 128 + 1 * (j 2).val = (j 2).val; rw [e]; omega
theorem iblk5_eq (c : Dev nD) (t : Fin cfg0.N) : (iblk m c 5 t : S3x128.Idx → EReal) = m ((c : Thread nD τ).loc main_arg7) := by
  refine Eq.trans ?_ (V_main_arg7 m c)
  funext j
  show V m c main_arg7 (((cfg0.win 5).blk t).view.emb j) = V m c main_arg7 j
  congr 1
  funext a
  apply Fin.ext
  obtain ⟨-, -, -, -, e, -, -, -, -, -, -, -, -, -, -⟩ := idx_whole t
  match a with
  | ⟨0, _⟩ => show win0_5.index t (0 : Fin 2) * 3 + 1 * (j 0).val = (j 0).val; rw [e]; omega
  | ⟨1, _⟩ => show win0_5.index t (1 : Fin 2) * 128 + 1 * (j 1).val = (j 1).val; rw [e]; omega
theorem iblk6_eq (c : Dev nD) (t : Fin cfg0.N) : (iblk m c 6 t : S3x128x128.Idx → EReal) = m ((c : Thread nD τ).loc main_arg8) := by
  refine Eq.trans ?_ (V_main_arg8 m c)
  funext j
  show V m c main_arg8 (((cfg0.win 6).blk t).view.emb j) = V m c main_arg8 j
  congr 1
  funext a
  apply Fin.ext
  obtain ⟨-, -, -, -, -, e, -, -, -, -, -, -, -, -, -⟩ := idx_whole t
  match a with
  | ⟨0, _⟩ => show win0_6.index t (0 : Fin 3) * 3 + 1 * (j 0).val = (j 0).val; rw [e]; omega
  | ⟨1, _⟩ => show win0_6.index t (1 : Fin 3) * 128 + 1 * (j 1).val = (j 1).val; rw [e]; omega
  | ⟨2, _⟩ => show win0_6.index t (2 : Fin 3) * 128 + 1 * (j 2).val = (j 2).val; rw [e]; omega
theorem iblk7_eq (c : Dev nD) (t : Fin cfg0.N) : (iblk m c 7 t : S3x128.Idx → EReal) = m ((c : Thread nD τ).loc main_arg9) := by
  refine Eq.trans ?_ (V_main_arg9 m c)
  funext j
  show V m c main_arg9 (((cfg0.win 7).blk t).view.emb j) = V m c main_arg9 j
  congr 1
  funext a
  apply Fin.ext
  obtain ⟨-, -, -, -, -, -, e, -, -, -, -, -, -, -, -⟩ := idx_whole t
  match a with
  | ⟨0, _⟩ => show win0_7.index t (0 : Fin 2) * 3 + 1 * (j 0).val = (j 0).val; rw [e]; omega
  | ⟨1, _⟩ => show win0_7.index t (1 : Fin 2) * 128 + 1 * (j 1).val = (j 1).val; rw [e]; omega
theorem iblk8_eq (c : Dev nD) (t : Fin cfg0.N) : (iblk m c 8 t : S3x128x128.Idx → EReal) = m ((c : Thread nD τ).loc main_arg10) := by
  refine Eq.trans ?_ (V_main_arg10 m c)
  funext j
  show V m c main_arg10 (((cfg0.win 8).blk t).view.emb j) = V m c main_arg10 j
  congr 1
  funext a
  apply Fin.ext
  obtain ⟨-, -, -, -, -, -, -, e, -, -, -, -, -, -, -⟩ := idx_whole t
  match a with
  | ⟨0, _⟩ => show win0_8.index t (0 : Fin 3) * 3 + 1 * (j 0).val = (j 0).val; rw [e]; omega
  | ⟨1, _⟩ => show win0_8.index t (1 : Fin 3) * 128 + 1 * (j 1).val = (j 1).val; rw [e]; omega
  | ⟨2, _⟩ => show win0_8.index t (2 : Fin 3) * 128 + 1 * (j 2).val = (j 2).val; rw [e]; omega
theorem iblk9_eq (c : Dev nD) (t : Fin cfg0.N) : (iblk m c 9 t : S3x128.Idx → EReal) = m ((c : Thread nD τ).loc main_arg11) := by
  refine Eq.trans ?_ (V_main_arg11 m c)
  funext j
  show V m c main_arg11 (((cfg0.win 9).blk t).view.emb j) = V m c main_arg11 j
  congr 1
  funext a
  apply Fin.ext
  obtain ⟨-, -, -, -, -, -, -, -, e, -, -, -, -, -, -⟩ := idx_whole t
  match a with
  | ⟨0, _⟩ => show win0_9.index t (0 : Fin 2) * 3 + 1 * (j 0).val = (j 0).val; rw [e]; omega
  | ⟨1, _⟩ => show win0_9.index t (1 : Fin 2) * 128 + 1 * (j 1).val = (j 1).val; rw [e]; omega
theorem iblk10_eq (c : Dev nD) (t : Fin cfg0.N) : (iblk m c 10 t : S3x128x128.Idx → EReal) = m ((c : Thread nD τ).loc main_arg12) := by
  refine Eq.trans ?_ (V_main_arg12 m c)
  funext j
  show V m c main_arg12 (((cfg0.win 10).blk t).view.emb j) = V m c main_arg12 j
  congr 1
  funext a
  apply Fin.ext
  obtain ⟨-, -, -, -, -, -, -, -, -, e, -, -, -, -, -⟩ := idx_whole t
  match a with
  | ⟨0, _⟩ => show win0_10.index t (0 : Fin 3) * 3 + 1 * (j 0).val = (j 0).val; rw [e]; omega
  | ⟨1, _⟩ => show win0_10.index t (1 : Fin 3) * 128 + 1 * (j 1).val = (j 1).val; rw [e]; omega
  | ⟨2, _⟩ => show win0_10.index t (2 : Fin 3) * 128 + 1 * (j 2).val = (j 2).val; rw [e]; omega
theorem iblk11_eq (c : Dev nD) (t : Fin cfg0.N) : (iblk m c 11 t : S3x128.Idx → EReal) = m ((c : Thread nD τ).loc main_arg13) := by
  refine Eq.trans ?_ (V_main_arg13 m c)
  funext j
  show V m c main_arg13 (((cfg0.win 11).blk t).view.emb j) = V m c main_arg13 j
  congr 1
  funext a
  apply Fin.ext
  obtain ⟨-, -, -, -, -, -, -, -, -, -, e, -, -, -, -⟩ := idx_whole t
  match a with
  | ⟨0, _⟩ => show win0_11.index t (0 : Fin 2) * 3 + 1 * (j 0).val = (j 0).val; rw [e]; omega
  | ⟨1, _⟩ => show win0_11.index t (1 : Fin 2) * 128 + 1 * (j 1).val = (j 1).val; rw [e]; omega
theorem iblk12_eq (c : Dev nD) (t : Fin cfg0.N) : (iblk m c 12 t : S128x64.Idx → EReal) = m ((c : Thread nD τ).loc main_arg14) := by
  refine Eq.trans ?_ (V_main_arg14 m c)
  funext j
  show V m c main_arg14 (((cfg0.win 12).blk t).view.emb j) = V m c main_arg14 j
  congr 1
  funext a
  apply Fin.ext
  obtain ⟨-, -, -, -, -, -, -, -, -, -, -, e, -, -, -⟩ := idx_whole t
  match a with
  | ⟨0, _⟩ => show win0_12.index t (0 : Fin 2) * 128 + 1 * (j 0).val = (j 0).val; rw [e]; omega
  | ⟨1, _⟩ => show win0_12.index t (1 : Fin 2) * 64 + 1 * (j 1).val = (j 1).val; rw [e]; omega
theorem iblk13_eq (c : Dev nD) (t : Fin cfg0.N) : (iblk m c 13 t : S64.Idx → EReal) = m ((c : Thread nD τ).loc main_arg15) := by
  refine Eq.trans ?_ (V_main_arg15 m c)
  funext j
  show V m c main_arg15 (((cfg0.win 13).blk t).view.emb j) = V m c main_arg15 j
  congr 1
  funext a
  apply Fin.ext
  obtain ⟨-, -, -, -, -, -, -, -, -, -, -, -, e, -, -⟩ := idx_whole t
  match a with
  | ⟨0, _⟩ => show win0_13.index t (0 : Fin 1) * 64 + 1 * (j 0).val = (j 0).val; rw [e]; omega
theorem iblk14_eq (c : Dev nD) (t : Fin cfg0.N) : (iblk m c 14 t : S64x1.Idx → EReal) = m ((c : Thread nD τ).loc main_arg16) := by
  refine Eq.trans ?_ (V_main_arg16 m c)
  funext j
  show V m c main_arg16 (((cfg0.win 14).blk t).view.emb j) = V m c main_arg16 j
  congr 1
  funext a
  apply Fin.ext
  obtain ⟨-, -, -, -, -, -, -, -, -, -, -, -, -, e, -⟩ := idx_whole t
  match a with
  | ⟨0, _⟩ => show win0_14.index t (0 : Fin 2) * 64 + 1 * (j 0).val = (j 0).val; rw [e]; omega
  | ⟨1, _⟩ => show win0_14.index t (1 : Fin 2) * 1 + 1 * (j 1).val = (j 1).val; rw [e]; omega
theorem iblk15_eq (c : Dev nD) (t : Fin cfg0.N) : (iblk m c 15 t : S1.Idx → EReal) = m ((c : Thread nD τ).loc main_arg17) := by
  refine Eq.trans ?_ (V_main_arg17 m c)
  funext j
  show V m c main_arg17 (((cfg0.win 15).blk t).view.emb j) = V m c main_arg17 j
  congr 1
  funext a
  apply Fin.ext
  obtain ⟨-, -, -, -, -, -, -, -, -, -, -, -, -, -, e⟩ := idx_whole t
  match a with
  | ⟨0, _⟩ => show win0_15.index t (0 : Fin 1) * 1 + 1 * (j 0).val = (j 0).val; rw [e]; omega

/-! ## What each point writes back, and the whole result -/

/-- The weights as launched, as the network's record. -/
def Wm (c : Dev nD) : Cert.Spec.NetW :=
  ⟨m ((c : Thread nD τ).loc main_arg4), m ((c : Thread nD τ).loc main_arg5), m ((c : Thread nD τ).loc main_arg6), m ((c : Thread nD τ).loc main_arg7),
   m ((c : Thread nD τ).loc main_arg8), m ((c : Thread nD τ).loc main_arg9), m ((c : Thread nD τ).loc main_arg10), m ((c : Thread nD τ).loc main_arg11),
   m ((c : Thread nD τ).loc main_arg12), m ((c : Thread nD τ).loc main_arg13), m ((c : Thread nD τ).loc main_arg14), m ((c : Thread nD τ).loc main_arg15),
   m ((c : Thread nD τ).loc main_arg16), m ((c : Thread nD τ).loc main_arg17)⟩

/-- Row `r` of what the body computes at point `t` is the network's prediction for atom `4096 t + r`. -/
theorem row_eq (c : Dev nD) (t : Fin cfg0.N) (r : Fin 4096) (hn : 4096 * t.val + r.val < 131072) :
    bodyOut (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (ix2 r (0 : Fin 1))
      = Cert.Spec.G (m ((c : Thread nD τ).loc main_arg0)) (V m c main_v14) (V m c main_v21) (m ((c : Thread nD τ).loc main_arg3)) (Wm m c)
          (ix2 (⟨4096 * t.val + r.val, hn⟩ : Fin 131072) (0 : Fin 1)) := by
  rw [Cert.KernelIdeal.Val.bodyOut_apply]
  rw [iblk0_apply m c t r 0 hn, iblk0_apply m c t r 1 hn, iblk0_apply m c t r 2 hn]
  obtain ⟨s0, s1, s2⟩ := sdat_apply m c ⟨4096 * t.val + r.val, hn⟩
  rw [s0, s1, s2, Cert.Small.fptosi_sitofp, iblk1_eq, iblk2_eq, iblk3_eq, iblk4_eq, iblk5_eq, iblk6_eq, iblk7_eq, iblk8_eq, iblk9_eq,
    iblk10_eq, iblk11_eq, iblk12_eq, iblk13_eq, iblk14_eq, iblk15_eq]
  rw [Cert.Spec.embRowPad_eq (fun k j => m ((c : Thread nD τ).loc main_arg3) (ix2 k j)) (fun k j => V m c main_v29 (ix2 k j))
    (fun k h j => by rw [pad_apply, dif_pos h]) (fun k h j => by rw [pad_apply, dif_neg h])]
  rfl

/-- The zero offsets, as a constant function. -/
theorem hz16 : (![0, 0] : Fin 2 → Nat) = fun _ => 0 := funext fun a => by fin_cases a <;> rfl

/-- What point `t` writes back is block `t` of the result array. -/
theorem flushed16_eq (c : Dev nD) (t : Fin cfg0.N) :
    (dats m 0 c).flushed 16 t = ((cfg0.win 16).blk t).view.read (Elt Ideal)
      (Cert.Spec.G (m ((c : Thread nD τ).loc main_arg0)) (V m c main_v14) (V m c main_v21) (m ((c : Thread nD τ).loc main_arg3)) (Wm m c)) := by
  show (cfg0.win 16).cut (grid0.coords t) ((dats m 0 c).after 16 t) = _
  rw [after0_16]
  unfold out16
  rw [View.canon_unit_zero hz16]
  funext j
  obtain ⟨-, -, e0, e1⟩ := idx_rows t
  have ht : t.val < 32 := Nat.lt_of_lt_of_eq t.isLt N_0
  have hr : (j 0).val < 4096 := (j 0).isLt
  have hc : (j 1).val < 1 := (j 1).isLt
  have hn : 4096 * t.val + (j 0).val < 131072 := by omega
  have hi : ((cfg0.win 16).blk t).view.emb j = ix2 (⟨4096 * t.val + (j 0).val, hn⟩ : Fin 131072) (0 : Fin 1) := by
    funext a; apply Fin.ext
    match a with
    | ⟨0, _⟩ => show win0_16.index t (0 : Fin 2) * 4096 + 1 * (j 0).val = 4096 * t.val + (j 0).val; omega
    | ⟨1, _⟩ => show win0_16.index t (1 : Fin 2) * 1 + 1 * (j 1).val = 0; omega
  have hj : j = ix2 (⟨(j 0).val, hr⟩ : Fin 4096) (0 : Fin 1) := by
    funext a
    match a with
    | ⟨0, _⟩ => rfl
    | ⟨1, _⟩ => exact Fin.ext (by show (j 1).val = 0; omega)
  show bodyOut (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) j
      = Cert.Spec.G (m ((c : Thread nD τ).loc main_arg0)) (V m c main_v14) (V m c main_v21) (m ((c : Thread nD τ).loc main_arg3)) (Wm m c) (((cfg0.win 16).blk t).view.emb j)
  rw [hi]
  exact (congrArg _ hj).trans (row_eq m c t ⟨(j 0).val, hr⟩ hn)

/-- An index of the result is in point `t`'s block iff each coordinate is in the block's range. -/
theorem mem_blk16 (t : Fin cfg0.N) (i : S131072x1.Idx) :
    i ∈ ((cfg0.win 16).blk t).view.set ↔ ∀ a : Fin 2, win0_16.index t a * S4096x1.size a ≤ (i a).val ∧ (i a).val < win0_16.index t a * S4096x1.size a + S4096x1.size a := by
  show i ∈ ((View.whole main_v30).slice (win0_16.rect t)).set ↔ _
  rw [View.set_slice_whole, Rect.mem_set_unit]
  exact Iff.rfl

/-- Every index of the result lies in the block of the point its row falls in. -/
theorem covered16 (i : S131072x1.Idx) : ∃ t : Fin cfg0.N, (cfg0.win 16).flush t = true ∧ i ∈ ((cfg0.win 16).blk t).view.set := by
  have hi0 : (i 0).val < 131072 := (i 0).isLt
  have hi1 : (i 1).val < 1 := (i 1).isLt
  have hN : cfg0.N = 32 := N_0
  refine ⟨⟨(i 0).val / 4096, by rw [hN]; omega⟩, flush0_16 _, ?_⟩
  rw [mem_blk16]
  obtain ⟨-, -, e0, e1⟩ := idx_rows ⟨(i 0).val / 4096, by rw [hN]; omega⟩
  intro a
  match a with
  | ⟨0, _⟩ =>
    show win0_16.index _ (0 : Fin 2) * 4096 ≤ (i 0).val ∧ (i 0).val < win0_16.index _ (0 : Fin 2) * 4096 + 4096
    rw [e0]; show (i 0).val / 4096 * 4096 ≤ (i 0).val ∧ (i 0).val < (i 0).val / 4096 * 4096 + 4096; omega
  | ⟨1, _⟩ =>
    show win0_16.index _ (1 : Fin 2) * 1 ≤ (i 1).val ∧ (i 1).val < win0_16.index _ (1 : Fin 2) * 1 + 1
    rw [e1]; omega

/-- THE RESULT ARRAY after the run: the network's prediction at every atom. -/
theorem final16 (c : Dev nD) : (dats m 0 c).arrAt 16 cfg0.N
    = Cert.Spec.G (m ((c : Thread nD τ).loc main_arg0)) (V m c main_v14) (V m c main_v21) (m ((c : Thread nD τ).loc main_arg3)) (Wm m c) :=
  (dats m 0 c).arrAt_eq_of_cover 16 _ (fun t _ => flushed16_eq m c t) covered16

/-- The program runs, terminates without fault, leaves the result array at the network's predictions and every
    argument array as launched. -/
theorem run (ρ : Dev nD → PrngReg) : θ_run defs (onTc (τ := τ) (main (F := Ideal))) ⟨m, fun _ => 0, ρ⟩ (fun r => ∀ c : Dev nD,
      r.2.mem ((c.tc : Thread nD τ).loc main_v30)
        = Cert.Spec.G (m ((c.tc : Thread nD τ).loc main_arg0)) (V m c main_v14) (V m c main_v21) (m ((c.tc : Thread nD τ).loc main_arg3)) (Wm m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)) :=
  (θ_run defs _ _).mono (fun r h c => ⟨((h c).1 16).trans (final16 m c),
      kept_arg0 m (dats m) r h c, kept_arg1 m (dats m) r h c, kept_arg2 m (dats m) r h c, kept_arg3 m (dats m) r h c,
      kept_arg4 m (dats m) (A_eq m) r h c,
      kept_arg5 m (dats m) (A_eq m) r h c,
      kept_arg6 m (dats m) (A_eq m) r h c,
      kept_arg7 m (dats m) (A_eq m) r h c,
      kept_arg8 m (dats m) (A_eq m) r h c,
      kept_arg9 m (dats m) (A_eq m) r h c,
      kept_arg10 m (dats m) (A_eq m) r h c,
      kept_arg11 m (dats m) (A_eq m) r h c,
      kept_arg12 m (dats m) (A_eq m) r h c,
      kept_arg13 m (dats m) (A_eq m) r h c,
      kept_arg14 m (dats m) (A_eq m) r h c,
      kept_arg15 m (dats m) (A_eq m) r h c,
      kept_arg16 m (dats m) (A_eq m) r h c,
      kept_arg17 m (dats m) (A_eq m) r h c⟩)
    (run_main m ρ)

end Cert.KernelIdeal.Arr

end
-- ==== Proof.RefVal.lean ====
/-
  What the reference computes at one row, over the extended reals.

  The reference is a chain of array operations. Read at row `n` they are: the embedding `emb[Z n]` (negative indices
  wrapped, the start index clamped into the table's rows: both are the identity when the atomic number is below the
  table's 100 rows), then three interactions, each adding to the features a function of the atom's mean pair distance
  `d` and cutoff weight `cut` alone, built from slice `l` of the stacked weights — the filter `relu(d · fw1 + fb1)`, a
  dense layer, the product with `cut`, a dense projection, and a two-layer perceptron —, then the head: a dense layer,
  `relu`, and a dense layer onto one number. A dense layer's element `(n, j)` is the sum over `k` of the input at
  `(n, k)` times the weight at `(k, j)`, plus the bias at `j`; a slice followed by reshapes and broadcasts reads the
  stacked array at `(l, k, j)`; the rectifier is the maximum with the zero word's value. So stage by stage the value
  at `(n, j)` is the specification's function of row `n`'s data, and the result at row `n` is the specification's
  prediction for atom `n`.
-/
import proofs.«415417_j37220186587161_1_alg».proof.Proof.Gen.ReferenceIdeal.Read
import proofs.«415417_j37220186587161_1_alg».proof.Proof.Spec
import Idealize.ShloMosaic.Lib.ValueIdx
import Idealize.ShloMosaic.Lib.Pipeline.Value
import Idealize.ShloMosaic.PureOps.ShapeOps
import Idealize.ShloMosaic.PureOps.Ideal.Laws

noncomputable section

namespace Cert.ReferenceIdeal.RefVal

open Cert.ReferenceIdeal Cert.ReferenceIdeal.Gen Cert.ReferenceIdeal.Read Idealize.ShloMosaic Idealize.ShloMosaic.ValueIdx
open scoped BigOperators

/-! ## The arrays' types at the extended reals -/

abbrev V131072x3 := (⟨S131072x3, .f32⟩ : BufTy).Contents (Elt Ideal)
abbrev V3x1x128 := (⟨S3x1x128, .f32⟩ : BufTy).Contents (Elt Ideal)
abbrev V3x128 := (⟨S3x128, .f32⟩ : BufTy).Contents (Elt Ideal)
abbrev V3x128x128 := (⟨S3x128x128, .f32⟩ : BufTy).Contents (Elt Ideal)
abbrev V131072i := (⟨S131072, .i32⟩ : BufTy).Contents (Elt Ideal)
abbrev V100x128 := (⟨S100x128, .f32⟩ : BufTy).Contents (Elt Ideal)

/-! ## The embedding: stages 22 to 28 at row `n` -/

/-- The row gather read at `(n, j)`: the table at the row named by the start index of row `n` (read as a signed
    integer and clamped into the table's rows), column `j`. -/
theorem gather_rows_apply {α : Type} (x : S100x128.Idx → α) (idx : IVec S131072x1 32) (n : Fin 131072) (j : Fin 128) :
    Host.gather gather_S100x128_S131072x1_S131072x128_1_0_n_n_0_1_1128 x idx (ix2 n j)
      = x (ix2 (⟨min (idx (ix2 n (0 : Fin 1))).toInt.toNat 99, by omega⟩ : Fin 100) j) := by
  unfold Host.gather
  congr 1
  funext a
  refine Fin.ext ?_
  match a with
  | ⟨0, _⟩ =>
    show gather_S100x128_S131072x1_S131072x128_1_0_n_n_0_1_1128.start (ix2 n j) idx 0
      + gather_S100x128_S131072x1_S131072x128_1_0_n_n_0_1_1128.batchCoord (ix2 n j) 0
      + gather_S100x128_S131072x1_S131072x128_1_0_n_n_0_1_1128.offCoord (ix2 n j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ gather_S100x128_S131072x1_S131072x128_1_0_n_n_0_1_1128.startIndexMap from List.mem_singleton.mpr rfl)]
    have hsi : gather_S100x128_S131072x1_S131072x128_1_0_n_n_0_1_1128.siIdx (ix2 n j)
        ⟨List.idxOf (0 : Fin 2) gather_S100x128_S131072x1_S131072x128_1_0_n_n_0_1_1128.startIndexMap,
          List.idxOf_lt_length_iff.2 (List.mem_singleton.mpr rfl)⟩ = ix2 n (0 : Fin 1) := by
      funext b; refine Fin.ext ?_
      match b with
      | ⟨0, _⟩ => rfl
      | ⟨1, _⟩ => rfl
    rw [hsi]
    rfl
  | ⟨1, _⟩ =>
    show gather_S100x128_S131072x1_S131072x128_1_0_n_n_0_1_1128.start (ix2 n j) idx 1
      + gather_S100x128_S131072x1_S131072x128_1_0_n_n_0_1_1128.batchCoord (ix2 n j) 1
      + gather_S100x128_S131072x1_S131072x128_1_0_n_n_0_1_1128.offCoord (ix2 n j) 1 = j.val
    rw [GatherDims.batchCoord_eq_zero _ _ _ List.not_mem_nil]
    unfold GatherDims.start
    rw [dif_neg (show ¬ (1 : Fin 2) ∈ gather_S100x128_S131072x1_S131072x128_1_0_n_n_0_1_1128.startIndexMap by decide)]
    unfold GatherDims.offCoord
    rw [dif_pos (show (1 : Fin 2) ∈ gather_S100x128_S131072x1_S131072x128_1_0_n_n_0_1_1128.sKept by decide)]
    simp only [Nat.zero_add, Nat.add_zero]
    rfl

/-- A word below 100 as an unsigned number is the same number as a signed integer. -/
theorem toInt_of_small (z : BitVec 32) (h : z.toNat < 100) : z.toInt = (z.toNat : Int) := by
  rw [BitVec.toInt_eq_toNat_of_lt (by omega)]

/-- Under the bound the wrapped index of row `n` is the atomic number itself: it is not negative. -/
theorem v27_row (x0 : (⟨S131072, .i32⟩ : BufTy).Contents (Elt Ideal)) (hz : ∀ i : S131072.Idx, (x0 i).toNat < 100)
    (n : Fin 131072) : val_main_v27 (F := Ideal) x0 (ix2 n (0 : Fin 1)) = x0 (ix1 n) := by
  have hi : idx_main_v27 (ix2 n (0 : Fin 1)) = ix1 n := by
    funext a
    match a with
    | ⟨0, _⟩ => rfl
  rw [val_main_v27_apply, hi, val_main_v26_apply, val_main_v23_apply, val_main_v22_apply, val_main_c_apply]
  have hs : IntOp.cmpi .slt (x0 (ix1 n)) 0#32 = 0#1 := by
    have hlt : (x0 (ix1 n)).slt 0#32 = false := by
      rw [BitVec.slt, toInt_of_small _ (hz _)]
      simp
    show BitVec.ofBool ((x0 (ix1 n)).slt 0#32) = 0#1
    rw [hlt]; rfl
  rw [hs, select_zero]

/-- The embedding stage at `(n, j)`: row `Z n` of the table. -/
theorem v28_row (x0 : (⟨S131072, .i32⟩ : BufTy).Contents (Elt Ideal)) (x3 : (⟨S100x128, .f32⟩ : BufTy).Contents (Elt Ideal))
    (hz : ∀ i : S131072.Idx, (x0 i).toNat < 100) (n : Fin 131072) (j : Fin 128) :
    val_main_v28 (F := Ideal) x0 x3 (ix2 n j) = Cert.Spec.embRow (fun k j => x3 (ix2 k j)) (x0 (ix1 n)) j := by
  unfold val_main_v28
  rw [gather_rows_apply]
  unfold Cert.Spec.embRow
  rw [dif_pos (hz (ix1 n))]
  exact congrArg (fun r : Fin 100 => x3 (ix2 r j)) (Fin.ext (by
    show min (val_main_v27 (F := Ideal) x0 (ix2 n (0 : Fin 1))).toInt.toNat 99 = (x0 (ix1 n)).toNat
    rw [v27_row x0 hz n, toInt_of_small _ (hz _), Int.toNat_natCast]
    have := hz (ix1 n)
    omega))

/-! ## The interactions' weights -/

/-- Interaction `l`'s weights, read off the stacked arrays by coordinates. -/
def layerW (l : Fin 3) (x4 : V3x1x128) (x5 : V3x128) (x6 : V3x128x128) (x7 : V3x128) (x8 : V3x128x128) (x9 : V3x128)
    (x10 : V3x128x128) (x11 : V3x128) (x12 : V3x128x128) (x13 : V3x128) : Cert.Spec.LayerW where
  fw1 k := x4 (ix3 l (0 : Fin 1) k)
  fb1 k := x5 (ix2 l k)
  fw2 k j := x6 (ix3 l k j)
  fb2 k := x7 (ix2 l k)
  cw k j := x8 (ix3 l k j)
  cb k := x9 (ix2 l k)
  dw1 k j := x10 (ix3 l k j)
  db1 k := x11 (ix2 l k)
  dw2 k j := x12 (ix3 l k j)
  db2 k := x13 (ix2 l k)

/-! ## Interaction 0: stages 29 to 78 at row `n` -/

theorem v34_row (x1 : V131072x3) (n : Fin 131072) (k : Fin 128) :
    val_main_v34 (F := Ideal) x1 (ix2 n k) = val_main_v14 (F := Ideal) x1 (ix1 n) := by
  rw [val_main_v34_apply, val_main_v29_apply]
  congr 1
  funext a
  match a with
  | ⟨0, _⟩ => rfl

theorem v35_row (x4 : V3x1x128) (n : Fin 131072) (k : Fin 128) :
    val_main_v35 (F := Ideal) x4 (ix2 n k) = x4 (ix3 (0 : Fin 3) (0 : Fin 1) k) := by
  rw [val_main_v35_apply, val_main_v33_apply, val_main_v32_apply, val_main_v31_apply, val_main_v30_apply]
  congr 1
  funext a
  match a with
  | ⟨0, _⟩ => rfl
  | ⟨1, _⟩ => rfl
  | ⟨2, _⟩ => exact Fin.ext (show (0 * 128 + k.val % 128) % 128 = k.val by omega)

theorem v40_row (x5 : V3x128) (n : Fin 131072) (k : Fin 128) :
    val_main_v40 (F := Ideal) x5 (ix2 n k) = x5 (ix2 (0 : Fin 3) k) := by
  rw [val_main_v40_apply, val_main_v39_apply, val_main_v38_apply, val_main_v37_apply]
  congr 1
  funext a
  match a with
  | ⟨0, _⟩ => rfl
  | ⟨1, _⟩ => exact Fin.ext (show k.val % 128 = k.val by omega)

theorem call0_row (i : S131072x128.Idx) : val_main_call0_v0 (F := Ideal) i = Cert.Spec.z32 := by
  rw [val_main_call0_v0_apply]; rfl

theorem v42_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (k : Fin 128) :
    val_main_v42 (F := Ideal) x1 x4 x5 (ix2 n k) = Cert.Spec.filt (val_main_v14 (F := Ideal) x1 (ix1 n)) (layerW 0 x4 x5 x6 x7 x8 x9 x10 x11 x12 x13) k := by
  rw [val_main_v42_apply, val_main_v41_apply, val_main_v36_apply, v34_row, v35_row, v40_row, call0_row]
  rfl

theorem lidx45_row (n : Fin 131072) (j k : Fin 128) : lidx_main_v45 (ix2 n j) k = ix2 n k := by
  funext a
  match a with
  | ⟨0, _⟩ => rfl
  | ⟨1, _⟩ => rfl

theorem v44_row (x6 : V3x128x128) (n : Fin 131072) (j k : Fin 128) :
    val_main_v44 (F := Ideal) x6 (ridx_main_v45 (ix2 n j) k) = x6 (ix3 (0 : Fin 3) k j) := by
  rw [val_main_v44_apply, val_main_v43_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v49_row (x7 : V3x128) (n : Fin 131072) (k : Fin 128) :
    val_main_v49 (F := Ideal) x7 (ix2 n k) = x7 (ix2 (0 : Fin 3) k) := by
  rw [val_main_v49_apply, val_main_v48_apply, val_main_v47_apply, val_main_v46_apply]
  congr 1
  funext a
  match a with
  | ⟨0, _⟩ => rfl
  | ⟨1, _⟩ => exact Fin.ext (show k.val % 128 = k.val by omega)

theorem v50_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v50 (F := Ideal) x1 x4 x5 x6 x7 (ix2 n j)
      = Cert.Spec.lin (Cert.Spec.filt (val_main_v14 (F := Ideal) x1 (ix1 n)) (layerW 0 x4 x5 x6 x7 x8 x9 x10 x11 x12 x13)) (layerW 0 x4 x5 x6 x7 x8 x9 x10 x11 x12 x13).fw2 (layerW 0 x4 x5 x6 x7 x8 x9 x10 x11 x12 x13).fb2 j := by
  rw [val_main_v50_apply, val_main_v45_apply, v49_row]
  refine congrArg (· + x7 (ix2 (0 : Fin 3) j)) (Finset.sum_congr rfl fun k _ => ?_)
  rw [lidx45_row, v42_row x1 x4 x5 x6 x7 x8 x9 x10 x11 x12 x13, v44_row]
  rfl

theorem v52_row (x1 : V131072x3) (n : Fin 131072) (k : Fin 128) :
    val_main_v52 (F := Ideal) x1 (ix2 n k) = val_main_v21 (F := Ideal) x1 (ix1 n) := by
  rw [val_main_v52_apply, val_main_v51_apply]
  congr 1
  funext a
  match a with
  | ⟨0, _⟩ => rfl

theorem v53_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v53 (F := Ideal) x1 x4 x5 x6 x7 (ix2 n j) = Cert.Spec.filtCut (val_main_v14 (F := Ideal) x1 (ix1 n)) (val_main_v21 (F := Ideal) x1 (ix1 n)) (layerW 0 x4 x5 x6 x7 x8 x9 x10 x11 x12 x13) j := by
  rw [val_main_v53_apply, v50_row x1 x4 x5 x6 x7 x8 x9 x10 x11 x12 x13, v52_row]
  rfl

theorem lidx56_row (n : Fin 131072) (j k : Fin 128) : lidx_main_v56 (ix2 n j) k = ix2 n k := by
  funext a
  match a with
  | ⟨0, _⟩ => rfl
  | ⟨1, _⟩ => rfl

theorem v55_row (x8 : V3x128x128) (n : Fin 131072) (j k : Fin 128) :
    val_main_v55 (F := Ideal) x8 (ridx_main_v56 (ix2 n j) k) = x8 (ix3 (0 : Fin 3) k j) := by
  rw [val_main_v55_apply, val_main_v54_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v60_row (x9 : V3x128) (n : Fin 131072) (k : Fin 128) :
    val_main_v60 (F := Ideal) x9 (ix2 n k) = x9 (ix2 (0 : Fin 3) k) := by
  rw [val_main_v60_apply, val_main_v59_apply, val_main_v58_apply, val_main_v57_apply]
  congr 1
  funext a
  match a with
  | ⟨0, _⟩ => rfl
  | ⟨1, _⟩ => exact Fin.ext (show k.val % 128 = k.val by omega)

theorem v61_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v61 (F := Ideal) x1 x4 x5 x6 x7 x8 x9 (ix2 n j)
      = Cert.Spec.lin (Cert.Spec.filtCut (val_main_v14 (F := Ideal) x1 (ix1 n)) (val_main_v21 (F := Ideal) x1 (ix1 n)) (layerW 0 x4 x5 x6 x7 x8 x9 x10 x11 x12 x13)) (layerW 0 x4 x5 x6 x7 x8 x9 x10 x11 x12 x13).cw (layerW 0 x4 x5 x6 x7 x8 x9 x10 x11 x12 x13).cb j := by
  rw [val_main_v61_apply, val_main_v56_apply, v60_row]
  refine congrArg (· + x9 (ix2 (0 : Fin 3) j)) (Finset.sum_congr rfl fun k _ => ?_)
  rw [lidx56_row, v53_row x1 x4 x5 x6 x7 x8 x9 x10 x11 x12 x13, v55_row]
  rfl

theorem lidx64_row (n : Fin 131072) (j k : Fin 128) : lidx_main_v64 (ix2 n j) k = ix2 n k := by
  funext a
  match a with
  | ⟨0, _⟩ => rfl
  | ⟨1, _⟩ => rfl

theorem v63_row (x10 : V3x128x128) (n : Fin 131072) (j k : Fin 128) :
    val_main_v63 (F := Ideal) x10 (ridx_main_v64 (ix2 n j) k) = x10 (ix3 (0 : Fin 3) k j) := by
  rw [val_main_v63_apply, val_main_v62_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v68_row (x11 : V3x128) (n : Fin 131072) (k : Fin 128) :
    val_main_v68 (F := Ideal) x11 (ix2 n k) = x11 (ix2 (0 : Fin 3) k) := by
  rw [val_main_v68_apply, val_main_v67_apply, val_main_v66_apply, val_main_v65_apply]
  congr 1
  funext a
  match a with
  | ⟨0, _⟩ => rfl
  | ⟨1, _⟩ => exact Fin.ext (show k.val % 128 = k.val by omega)

theorem v69_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v69 (F := Ideal) x1 x4 x5 x6 x7 x8 x9 x10 x11 (ix2 n j)
      = Cert.Spec.lin (Cert.Spec.lin (Cert.Spec.filtCut (val_main_v14 (F := Ideal) x1 (ix1 n)) (val_main_v21 (F := Ideal) x1 (ix1 n)) (layerW 0 x4 x5 x6 x7 x8 x9 x10 x11 x12 x13)) (layerW 0 x4 x5 x6 x7 x8 x9 x10 x11 x12 x13).cw (layerW 0 x4 x5 x6 x7 x8 x9 x10 x11 x12 x13).cb) (layerW 0 x4 x5 x6 x7 x8 x9 x10 x11 x12 x13).dw1 (layerW 0 x4 x5 x6 x7 x8 x9 x10 x11 x12 x13).db1 j := by
  rw [val_main_v69_apply, val_main_v64_apply, v68_row]
  refine congrArg (· + x11 (ix2 (0 : Fin 3) j)) (Finset.sum_congr rfl fun k _ => ?_)
  rw [lidx64_row, v61_row x1 x4 x5 x6 x7 x8 x9 x10 x11 x12 x13, v63_row]
  rfl

theorem call1_row (i : S131072x128.Idx) : val_main_call1_v0 (F := Ideal) i = Cert.Spec.z32 := by
  rw [val_main_call1_v0_apply]; rfl

theorem v70_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v70 (F := Ideal) x1 x4 x5 x6 x7 x8 x9 x10 x11 (ix2 n j) = Cert.Spec.hid (val_main_v14 (F := Ideal) x1 (ix1 n)) (val_main_v21 (F := Ideal) x1 (ix1 n)) (layerW 0 x4 x5 x6 x7 x8 x9 x10 x11 x12 x13) j := by
  rw [val_main_v70_apply, v69_row x1 x4 x5 x6 x7 x8 x9 x10 x11 x12 x13, call1_row]
  rfl

theorem lidx73_row (n : Fin 131072) (j k : Fin 128) : lidx_main_v73 (ix2 n j) k = ix2 n k := by
  funext a
  match a with
  | ⟨0, _⟩ => rfl
  | ⟨1, _⟩ => rfl

theorem v72_row (x12 : V3x128x128) (n : Fin 131072) (j k : Fin 128) :
    val_main_v72 (F := Ideal) x12 (ridx_main_v73 (ix2 n j) k) = x12 (ix3 (0 : Fin 3) k j) := by
  rw [val_main_v72_apply, val_main_v71_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v77_row (x13 : V3x128) (n : Fin 131072) (k : Fin 128) :
    val_main_v77 (F := Ideal) x13 (ix2 n k) = x13 (ix2 (0 : Fin 3) k) := by
  rw [val_main_v77_apply, val_main_v76_apply, val_main_v75_apply, val_main_v74_apply]
  congr 1
  funext a
  match a with
  | ⟨0, _⟩ => rfl
  | ⟨1, _⟩ => exact Fin.ext (show k.val % 128 = k.val by omega)

theorem v78_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v78 (F := Ideal) x1 x4 x5 x6 x7 x8 x9 x10 x11 x12 x13 (ix2 n j)
      = Cert.Spec.lin (Cert.Spec.hid (val_main_v14 (F := Ideal) x1 (ix1 n)) (val_main_v21 (F := Ideal) x1 (ix1 n)) (layerW 0 x4 x5 x6 x7 x8 x9 x10 x11 x12 x13)) (layerW 0 x4 x5 x6 x7 x8 x9 x10 x11 x12 x13).dw2 (layerW 0 x4 x5 x6 x7 x8 x9 x10 x11 x12 x13).db2 j := by
  rw [val_main_v78_apply, val_main_v73_apply, v77_row]
  refine congrArg (· + x13 (ix2 (0 : Fin 3) j)) (Finset.sum_congr rfl fun k _ => ?_)
  rw [lidx73_row, v70_row x1 x4 x5 x6 x7 x8 x9 x10 x11 x12 x13, v72_row]
  rfl

/-- Interaction 0's update at `(n, j)` is the specification's, at slice 0 of the stacked weights. -/
theorem layer0_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v78 (F := Ideal) x1 x4 x5 x6 x7 x8 x9 x10 x11 x12 x13 (ix2 n j) = Cert.Spec.layerV (val_main_v14 (F := Ideal) x1 (ix1 n)) (val_main_v21 (F := Ideal) x1 (ix1 n)) (layerW 0 x4 x5 x6 x7 x8 x9 x10 x11 x12 x13) j :=
  v78_row x1 x4 x5 x6 x7 x8 x9 x10 x11 x12 x13 n j

/-! ## Interaction 1: stages 80 to 129 at row `n` -/

theorem v85_row (x1 : V131072x3) (n : Fin 131072) (k : Fin 128) :
    val_main_v85 (F := Ideal) x1 (ix2 n k) = val_main_v14 (F := Ideal) x1 (ix1 n) := by
  rw [val_main_v85_apply, val_main_v80_apply]
  congr 1
  funext a
  match a with
  | ⟨0, _⟩ => rfl

theorem v86_row (x4 : V3x1x128) (n : Fin 131072) (k : Fin 128) :
    val_main_v86 (F := Ideal) x4 (ix2 n k) = x4 (ix3 (1 : Fin 3) (0 : Fin 1) k) := by
  rw [val_main_v86_apply, val_main_v84_apply, val_main_v83_apply, val_main_v82_apply, val_main_v81_apply]
  congr 1
  funext a
  match a with
  | ⟨0, _⟩ => rfl
  | ⟨1, _⟩ => rfl
  | ⟨2, _⟩ => exact Fin.ext (show (0 * 128 + k.val % 128) % 128 = k.val by omega)

theorem v91_row (x5 : V3x128) (n : Fin 131072) (k : Fin 128) :
    val_main_v91 (F := Ideal) x5 (ix2 n k) = x5 (ix2 (1 : Fin 3) k) := by
  rw [val_main_v91_apply, val_main_v90_apply, val_main_v89_apply, val_main_v88_apply]
  congr 1
  funext a
  match a with
  | ⟨0, _⟩ => rfl
  | ⟨1, _⟩ => exact Fin.ext (show k.val % 128 = k.val by omega)

theorem call2_row (i : S131072x128.Idx) : val_main_call2_v0 (F := Ideal) i = Cert.Spec.z32 := by
  rw [val_main_call2_v0_apply]; rfl

theorem v93_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (k : Fin 128) :
    val_main_v93 (F := Ideal) x1 x4 x5 (ix2 n k) = Cert.Spec.filt (val_main_v14 (F := Ideal) x1 (ix1 n)) (layerW 1 x4 x5 x6 x7 x8 x9 x10 x11 x12 x13) k := by
  rw [val_main_v93_apply, val_main_v92_apply, val_main_v87_apply, v85_row, v86_row, v91_row, call2_row]
  rfl

theorem lidx96_row (n : Fin 131072) (j k : Fin 128) : lidx_main_v96 (ix2 n j) k = ix2 n k := by
  funext a
  match a with
  | ⟨0, _⟩ => rfl
  | ⟨1, _⟩ => rfl

theorem v95_row (x6 : V3x128x128) (n : Fin 131072) (j k : Fin 128) :
    val_main_v95 (F := Ideal) x6 (ridx_main_v96 (ix2 n j) k) = x6 (ix3 (1 : Fin 3) k j) := by
  rw [val_main_v95_apply, val_main_v94_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v100_row (x7 : V3x128) (n : Fin 131072) (k : Fin 128) :
    val_main_v100 (F := Ideal) x7 (ix2 n k) = x7 (ix2 (1 : Fin 3) k) := by
  rw [val_main_v100_apply, val_main_v99_apply, val_main_v98_apply, val_main_v97_apply]
  congr 1
  funext a
  match a with
  | ⟨0, _⟩ => rfl
  | ⟨1, _⟩ => exact Fin.ext (show k.val % 128 = k.val by omega)

theorem v101_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v101 (F := Ideal) x1 x4 x5 x6 x7 (ix2 n j)
      = Cert.Spec.lin (Cert.Spec.filt (val_main_v14 (F := Ideal) x1 (ix1 n)) (layerW 1 x4 x5 x6 x7 x8 x9 x10 x11 x12 x13)) (layerW 1 x4 x5 x6 x7 x8 x9 x10 x11 x12 x13).fw2 (layerW 1 x4 x5 x6 x7 x8 x9 x10 x11 x12 x13).fb2 j := by
  rw [val_main_v101_apply, val_main_v96_apply, v100_row]
  refine congrArg (· + x7 (ix2 (1 : Fin 3) j)) (Finset.sum_congr rfl fun k _ => ?_)
  rw [lidx96_row, v93_row x1 x4 x5 x6 x7 x8 x9 x10 x11 x12 x13, v95_row]
  rfl

theorem v103_row (x1 : V131072x3) (n : Fin 131072) (k : Fin 128) :
    val_main_v103 (F := Ideal) x1 (ix2 n k) = val_main_v21 (F := Ideal) x1 (ix1 n) := by
  rw [val_main_v103_apply, val_main_v102_apply]
  congr 1
  funext a
  match a with
  | ⟨0, _⟩ => rfl

theorem v104_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v104 (F := Ideal) x1 x4 x5 x6 x7 (ix2 n j) = Cert.Spec.filtCut (val_main_v14 (F := Ideal) x1 (ix1 n)) (val_main_v21 (F := Ideal) x1 (ix1 n)) (layerW 1 x4 x5 x6 x7 x8 x9 x10 x11 x12 x13) j := by
  rw [val_main_v104_apply, v101_row x1 x4 x5 x6 x7 x8 x9 x10 x11 x12 x13, v103_row]
  rfl

theorem lidx107_row (n : Fin 131072) (j k : Fin 128) : lidx_main_v107 (ix2 n j) k = ix2 n k := by
  funext a
  match a with
  | ⟨0, _⟩ => rfl
  | ⟨1, _⟩ => rfl

theorem v106_row (x8 : V3x128x128) (n : Fin 131072) (j k : Fin 128) :
    val_main_v106 (F := Ideal) x8 (ridx_main_v107 (ix2 n j) k) = x8 (ix3 (1 : Fin 3) k j) := by
  rw [val_main_v106_apply, val_main_v105_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v111_row (x9 : V3x128) (n : Fin 131072) (k : Fin 128) :
    val_main_v111 (F := Ideal) x9 (ix2 n k) = x9 (ix2 (1 : Fin 3) k) := by
  rw [val_main_v111_apply, val_main_v110_apply, val_main_v109_apply, val_main_v108_apply]
  congr 1
  funext a
  match a with
  | ⟨0, _⟩ => rfl
  | ⟨1, _⟩ => exact Fin.ext (show k.val % 128 = k.val by omega)

theorem v112_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v112 (F := Ideal) x1 x4 x5 x6 x7 x8 x9 (ix2 n j)
      = Cert.Spec.lin (Cert.Spec.filtCut (val_main_v14 (F := Ideal) x1 (ix1 n)) (val_main_v21 (F := Ideal) x1 (ix1 n)) (layerW 1 x4 x5 x6 x7 x8 x9 x10 x11 x12 x13)) (layerW 1 x4 x5 x6 x7 x8 x9 x10 x11 x12 x13).cw (layerW 1 x4 x5 x6 x7 x8 x9 x10 x11 x12 x13).cb j := by
  rw [val_main_v112_apply, val_main_v107_apply, v111_row]
  refine congrArg (· + x9 (ix2 (1 : Fin 3) j)) (Finset.sum_congr rfl fun k _ => ?_)
  rw [lidx107_row, v104_row x1 x4 x5 x6 x7 x8 x9 x10 x11 x12 x13, v106_row]
  rfl

theorem lidx115_row (n : Fin 131072) (j k : Fin 128) : lidx_main_v115 (ix2 n j) k = ix2 n k := by
  funext a
  match a with
  | ⟨0, _⟩ => rfl
  | ⟨1, _⟩ => rfl

theorem v114_row (x10 : V3x128x128) (n : Fin 131072) (j k : Fin 128) :
    val_main_v114 (F := Ideal) x10 (ridx_main_v115 (ix2 n j) k) = x10 (ix3 (1 : Fin 3) k j) := by
  rw [val_main_v114_apply, val_main_v113_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v119_row (x11 : V3x128) (n : Fin 131072) (k : Fin 128) :
    val_main_v119 (F := Ideal) x11 (ix2 n k) = x11 (ix2 (1 : Fin 3) k) := by
  rw [val_main_v119_apply, val_main_v118_apply, val_main_v117_apply, val_main_v116_apply]
  congr 1
  funext a
  match a with
  | ⟨0, _⟩ => rfl
  | ⟨1, _⟩ => exact Fin.ext (show k.val % 128 = k.val by omega)

theorem v120_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v120 (F := Ideal) x1 x4 x5 x6 x7 x8 x9 x10 x11 (ix2 n j)
      = Cert.Spec.lin (Cert.Spec.lin (Cert.Spec.filtCut (val_main_v14 (F := Ideal) x1 (ix1 n)) (val_main_v21 (F := Ideal) x1 (ix1 n)) (layerW 1 x4 x5 x6 x7 x8 x9 x10 x11 x12 x13)) (layerW 1 x4 x5 x6 x7 x8 x9 x10 x11 x12 x13).cw (layerW 1 x4 x5 x6 x7 x8 x9 x10 x11 x12 x13).cb) (layerW 1 x4 x5 x6 x7 x8 x9 x10 x11 x12 x13).dw1 (layerW 1 x4 x5 x6 x7 x8 x9 x10 x11 x12 x13).db1 j := by
  rw [val_main_v120_apply, val_main_v115_apply, v119_row]
  refine congrArg (· + x11 (ix2 (1 : Fin 3) j)) (Finset.sum_congr rfl fun k _ => ?_)
  rw [lidx115_row, v112_row x1 x4 x5 x6 x7 x8 x9 x10 x11 x12 x13, v114_row]
  rfl

theorem call3_row (i : S131072x128.Idx) : val_main_call3_v0 (F := Ideal) i = Cert.Spec.z32 := by
  rw [val_main_call3_v0_apply]; rfl

theorem v121_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v121 (F := Ideal) x1 x4 x5 x6 x7 x8 x9 x10 x11 (ix2 n j) = Cert.Spec.hid (val_main_v14 (F := Ideal) x1 (ix1 n)) (val_main_v21 (F := Ideal) x1 (ix1 n)) (layerW 1 x4 x5 x6 x7 x8 x9 x10 x11 x12 x13) j := by
  rw [val_main_v121_apply, v120_row x1 x4 x5 x6 x7 x8 x9 x10 x11 x12 x13, call3_row]
  rfl

theorem lidx124_row (n : Fin 131072) (j k : Fin 128) : lidx_main_v124 (ix2 n j) k = ix2 n k := by
  funext a
  match a with
  | ⟨0, _⟩ => rfl
  | ⟨1, _⟩ => rfl

theorem v123_row (x12 : V3x128x128) (n : Fin 131072) (j k : Fin 128) :
    val_main_v123 (F := Ideal) x12 (ridx_main_v124 (ix2 n j) k) = x12 (ix3 (1 : Fin 3) k j) := by
  rw [val_main_v123_apply, val_main_v122_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v128_row (x13 : V3x128) (n : Fin 131072) (k : Fin 128) :
    val_main_v128 (F := Ideal) x13 (ix2 n k) = x13 (ix2 (1 : Fin 3) k) := by
  rw [val_main_v128_apply, val_main_v127_apply, val_main_v126_apply, val_main_v125_apply]
  congr 1
  funext a
  match a with
  | ⟨0, _⟩ => rfl
  | ⟨1, _⟩ => exact Fin.ext (show k.val % 128 = k.val by omega)

theorem v129_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v129 (F := Ideal) x1 x4 x5 x6 x7 x8 x9 x10 x11 x12 x13 (ix2 n j)
      = Cert.Spec.lin (Cert.Spec.hid (val_main_v14 (F := Ideal) x1 (ix1 n)) (val_main_v21 (F := Ideal) x1 (ix1 n)) (layerW 1 x4 x5 x6 x7 x8 x9 x10 x11 x12 x13)) (layerW 1 x4 x5 x6 x7 x8 x9 x10 x11 x12 x13).dw2 (layerW 1 x4 x5 x6 x7 x8 x9 x10 x11 x12 x13).db2 j := by
  rw [val_main_v129_apply, val_main_v124_apply, v128_row]
  refine congrArg (· + x13 (ix2 (1 : Fin 3) j)) (Finset.sum_congr rfl fun k _ => ?_)
  rw [lidx124_row, v121_row x1 x4 x5 x6 x7 x8 x9 x10 x11 x12 x13, v123_row]
  rfl

/-- Interaction 1's update at `(n, j)` is the specification's, at slice 1 of the stacked weights. -/
theorem layer1_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v129 (F := Ideal) x1 x4 x5 x6 x7 x8 x9 x10 x11 x12 x13 (ix2 n j) = Cert.Spec.layerV (val_main_v14 (F := Ideal) x1 (ix1 n)) (val_main_v21 (F := Ideal) x1 (ix1 n)) (layerW 1 x4 x5 x6 x7 x8 x9 x10 x11 x12 x13) j :=
  v129_row x1 x4 x5 x6 x7 x8 x9 x10 x11 x12 x13 n j

/-! ## Interaction 2: stages 131 to 180 at row `n` -/

theorem v136_row (x1 : V131072x3) (n : Fin 131072) (k : Fin 128) :
    val_main_v136 (F := Ideal) x1 (ix2 n k) = val_main_v14 (F := Ideal) x1 (ix1 n) := by
  rw [val_main_v136_apply, val_main_v131_apply]
  congr 1
  funext a
  match a with
  | ⟨0, _⟩ => rfl

theorem v137_row (x4 : V3x1x128) (n : Fin 131072) (k : Fin 128) :
    val_main_v137 (F := Ideal) x4 (ix2 n k) = x4 (ix3 (2 : Fin 3) (0 : Fin 1) k) := by
  rw [val_main_v137_apply, val_main_v135_apply, val_main_v134_apply, val_main_v133_apply, val_main_v132_apply]
  congr 1
  funext a
  match a with
  | ⟨0, _⟩ => rfl
  | ⟨1, _⟩ => rfl
  | ⟨2, _⟩ => exact Fin.ext (show (0 * 128 + k.val % 128) % 128 = k.val by omega)

theorem v142_row (x5 : V3x128) (n : Fin 131072) (k : Fin 128) :
    val_main_v142 (F := Ideal) x5 (ix2 n k) = x5 (ix2 (2 : Fin 3) k) := by
  rw [val_main_v142_apply, val_main_v141_apply, val_main_v140_apply, val_main_v139_apply]
  congr 1
  funext a
  match a with
  | ⟨0, _⟩ => rfl
  | ⟨1, _⟩ => exact Fin.ext (show k.val % 128 = k.val by omega)

theorem call4_row (i : S131072x128.Idx) : val_main_call4_v0 (F := Ideal) i = Cert.Spec.z32 := by
  rw [val_main_call4_v0_apply]; rfl

theorem v144_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (k : Fin 128) :
    val_main_v144 (F := Ideal) x1 x4 x5 (ix2 n k) = Cert.Spec.filt (val_main_v14 (F := Ideal) x1 (ix1 n)) (layerW 2 x4 x5 x6 x7 x8 x9 x10 x11 x12 x13) k := by
  rw [val_main_v144_apply, val_main_v143_apply, val_main_v138_apply, v136_row, v137_row, v142_row, call4_row]
  rfl

theorem lidx147_row (n : Fin 131072) (j k : Fin 128) : lidx_main_v147 (ix2 n j) k = ix2 n k := by
  funext a
  match a with
  | ⟨0, _⟩ => rfl
  | ⟨1, _⟩ => rfl

theorem v146_row (x6 : V3x128x128) (n : Fin 131072) (j k : Fin 128) :
    val_main_v146 (F := Ideal) x6 (ridx_main_v147 (ix2 n j) k) = x6 (ix3 (2 : Fin 3) k j) := by
  rw [val_main_v146_apply, val_main_v145_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v151_row (x7 : V3x128) (n : Fin 131072) (k : Fin 128) :
    val_main_v151 (F := Ideal) x7 (ix2 n k) = x7 (ix2 (2 : Fin 3) k) := by
  rw [val_main_v151_apply, val_main_v150_apply, val_main_v149_apply, val_main_v148_apply]
  congr 1
  funext a
  match a with
  | ⟨0, _⟩ => rfl
  | ⟨1, _⟩ => exact Fin.ext (show k.val % 128 = k.val by omega)

theorem v152_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v152 (F := Ideal) x1 x4 x5 x6 x7 (ix2 n j)
      = Cert.Spec.lin (Cert.Spec.filt (val_main_v14 (F := Ideal) x1 (ix1 n)) (layerW 2 x4 x5 x6 x7 x8 x9 x10 x11 x12 x13)) (layerW 2 x4 x5 x6 x7 x8 x9 x10 x11 x12 x13).fw2 (layerW 2 x4 x5 x6 x7 x8 x9 x10 x11 x12 x13).fb2 j := by
  rw [val_main_v152_apply, val_main_v147_apply, v151_row]
  refine congrArg (· + x7 (ix2 (2 : Fin 3) j)) (Finset.sum_congr rfl fun k _ => ?_)
  rw [lidx147_row, v144_row x1 x4 x5 x6 x7 x8 x9 x10 x11 x12 x13, v146_row]
  rfl

theorem v154_row (x1 : V131072x3) (n : Fin 131072) (k : Fin 128) :
    val_main_v154 (F := Ideal) x1 (ix2 n k) = val_main_v21 (F := Ideal) x1 (ix1 n) := by
  rw [val_main_v154_apply, val_main_v153_apply]
  congr 1
  funext a
  match a with
  | ⟨0, _⟩ => rfl

theorem v155_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v155 (F := Ideal) x1 x4 x5 x6 x7 (ix2 n j) = Cert.Spec.filtCut (val_main_v14 (F := Ideal) x1 (ix1 n)) (val_main_v21 (F := Ideal) x1 (ix1 n)) (layerW 2 x4 x5 x6 x7 x8 x9 x10 x11 x12 x13) j := by
  rw [val_main_v155_apply, v152_row x1 x4 x5 x6 x7 x8 x9 x10 x11 x12 x13, v154_row]
  rfl

theorem lidx158_row (n : Fin 131072) (j k : Fin 128) : lidx_main_v158 (ix2 n j) k = ix2 n k := by
  funext a
  match a with
  | ⟨0, _⟩ => rfl
  | ⟨1, _⟩ => rfl

theorem v157_row (x8 : V3x128x128) (n : Fin 131072) (j k : Fin 128) :
    val_main_v157 (F := Ideal) x8 (ridx_main_v158 (ix2 n j) k) = x8 (ix3 (2 : Fin 3) k j) := by
  rw [val_main_v157_apply, val_main_v156_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v162_row (x9 : V3x128) (n : Fin 131072) (k : Fin 128) :
    val_main_v162 (F := Ideal) x9 (ix2 n k) = x9 (ix2 (2 : Fin 3) k) := by
  rw [val_main_v162_apply, val_main_v161_apply, val_main_v160_apply, val_main_v159_apply]
  congr 1
  funext a
  match a with
  | ⟨0, _⟩ => rfl
  | ⟨1, _⟩ => exact Fin.ext (show k.val % 128 = k.val by omega)

theorem v163_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v163 (F := Ideal) x1 x4 x5 x6 x7 x8 x9 (ix2 n j)
      = Cert.Spec.lin (Cert.Spec.filtCut (val_main_v14 (F := Ideal) x1 (ix1 n)) (val_main_v21 (F := Ideal) x1 (ix1 n)) (layerW 2 x4 x5 x6 x7 x8 x9 x10 x11 x12 x13)) (layerW 2 x4 x5 x6 x7 x8 x9 x10 x11 x12 x13).cw (layerW 2 x4 x5 x6 x7 x8 x9 x10 x11 x12 x13).cb j := by
  rw [val_main_v163_apply, val_main_v158_apply, v162_row]
  refine congrArg (· + x9 (ix2 (2 : Fin 3) j)) (Finset.sum_congr rfl fun k _ => ?_)
  rw [lidx158_row, v155_row x1 x4 x5 x6 x7 x8 x9 x10 x11 x12 x13, v157_row]
  rfl

theorem lidx166_row (n : Fin 131072) (j k : Fin 128) : lidx_main_v166 (ix2 n j) k = ix2 n k := by
  funext a
  match a with
  | ⟨0, _⟩ => rfl
  | ⟨1, _⟩ => rfl

theorem v165_row (x10 : V3x128x128) (n : Fin 131072) (j k : Fin 128) :
    val_main_v165 (F := Ideal) x10 (ridx_main_v166 (ix2 n j) k) = x10 (ix3 (2 : Fin 3) k j) := by
  rw [val_main_v165_apply, val_main_v164_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v170_row (x11 : V3x128) (n : Fin 131072) (k : Fin 128) :
    val_main_v170 (F := Ideal) x11 (ix2 n k) = x11 (ix2 (2 : Fin 3) k) := by
  rw [val_main_v170_apply, val_main_v169_apply, val_main_v168_apply, val_main_v167_apply]
  congr 1
  funext a
  match a with
  | ⟨0, _⟩ => rfl
  | ⟨1, _⟩ => exact Fin.ext (show k.val % 128 = k.val by omega)

theorem v171_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v171 (F := Ideal) x1 x4 x5 x6 x7 x8 x9 x10 x11 (ix2 n j)
      = Cert.Spec.lin (Cert.Spec.lin (Cert.Spec.filtCut (val_main_v14 (F := Ideal) x1 (ix1 n)) (val_main_v21 (F := Ideal) x1 (ix1 n)) (layerW 2 x4 x5 x6 x7 x8 x9 x10 x11 x12 x13)) (layerW 2 x4 x5 x6 x7 x8 x9 x10 x11 x12 x13).cw (layerW 2 x4 x5 x6 x7 x8 x9 x10 x11 x12 x13).cb) (layerW 2 x4 x5 x6 x7 x8 x9 x10 x11 x12 x13).dw1 (layerW 2 x4 x5 x6 x7 x8 x9 x10 x11 x12 x13).db1 j := by
  rw [val_main_v171_apply, val_main_v166_apply, v170_row]
  refine congrArg (· + x11 (ix2 (2 : Fin 3) j)) (Finset.sum_congr rfl fun k _ => ?_)
  rw [lidx166_row, v163_row x1 x4 x5 x6 x7 x8 x9 x10 x11 x12 x13, v165_row]
  rfl

theorem call5_row (i : S131072x128.Idx) : val_main_call5_v0 (F := Ideal) i = Cert.Spec.z32 := by
  rw [val_main_call5_v0_apply]; rfl

theorem v172_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v172 (F := Ideal) x1 x4 x5 x6 x7 x8 x9 x10 x11 (ix2 n j) = Cert.Spec.hid (val_main_v14 (F := Ideal) x1 (ix1 n)) (val_main_v21 (F := Ideal) x1 (ix1 n)) (layerW 2 x4 x5 x6 x7 x8 x9 x10 x11 x12 x13) j := by
  rw [val_main_v172_apply, v171_row x1 x4 x5 x6 x7 x8 x9 x10 x11 x12 x13, call5_row]
  rfl

theorem lidx175_row (n : Fin 131072) (j k : Fin 128) : lidx_main_v175 (ix2 n j) k = ix2 n k := by
  funext a
  match a with
  | ⟨0, _⟩ => rfl
  | ⟨1, _⟩ => rfl

theorem v174_row (x12 : V3x128x128) (n : Fin 131072) (j k : Fin 128) :
    val_main_v174 (F := Ideal) x12 (ridx_main_v175 (ix2 n j) k) = x12 (ix3 (2 : Fin 3) k j) := by
  rw [val_main_v174_apply, val_main_v173_apply]
  congr 1
  funext a
  match a with
  | ⟨0, _⟩ => rfl
  | ⟨1, _⟩ => exact Fin.ext (show (k.val * 128 + j.val) / 128 % 128 = k.val by omega)
  | ⟨2, _⟩ => exact Fin.ext (show (k.val * 128 + j.val) % 128 = j.val by omega)

theorem v179_row (x13 : V3x128) (n : Fin 131072) (k : Fin 128) :
    val_main_v179 (F := Ideal) x13 (ix2 n k) = x13 (ix2 (2 : Fin 3) k) := by
  rw [val_main_v179_apply, val_main_v178_apply, val_main_v177_apply, val_main_v176_apply]
  congr 1
  funext a
  match a with
  | ⟨0, _⟩ => rfl
  | ⟨1, _⟩ => exact Fin.ext (show k.val % 128 = k.val by omega)

theorem v180_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v180 (F := Ideal) x1 x4 x5 x6 x7 x8 x9 x10 x11 x12 x13 (ix2 n j)
      = Cert.Spec.lin (Cert.Spec.hid (val_main_v14 (F := Ideal) x1 (ix1 n)) (val_main_v21 (F := Ideal) x1 (ix1 n)) (layerW 2 x4 x5 x6 x7 x8 x9 x10 x11 x12 x13)) (layerW 2 x4 x5 x6 x7 x8 x9 x10 x11 x12 x13).dw2 (layerW 2 x4 x5 x6 x7 x8 x9 x10 x11 x12 x13).db2 j := by
  rw [val_main_v180_apply, val_main_v175_apply, v179_row]
  refine congrArg (· + x13 (ix2 (2 : Fin 3) j)) (Finset.sum_congr rfl fun k _ => ?_)
  rw [lidx175_row, v172_row x1 x4 x5 x6 x7 x8 x9 x10 x11 x12 x13, v174_row]
  rfl

/-- Interaction 2's update at `(n, j)` is the specification's, at slice 2 of the stacked weights. -/
theorem layer2_row (x1 : V131072x3) (x4 : V3x1x128) (x5 : V3x128) (x6 : V3x128x128) (x7 : V3x128) (x8 : V3x128x128) (x9 : V3x128)
    (x10 : V3x128x128) (x11 : V3x128) (x12 : V3x128x128) (x13 : V3x128) (n : Fin 131072) (j : Fin 128) :
    val_main_v180 (F := Ideal) x1 x4 x5 x6 x7 x8 x9 x10 x11 x12 x13 (ix2 n j) = Cert.Spec.layerV (val_main_v14 (F := Ideal) x1 (ix1 n)) (val_main_v21 (F := Ideal) x1 (ix1 n)) (layerW 2 x4 x5 x6 x7 x8 x9 x10 x11 x12 x13) j :=
  v180_row x1 x4 x5 x6 x7 x8 x9 x10 x11 x12 x13 n j

/-! ## The features after the three interactions -/

/-- Stage 181 at `(n, j)`: the embedding row plus the three interactions' updates, added in order. -/
theorem v181_row (x0 : V131072i) (x1 : V131072x3) (x3 : V100x128) (x4 : V3x1x128) (x5 : V3x128) (x6 : V3x128x128) (x7 : V3x128) (x8 : V3x128x128) (x9 : V3x128)
    (x10 : V3x128x128) (x11 : V3x128) (x12 : V3x128x128) (x13 : V3x128)
    (hz : ∀ i : S131072.Idx, (x0 i).toNat < 100) (n : Fin 131072) (j : Fin 128) :
    val_main_v181 (F := Ideal) x0 x1 x3 x4 x5 x6 x7 x8 x9 x10 x11 x12 x13 (ix2 n j)
      = Cert.Spec.feat (Cert.Spec.embRow (fun k j => x3 (ix2 k j)) (x0 (ix1 n))) (val_main_v14 (F := Ideal) x1 (ix1 n))
          (val_main_v21 (F := Ideal) x1 (ix1 n)) (layerW 0 x4 x5 x6 x7 x8 x9 x10 x11 x12 x13) (layerW 1 x4 x5 x6 x7 x8 x9 x10 x11 x12 x13) (layerW 2 x4 x5 x6 x7 x8 x9 x10 x11 x12 x13) j := by
  rw [val_main_v181_apply, val_main_v130_apply, val_main_v79_apply, v28_row x0 x3 hz, layer0_row x1 x4 x5 x6 x7 x8 x9 x10 x11 x12 x13, layer1_row x1 x4 x5 x6 x7 x8 x9 x10 x11 x12 x13,
    layer2_row x1 x4 x5 x6 x7 x8 x9 x10 x11 x12 x13]
  rfl

/-! ## The head: stages 182 to 190 at row `n` -/

theorem v184_row (x15 : (⟨S64, .f32⟩ : BufTy).Contents (Elt Ideal)) (n : Fin 131072) (k : Fin 64) :
    val_main_v184 (F := Ideal) x15 (ix2 n k) = x15 (ix1 k) := by
  rw [val_main_v184_apply, val_main_v183_apply]
  congr 1
  funext a
  match a with
  | ⟨0, _⟩ => rfl

theorem call6_row (i : S131072x64.Idx) : val_main_call6_v0 (F := Ideal) i = Cert.Spec.z32 := by
  rw [val_main_call6_v0_apply]; rfl

theorem lidx182_row (n : Fin 131072) (j : Fin 64) (k : Fin 128) : lidx_main_v182 (ix2 n j) k = ix2 n k := by
  funext a
  match a with
  | ⟨0, _⟩ => rfl
  | ⟨1, _⟩ => rfl

theorem ridx182_row (n : Fin 131072) (j : Fin 64) (k : Fin 128) : ridx_main_v182 (ix2 n j) k = ix2 k j := by
  funext a
  match a with
  | ⟨0, _⟩ => rfl
  | ⟨1, _⟩ => rfl

/-- The head's hidden layer at `(n, k)`, from the features' row `n`. -/
theorem v186_row (x0 : V131072i) (x1 : V131072x3) (x3 : V100x128) (x4 : V3x1x128) (x5 : V3x128) (x6 : V3x128x128) (x7 : V3x128) (x8 : V3x128x128) (x9 : V3x128)
    (x10 : V3x128x128) (x11 : V3x128) (x12 : V3x128x128) (x13 : V3x128)
    (x14 : (⟨S128x64, .f32⟩ : BufTy).Contents (Elt Ideal)) (x15 : (⟨S64, .f32⟩ : BufTy).Contents (Elt Ideal))
    (n : Fin 131072) (k : Fin 64) :
    val_main_v186 (F := Ideal) x0 x1 x3 x4 x5 x6 x7 x8 x9 x10 x11 x12 x13 x14 x15 (ix2 n k)
      = Cert.Spec.relu (Cert.Spec.lin (fun j => val_main_v181 (F := Ideal) x0 x1 x3 x4 x5 x6 x7 x8 x9 x10 x11 x12 x13 (ix2 n j))
          (fun k j => x14 (ix2 k j)) (fun k => x15 (ix1 k)) k) := by
  rw [val_main_v186_apply, val_main_v185_apply, val_main_v182_apply, v184_row, call6_row]
  refine congrArg (fun s => max (s + x15 (ix1 k)) Cert.Spec.z32) (Finset.sum_congr rfl fun q _ => ?_)
  rw [lidx182_row, ridx182_row]

theorem v189_row (x17 : (⟨S1, .f32⟩ : BufTy).Contents (Elt Ideal)) (n : Fin 131072) :
    val_main_v189 (F := Ideal) x17 (ix2 n (0 : Fin 1)) = x17 (ix1 (0 : Fin 1)) := by
  rw [val_main_v189_apply, val_main_v188_apply]
  congr 1
  funext a
  match a with
  | ⟨0, _⟩ => rfl

theorem lidx187_row (n : Fin 131072) (k : Fin 64) : lidx_main_v187 (ix2 n (0 : Fin 1)) k = ix2 n k := by
  funext a
  match a with
  | ⟨0, _⟩ => rfl
  | ⟨1, _⟩ => rfl

theorem ridx187_row (n : Fin 131072) (k : Fin 64) : ridx_main_v187 (ix2 n (0 : Fin 1)) k = ix2 k (0 : Fin 1) := by
  funext a
  match a with
  | ⟨0, _⟩ => rfl
  | ⟨1, _⟩ => rfl

/-- The result at row `n`, from the features' row `n`. -/
theorem v190_row (x0 : V131072i) (x1 : V131072x3) (x3 : V100x128) (x4 : V3x1x128) (x5 : V3x128) (x6 : V3x128x128) (x7 : V3x128) (x8 : V3x128x128) (x9 : V3x128)
    (x10 : V3x128x128) (x11 : V3x128) (x12 : V3x128x128) (x13 : V3x128)
    (x14 : (⟨S128x64, .f32⟩ : BufTy).Contents (Elt Ideal)) (x15 : (⟨S64, .f32⟩ : BufTy).Contents (Elt Ideal))
    (x16 : (⟨S64x1, .f32⟩ : BufTy).Contents (Elt Ideal)) (x17 : (⟨S1, .f32⟩ : BufTy).Contents (Elt Ideal)) (n : Fin 131072) :
    val_main_v190 (F := Ideal) x0 x1 x3 x4 x5 x6 x7 x8 x9 x10 x11 x12 x13 x14 x15 x16 x17 (ix2 n (0 : Fin 1))
      = Cert.Spec.headV (fun j => val_main_v181 (F := Ideal) x0 x1 x3 x4 x5 x6 x7 x8 x9 x10 x11 x12 x13 (ix2 n j))
          (fun k j => x14 (ix2 k j)) (fun k => x15 (ix1 k)) (fun k => x16 (ix2 k (0 : Fin 1))) (x17 (ix1 (0 : Fin 1))) := by
  rw [val_main_v190_apply, val_main_v187_apply, v189_row]
  refine congrArg (· + x17 (ix1 (0 : Fin 1))) (Finset.sum_congr rfl fun k _ => ?_)
  rw [lidx187_row, ridx187_row, v186_row]

/-! ## The reference at one row -/

/-- THE REFERENCE AT ROW `n`: the network's prediction from atom `n`'s embedding row, mean pair distance and cutoff
    weight (the last two kept as the stages that compute them), provided every atomic number is below the table's
    100 rows. -/
theorem ref_apply (x0 : (⟨S131072, .i32⟩ : BufTy).Contents (Elt Ideal)) (x1 : (⟨S131072x3, .f32⟩ : BufTy).Contents (Elt Ideal)) (x3 : (⟨S100x128, .f32⟩ : BufTy).Contents (Elt Ideal)) (x4 : (⟨S3x1x128, .f32⟩ : BufTy).Contents (Elt Ideal)) (x5 : (⟨S3x128, .f32⟩ : BufTy).Contents (Elt Ideal)) (x6 : (⟨S3x128x128, .f32⟩ : BufTy).Contents (Elt Ideal)) (x7 : (⟨S3x128, .f32⟩ : BufTy).Contents (Elt Ideal)) (x8 : (⟨S3x128x128, .f32⟩ : BufTy).Contents (Elt Ideal)) (x9 : (⟨S3x128, .f32⟩ : BufTy).Contents (Elt Ideal)) (x10 : (⟨S3x128x128, .f32⟩ : BufTy).Contents (Elt Ideal)) (x11 : (⟨S3x128, .f32⟩ : BufTy).Contents (Elt Ideal)) (x12 : (⟨S3x128x128, .f32⟩ : BufTy).Contents (Elt Ideal)) (x13 : (⟨S3x128, .f32⟩ : BufTy).Contents (Elt Ideal)) (x14 : (⟨S128x64, .f32⟩ : BufTy).Contents (Elt Ideal)) (x15 : (⟨S64, .f32⟩ : BufTy).Contents (Elt Ideal)) (x16 : (⟨S64x1, .f32⟩ : BufTy).Contents (Elt Ideal)) (x17 : (⟨S1, .f32⟩ : BufTy).Contents (Elt Ideal))
    (hz : ∀ i : S131072.Idx, (x0 i).toNat < 100) (n : Fin 131072) :
    val_main_v190 (F := Ideal) x0 x1 x3 x4 x5 x6 x7 x8 x9 x10 x11 x12 x13 x14 x15 x16 x17 (ix2 n (0 : Fin 1))
      = Cert.Spec.netOut ⟨x4, x5, x6, x7, x8, x9, x10, x11, x12, x13, x14, x15, x16, x17⟩
          (Cert.Spec.embRow (fun k j => x3 (ix2 k j)) (x0 (ix1 n))) (val_main_v14 (F := Ideal) x1 (ix1 n)) (val_main_v21 (F := Ideal) x1 (ix1 n)) := by
  rw [v190_row]
  have hf : (fun j => val_main_v181 (F := Ideal) x0 x1 x3 x4 x5 x6 x7 x8 x9 x10 x11 x12 x13 (ix2 n j))
      = Cert.Spec.feat (Cert.Spec.embRow (fun k j => x3 (ix2 k j)) (x0 (ix1 n))) (val_main_v14 (F := Ideal) x1 (ix1 n))
          (val_main_v21 (F := Ideal) x1 (ix1 n)) (layerW 0 x4 x5 x6 x7 x8 x9 x10 x11 x12 x13) (layerW 1 x4 x5 x6 x7 x8 x9 x10 x11 x12 x13) (layerW 2 x4 x5 x6 x7 x8 x9 x10 x11 x12 x13) :=
    funext fun j => v181_row x0 x1 x3 x4 x5 x6 x7 x8 x9 x10 x11 x12 x13 hz n j
  rw [hf]
  rfl

end Cert.ReferenceIdeal.RefVal

end
-- ==== Proof.DCut.lean ====
/- The two programs compute the per-atom mean distance and the per-atom cutoff weight by the same host operations on the
   same input (the positions): the reshape to blocks of 64 atoms, the pairwise differences within a block, their squared
   norm plus a small constant, the square root, the mean over the block's 64 partners, and back to one value per atom;
   then the cutoff weight, the cosine of a multiple of that distance times the indicator that the distance is at most 5.
   So what the first program's memory holds at these two vectors when its region is entered is, term for term, the
   second program's value of them at the launch contents of the positions. Stated at any float family. -/
import proofs.«415417_j37220186587161_1_alg».proof.Proof.KIFrame
import proofs.«415417_j37220186587161_1_alg».proof.Proof.Gen.ReferenceIdeal.Read
import Idealize.ShloMosaic.Lib.StableHlo.Run

set_option maxRecDepth 16384

noncomputable section

namespace Cert.DCut

open Cert.KernelIdeal Cert.KernelIdeal.Gen
open Idealize.ShloMosaic Idealize.ShloMosaic.TcCoe Idealize.SL.Sem

variable {F : FTy → Type} [FloatOps F]

set_option maxHeartbeats 1000000 in
/-- The per-atom mean distance: after the first program's host operations the vector holds the composition of the first
    nineteen of them applied to the positions as launched (the later ones write elsewhere), and that composition is the
    second program's value of the same vector, operation for operation. -/
theorem d_eq (m : (ℓ : Loc Cert.KernelIdeal.nD Cert.KernelIdeal.τ Cert.KernelIdeal.sig) → Buf (Elt F) ℓ) (c : Dev Cert.KernelIdeal.nD) :
    Cert.KernelIdeal.HFrame.V m c Cert.KernelIdeal.main_v14
      = Cert.ReferenceIdeal.Read.val_main_v14 (F := F)
          (m ((c : Thread Cert.KernelIdeal.nD Cert.KernelIdeal.τ).loc Cert.KernelIdeal.main_arg1)) := by
  dsimp only [Cert.KernelIdeal.HFrame.V, hostOps0]
  simp only [List.flatten_cons, List.flatten_nil, List.append_nil]
  after_results_simp
  rfl

set_option maxHeartbeats 1000000 in
/-- The per-atom cutoff weight: likewise the composition of the first twenty-eight host operations applied to the
    positions as launched, which is the second program's value of the same vector. -/
theorem cut_eq (m : (ℓ : Loc Cert.KernelIdeal.nD Cert.KernelIdeal.τ Cert.KernelIdeal.sig) → Buf (Elt F) ℓ) (c : Dev Cert.KernelIdeal.nD) :
    Cert.KernelIdeal.HFrame.V m c Cert.KernelIdeal.main_v21
      = Cert.ReferenceIdeal.Read.val_main_v21 (F := F)
          (m ((c : Thread Cert.KernelIdeal.nD Cert.KernelIdeal.τ).loc Cert.KernelIdeal.main_arg1)) := by
  dsimp only [Cert.KernelIdeal.HFrame.V, hostOps0]
  simp only [List.flatten_cons, List.flatten_nil, List.append_nil]
  after_results_simp
  rfl

end Cert.DCut
-- ==== Proof.PreZ.lean ====
/- The precondition, read back at the integer input Z: the printed predicate is a conjunction whose last two conjuncts say
   "every entry of Z is at least 0 as a signed word" and "every entry of Z is below 100 as a signed word". When the
   predicate holds, both hold at each entry, and a 32-bit word that is at least 0 and below 100 as a signed integer has
   an unsigned value below 100. The sixteen conjuncts about the float inputs are not opened. -/
import proofs.«415417_j37220186587161_1_alg».proof.Pre_finite_inputs
import proofs.«415417_j37220186587161_1_alg».proof.Proof.Gen.Pre_finite_inputs
import Idealize.ShloMosaic.Lib.ReduceAll
import Idealize.ShloMosaic.Lib.StableHlo.Predicate

noncomputable section

namespace Cert.PreZ

open Idealize.ShloMosaic
open Cert.Pre_finite_inputs

/-- A 32-bit word that, read as a signed integer, is at least 0 and below 100 has an unsigned value below 100: its top
    bit is clear (else the signed reading would be negative), so the two readings agree. -/
theorem toNat_lt_hundred (w : BitVec 32) (h0 : IntOp.cmpi .sge w (0#32) = 1#1) (h1 : IntOp.cmpi .slt w (100#32) = 1#1) :
    w.toNat < 100 := by
  have g0 : (0#32 : BitVec 32).sle w = true := (StableHlo.Predicate.ofBool_eq_one_iff _).1 h0
  have g1 : w.slt (100#32) = true := (StableHlo.Predicate.ofBool_eq_one_iff _).1 h1
  have c0 : (0#32 : BitVec 32).toInt = 0 := by decide
  have c1 : (100#32 : BitVec 32).toInt = 100 := by decide
  have k0 : (0 : Int) ≤ w.toInt := by
    have := of_decide_eq_true g0
    omega
  have k1 : w.toInt < 100 := by
    have := of_decide_eq_true g1
    omega
  have hw := w.isLt
  rw [BitVec.toInt_eq_toNat_cond] at k0 k1
  split at k0 <;> omega

/-- The shape with no axes has exactly one index. -/
theorem subsingleton_scalarIdx : Subsingleton S_.Idx := ⟨fun a b => funext fun d => d.elim0⟩

variable {F : FTy → Type} [FloatOps F] [Cert.Pre_finite_inputs.Facts]

/-- The last part of the predicate (from the conjunct of the sixteenth float input on): if it holds, every entry of Z has an
    unsigned value below 100. The two outermost conjunctions are split; each "all" gives its comparison at every index, where
    the broadcast scalar constants read 0 and 100. -/
theorem of_part4 (a0 : IVec S131072 32) (a16 : FVec F S64x1 .f32) (a17 : FVec F S1 .f32) (v63 v67 : IVec S_ 1)
    (h : fn_part4 (F := F) a0 a16 a17 v63 v67 = (fun _ => 1#1)) : ∀ i : S131072.Idx, (a0 i).toNat < 100 := by
  intro i
  haveI := subsingleton_scalarIdx
  have h0 := congrFun h (fun a => a.elim0 : S_.Idx)
  unfold fn_part4 fn_part5 at h0
  dsimp only at h0
  obtain ⟨h82, h85⟩ := IntOp.andi_eq_one.1 h0
  obtain ⟨_, h81⟩ := IntOp.andi_eq_one.1 h82
  have ge := Host.reduce_andi_all _ _ _ _ _ h81 i
  have lt := Host.reduce_andi_all _ _ _ _ _ h85 i
  exact toNat_lt_hundred (a0 i) ge lt

/-- The whole predicate: its first ninety-six operations only build the conjunction of the float conjuncts that the last
    part takes as given, so the predicate is the last part at those values, and Z's bound follows from the last part alone. -/
theorem z_lt_of_pre (a0 : IVec S131072 32) (a1 : FVec F S131072x3 .f32) (a2 : IVec S131072 32) (a3 : FVec F S100x128 .f32)
    (a4 : FVec F S3x1x128 .f32) (a5 : FVec F S3x128 .f32) (a6 : FVec F S3x128x128 .f32) (a7 : FVec F S3x128 .f32)
    (a8 : FVec F S3x128x128 .f32) (a9 : FVec F S3x128 .f32) (a10 : FVec F S3x128x128 .f32) (a11 : FVec F S3x128 .f32)
    (a12 : FVec F S3x128x128 .f32) (a13 : FVec F S3x128 .f32) (a14 : FVec F S128x64 .f32) (a15 : FVec F S64 .f32)
    (a16 : FVec F S64x1 .f32) (a17 : FVec F S1 .f32)
    (h : Cert.Pre_finite_inputs.fn (F := F) a0 a1 a2 a3 a4 a5 a6 a7 a8 a9 a10 a11 a12 a13 a14 a15 a16 a17 = (fun _ => 1#1)) :
    ∀ i : Cert.Pre_finite_inputs.S131072.Idx, (a0 i).toNat < 100 := by
  unfold Cert.Pre_finite_inputs.fn fn_part1 fn_part2 fn_part3 at h
  exact of_part4 a0 a16 a17 _ _ h

end Cert.PreZ
-- ==== Proof.lean ====
/-
  A SchNet-style network over 131072 atoms: each atom's prediction is a function of its atomic number (an embedding
  row), its mean pair distance `d` inside its molecule and the cutoff weight `cut = cos(d·π/10)·[d ≤ 5]`, through
  three interaction layers and a two-layer head (`Cert.Spec.G`, Proof/Spec.lean). The kernel computes `d` and `cut`
  by host operations, packs `[z, d, cut]` per atom, and runs ONE fused region over blocks of 4096 atoms: the embedding
  row as a one-hot row times the table padded with zero rows to 128 rows, the layers as matrix products per block.
  The reference computes the same `d` and `cut` by the same host operations (Proof/DCut.lean), gathers the embedding
  row, and applies the layers to the whole arrays. Rows do not interact, so both arrays are the row function `G` of the
  arguments: the kernel's by its blocks covering the array (Proof/KIVal.lean at a row of a block, Proof/KIArr.lean from
  the blocks to the array), the reference's stage by stage (Proof/RefVal.lean). The two embedding rows agree exactly
  when the atomic number indexes the table's 100 rows: outside that range the reference's gather clamps or wraps
  while the one-hot product gives the zero row, hence the precondition's conjunct `0 ≤ Z < 100`
  (decoded in Proof/PreZ.lean); no finiteness is used: a one-hot row times any extended reals selects one entry,
  and every other step is the same sum of the same products on both sides.
  The frames: the two kernel programs' are Proof/KFrame.lean and Proof/KIFrame.lean (one text, generic in the float
  family); the reference's is its run with the result dropped. The ideal pass rewrote nothing, so `preserves` is `True`.
-/
import proofs.«415417_j37220186587161_1_alg».proof.Defs
import proofs.«415417_j37220186587161_1_alg».proof.Proof.Gen.Kernel
import proofs.«415417_j37220186587161_1_alg».proof.Proof.Gen.KernelIdeal
import proofs.«415417_j37220186587161_1_alg».proof.Proof.Gen.ReferenceIdeal
import proofs.«415417_j37220186587161_1_alg».proof.Proof.Gen.Pre_finite_inputs
import proofs.«415417_j37220186587161_1_alg».proof.Proof.Gen.ReferenceIdeal.Run
import proofs.«415417_j37220186587161_1_alg».proof.Proof.Gen.ReferenceIdeal.Read
import proofs.«415417_j37220186587161_1_alg».proof.Proof.KFrame
import proofs.«415417_j37220186587161_1_alg».proof.Proof.KIFrame
import proofs.«415417_j37220186587161_1_alg».proof.Proof.KIArr
import proofs.«415417_j37220186587161_1_alg».proof.Proof.RefVal
import proofs.«415417_j37220186587161_1_alg».proof.Proof.DCut
import proofs.«415417_j37220186587161_1_alg».proof.Proof.PreZ
import Idealize.ShloMosaic.Adequacy
import Idealize.ShloMosaic.Init

noncomputable section

namespace Cert.Proof

open Idealize.ShloMosaic Idealize.SL.Sem Idealize.ShloMosaic.ValueIdx

/-- The word-level kernel program runs to the end, faults nowhere and leaves its arguments as launched. -/
theorem frame_k : Cert.frame_Kernel := fun m ρ _ => Cert.Kernel.HFrame.frame m ρ

/-- The same of the idealized kernel program. -/
theorem frame_ki : Cert.frame_KernelIdeal := fun m ρ _ => Cert.KernelIdeal.HFrame.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- Both programs end with the result array at the row function `G` of the arguments: the kernel's by its blocks,
    the reference's stage by stage, the per-atom distance and cutoff vectors being one term on both sides and the
    atomic numbers indexing the table's rows by the precondition. -/
theorem algebraic : Cert.algebraic_KernelIdeal_ReferenceIdeal := by
  intro m ρ m' ρ' hpre hagree
  refine ⟨fun c => Cert.Spec.G (m ((c.tc : Thread Cert.KernelIdeal.nD Cert.KernelIdeal.τ).loc Cert.KernelIdeal.main_arg0))
      (Cert.KernelIdeal.HFrame.V m c Cert.KernelIdeal.main_v14) (Cert.KernelIdeal.HFrame.V m c Cert.KernelIdeal.main_v21)
      (m ((c.tc : Thread Cert.KernelIdeal.nD Cert.KernelIdeal.τ).loc Cert.KernelIdeal.main_arg3)) (Cert.KernelIdeal.Arr.Wm m c),
    Cert.KernelIdeal.Arr.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, -, a3, a4, a5, a6, a7, a8, a9, a10, a11, a12, a13, a14, a15, a16, a17⟩ := hagree c
  have hz := Cert.PreZ.z_lt_of_pre _ _ _ _ _ _ _ _ _ _ _ _ _ _ _ _ _ _ (hpre c)
  rw [Cert.ReferenceIdeal.Read.val_main_v190_eq, a0, a1, a3, a4, a5, a6, a7, a8, a9, a10, a11, a12, a13, a14, a15, a16, a17]
  funext i
  obtain ⟨n, rfl⟩ : ∃ n : Fin 131072, i = ix2 n (0 : Fin 1) :=
    ⟨i 0, (eq_ix2 i).trans (congrArg (ix2 (i 0)) (Fin.ext (by
      have h : (i 1).val < 1 := (i 1).isLt
      show (i 1).val = 0
      omega)))⟩
  rw [Cert.ReferenceIdeal.RefVal.ref_apply _ _ _ _ _ _ _ _ _ _ _ _ _ _ _ _ _ hz n, ← Cert.DCut.d_eq m c, ← Cert.DCut.cut_eq m c]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
